-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2000x512 .f32 .bf16
  ∧ IdealRules.truncf_extf.Statement Cert.KernelIdeal.S2000x512 .f32 .bf16
  ∧ IdealRules.truncf_extf.Statement Cert.KernelIdeal.S2000x512 .f32 .bf16
  ∧ IdealRules.truncf_extf.Statement Cert.KernelIdeal.S2000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S2048 : Shape := ⟨1, ![2048]⟩
abbrev S1x128 : Shape := ⟨2, ![1, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_c_6 : IVec S_ 32 := constantI S_ 32 0#32
  let main_v19 : IVec S1000000 32 := broadcastInDim S1000000 ![] bcast_S_S1000000 main_c_6
  let main_v20 : IVec S1000000 1 := cmpi .sge main_arg1 main_v19
  let main_c_7 : IVec S_ 1 := constantI S_ 1 1#1
  let main_v21 : IVec S_ 1 := (fun x v => Host.reduce IntOp.andi x v reducesTo_S1000000_S_d0 h_S_) main_v20 main_c_7
  let main_v22 : IVec S_ 1 := andi main_v18 main_v21
  let main_c_8 : IVec S_ 32 := constantI S_ 32 2048#32
  let main_v23 : IVec S1000000 32 := broadcastInDim S1000000 ![] bcast_S_S1000000 main_c_8
  let main_v24 : IVec S1000000 1 := cmpi .slt main_arg1 main_v23
  let main_c_9 : IVec S_ 1 := constantI S_ 1 1#1
  let main_v25 : IVec S_ 1 := (fun x v => Host.reduce IntOp.andi x v reducesTo_S1000000_S_d0 h_S_) main_v24 main_c_9
  let main_v26 : IVec S_ 1 := andi main_v22 main_v25
  main_v26

def fn {F : FTy → Type} [FloatOps F] (main_arg0 : FVec F S1000000x128 .f32) (main_arg1 : IVec S1000000 32) (main_arg2 : IVec S2048 32) (main_arg3 : FVec F S1x128 .f32) (main_arg4 : FVec F S1x128 .f32) (main_arg5 : FVec F S1x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_v13 main_v16
-- ==== Kernel.lean ====
abbrev S1000000x128 : Shape := ⟨2, ![1000000, 128]⟩
abbrev S1000000 : Shape := ⟨1, ![1000000]⟩
abbrev S2048 : Shape := ⟨1, ![2048]⟩
abbrev S1x128 : Shape := ⟨2, ![1, 128]⟩
abbrev S_ : Shape := ⟨0, ![]⟩
abbrev S1000000x1 : Shape := ⟨2, ![1000000, 1]⟩
abbrev S2x2048x256 : Shape := ⟨3, ![2, 2048, 256]⟩
abbrev S2x1x2048 : Shape := ⟨3, ![2, 1, 2048]⟩
abbrev S2000x128 : Shape := ⟨2, ![2000, 128]⟩
abbrev S2000x1 : Shape := ⟨2, ![2000, 1]⟩
abbrev S1x2048x256 : Shape := ⟨3, ![1, 2048, 256]⟩
abbrev S1x1x2048 : Shape := ⟨3, ![1, 1, 2048]⟩
abbrev S2048x256 : Shape := ⟨2, ![2048, 256]⟩
abbrev S1x2048 : Shape := ⟨2, ![1, 2048]⟩
abbrev S2000x256 : Shape := ⟨2, ![2000, 256]⟩
abbrev S2000x512 : Shape := ⟨2, ![2000, 512]⟩
abbrev S512x256 : Shape := ⟨2, ![512, 256]⟩
abbrev S1x512x256 : Shape := ⟨3, ![1, 512, 256]⟩
abbrev S512 : Shape := ⟨1, ![512]⟩
abbrev S1x512 : Shape := ⟨2, ![1, 512]⟩
abbrev S1x1x512 : Shape := ⟨3, ![1, 1, 512]⟩
abbrev S2048x1 : Shape := ⟨2, ![2048, 1]⟩
abbrev S2048x128 : Shape := ⟨2, ![2048, 128]⟩

abbrev nBuf : Space → Nat
  | .hbm => 56
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S2048, .i32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S2x2048x256, .f32⟩
  | .hbm, ⟨16, _⟩ => ⟨S2x1x2048, .f32⟩
  | .hbm, ⟨17, _⟩ => ⟨S_, .f32⟩
  | .hbm, ⟨18, _⟩ => ⟨S1x2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x256, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S_, .f32⟩
  | .hbm, ⟨43, _⟩ => ⟨S2048x128, .f32⟩
  | .hbm, ⟨44, _⟩ => ⟨S2048x128, .f32⟩
  | .hbm, ⟨45, _⟩ => ⟨S_, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S2048x256, .f32⟩
  | .hbm, ⟨55, _⟩ => ⟨S1000000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S1x2048x256, .f32⟩
  | .local _ .vmem, ⟨5, _⟩ => ⟨S1x2048x256, .f32⟩
  | .local _ .vmem, ⟨6, _⟩ => ⟨S1x1x2048, .f32⟩
  | .local _ .vmem, ⟨7, _⟩ => ⟨S1x1x2048, .f32⟩
  | .local _ .vmem, ⟨8, _⟩ => ⟨S2000x128, .f32⟩
  | .local _ .vmem, ⟨9, _⟩ => ⟨S2000x128, .f32⟩
  | .local _ .vmem, ⟨10, _⟩ => ⟨S2000x1, .i32⟩
  | .local _ .vmem, ⟨11, _⟩ => ⟨S2000x1, .i32⟩
  | .local _ .vmem, ⟨12, _⟩ => ⟨S2048x256, .f32⟩
  | .local _ .vmem, ⟨13, _⟩ => ⟨S2000x128, .f32⟩
  | .local _ .vmem, ⟨14, _⟩ => ⟨S2000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1000000 : S_.BroadcastsInDim S1000000 (![] : Fin 0 → Fin S1000000.rank)
  shapeCasts_S1000000_S1000000x1 : S1000000.ShapeCasts S1000000x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  concatenates_S2000x128_S2000x128_S2000x256_d1 : Shape.Concatenates [S2000x128, S2000x128] S2000x256 1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S1x2048x256_S1x512x256_0_0_0 : ∀ a, (![0, 0, 0] : Fin 3 → Nat) a + S1x512x256.size a ≤ S1x2048x256.size a
  h_S1x512x256 : 0 < S1x512x256.numel
  shapeCasts_S1x512x256_S512x256 : S1x512x256.ShapeCasts S512x256
  shapeCasts_S512x256_S1x512x256 : S512x256.ShapeCasts S1x512x256
  reduces_S2000x512_S512 : S2000x512.Reduces [0] S512
  shapeCasts_S512_S1x512 : S512.ShapeCasts S1x512
  inb_S1x1x2048_S1x1x512_0_0_0 : ∀ a, (![0, 0, 0] : Fin 3 → Nat) a + S1x1x512.size a ≤ S1x1x2048.size a
  h_S1x1x512 : 0 < S1x1x512.numel
  shapeCasts_S1x1x512_S1x512 : S1x1x512.ShapeCasts S1x512
  shapeCasts_S1x512_S1x1x512 : S1x512.ShapeCasts S1x1x512
  inb_S1x2048x256_S1x512x256_0_512_0 : ∀ a, (![0, 512, 0] : Fin 3 → Nat) a + S1x512x256.size a ≤ S1x2048x256.size a
  inb_S1x1x2048_S1x1x512_0_0_512 : ∀ a, (![0, 0, 512] : Fin 3 → Nat) a + S1x1x512.size a ≤ S1x1x2048.size a
  inb_S1x2048x256_S1x512x256_0_1024_0 : ∀ a, (![0, 1024, 0] : Fin 3 → Nat) a + S1x512x256.size a ≤ S1x2048x256.size a
  inb_S1x1x2048_S1x1x512_0_0_1024 : ∀ a, (![0, 0, 1024] : Fin 3 → Nat) a + S1x1x512.size a ≤ S1x1x2048.size a
  inb_S1x2048x256_S1x512x256_0_1536_0 : ∀ a, (![0, 1536, 0] : Fin 3 → Nat) a + S1x512x256.size a ≤ S1x2048x256.size a
  inb_S1x1x2048_S1x1x512_0_0_1536 : ∀ a, (![0, 0, 1536] : Fin 3 → Nat) a + S1x1x512.size a ≤ S1x1x2048.size a
  reducesTo_S2x1x2048_S1x2048_d0 : S2x1x2048.ReducesTo [0] S1x2048
  h_S_ : 0 < S_.numel
  shapeCasts_S1x2048_S2048x1 : S1x2048.ShapeCasts S2048x1
  bcast_S_S2048x1 : S_.BroadcastsInDim S2048x1 (![] : Fin 0 → Fin S2048x1.rank)
  reducesTo_S2x2048x256_S2048x256_d0 : S2x2048x256.ReducesTo [0] S2048x256
  slices_S2048x256_S2048x128_0_0 : S2048x256.Slices ![0, 0] S2048x128
  slices_S2048x256_S2048x128_0_128 : S2048x256.Slices ![0, 128] S2048x128
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S_S1x128 : S_.BroadcastsInDim S1x128 (![] : Fin 0 → Fin S1x128.rank)
  bcast_S_S2048x128 : S_.BroadcastsInDim S2048x128 (![] : Fin 0 → Fin S2048x128.rank)
  concatenates_S2048x128_S2048x128_S2048x256_d1 : Shape.Concatenates [S2048x128, S2048x128] S2048x256 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S2048x256_o0_0_S512x256 : S2048x256.Slices ![0, 0] S512x256
  slices_S2048x256_o512_0_S512x256 : S2048x256.Slices ![512, 0] S512x256
  slices_S2048x256_o1024_0_S512x256 : S2048x256.Slices ![1024, 0] S512x256
  slices_S2048x256_o1536_0_S512x256 : S2048x256.Slices ![1536, 0] S512x256
  slices_S2000x256_o0_0_S2000x128 : S2000x256.Slices ![0, 0] S2000x128
  slices_S2000x256_o0_128_S2000x128 : S2000x256.Slices ![0, 128] S2000x128
  dot_S2000x512_S2000x256_S512x256_0_0_1_1_n_n_wf : DotDims.WF S2000x512 S2000x256 S512x256 [0] [0] [1] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S1000000x128.size a
  hwx0_0 : ∀ i : grid0.Coords, EltTy.bits .f32 = 32 ∨ (Rect.block (s := S1000000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1000000x1.size a
  hwx0_1 : ∀ i : grid0.Coords, EltTy.bits .i32 = 32 ∨ (Rect.block (s := S1000000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S2x2048x256.size a
  hwx0_2 : ∀ i : grid0.Coords, EltTy.bits .f32 = 32 ∨ (Rect.block (s := S2x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S1000000x128.size a
  hwx1_0 : ∀ i : grid1.Coords, EltTy.bits .f32 = 32 ∨ (Rect.block (s := S1000000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S1000000x1.size a
  hwx1_1 : ∀ i : grid1.Coords, EltTy.bits .i32 = 32 ∨ (Rect.block (s := S1000000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .f32 = 32 ∨ (Rect.block (s := S2048x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S1000000x128.size a
  hwx1_3 : ∀ i : grid1.Coords, EltTy.bits .f32 = 32 ∨ (Rect.block (s := S1000000x128) S2000x128.size (cc1_transform_3 i) (hinb1_3 i)).WholeWords (EltTy.packing .f32)

variable [Facts₀]

def dot_S2000x512_S2000x256_S512x256_0_0_1_1_n_n : DotDims S2000x512 S2000x256 S512x256 where
  lhsContracting := [0]
  rhsContracting := [0]
  lhsNonContracting := [1]
  rhsNonContracting := [1]
  lhsBatch := []
  rhsBatch := []
  wf := dot_S2000x512_S2000x256_S512x256_0_0_1_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S2048 : Shape := ⟨1, ![2048]⟩
abbrev S1x128 : Shape := ⟨2, ![1, 128]⟩
abbrev S_ : Shape := ⟨0, ![]⟩
abbrev S1000000x1 : Shape := ⟨2, ![1000000, 1]⟩
abbrev S2048x1 : Shape := ⟨2, ![2048, 1]⟩
abbrev S2048x128 : Shape := ⟨2, ![2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S2048, .i32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S2048, .f32⟩
  | .hbm, ⟨10, _⟩ => ⟨S1000000x1, .i32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x128, .f32⟩
  | .hbm, ⟨15, _⟩ => ⟨S1000000x1, .i32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S2048x128, .f32⟩
  | .hbm, ⟨34, _⟩ => ⟨S1000000x1, .i32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x128, .f32⟩
  | .hbm, ⟨51, _⟩ => ⟨S1000000x128, .f32⟩
  | .hbm, ⟨52, _⟩ => ⟨S1000000x128, .f32⟩
  | .hbm, ⟨53, _⟩ => ⟨S1000000x128, .f32⟩
  | .hbm, ⟨54, _⟩ => ⟨S1000000x128, .f32⟩
  | .hbm, ⟨55, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S2048 : S_.BroadcastsInDim S2048 (![] : Fin 0 → Fin S2048.rank)
  bcast_S1000000_S1000000x1_0 : S1000000.BroadcastsInDim S1000000x1 (![0] : Fin 1 → Fin S1000000x1.rank)
  bcast_S2048_S2048x1_0 : S2048.BroadcastsInDim S2048x1 (![0] : Fin 1 → Fin S2048x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S1x128_S1000000x128_0_1 : S1x128.BroadcastsInDim S1000000x128 (![0, 1] : Fin 2 → Fin S1000000x128.rank)
  scatter_S2048_S1000000x1_S1000000_n_0_0_1_wf : ScatterDims.WF S2048 S1000000x1 S1000000 [] [0] [0] 1
  scatter_S2048x128_S1000000x1_S1000000x128_1_0_0_1_wf : ScatterDims.WF S2048x128 S1000000x1 S1000000x128 [1] [0] [0] 1
  gather_S2048x128_S1000000x1_S1000000x128_1_0_n_n_0_1_1128_wf : GatherDims.WF S2048x128 S1000000x1 S1000000x128 [1] [0] [] [0] [] 1 ![1, 128]

variable [Facts₀]

def scatter_S2048_S1000000x1_S1000000_n_0_0_1 : ScatterDims S2048 S1000000x1 S1000000 where
  updateWindowDims := []
  insertedWindowDims := [0]
  scatterDimsToOperandDims := [0]
  indexVectorDim := 1
  wf := scatter_S2048_S1000000x1_S1000000_n_0_0_1_wf
def scatter_S2048x128_S1000000x1_S1000000x128_1_0_0_1 : ScatterDims S2048x128 S1000000x1 S1000000x128 where
  updateWindowDims := [1]
  insertedWindowDims := [0]
  scatterDimsToOperandDims := [0]
  indexVectorDim := 1
  wf := scatter_S2048x128_S1000000x1_S1000000x128_1_0_0_1_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf

class Facts : Prop extends Facts₀ where

variable [Facts]
-- ==== Proof.Spec.lean ====
/-
  Graph normalisation over segments, as plain functions on the extended reals.

  A node `n` (one of 1,000,000 rows of 128 features) belongs to the segment its id word `g n` names.
  The reference normalises every feature of a node by its segment's statistics:
    m = (sum over the segment of x) / count,   d = x - alpha * m,
    out = d / sqrt((sum over the segment of d^2) / count + eps) * gamma + beta.
  The kernel first accumulates, per core (two halves of the rows) and per segment, the sums of x and of x^2 and the
  count, builds from them a table of 2048 rows [scale | shift] with
    var = sum x^2 / count - m^2 * (2 alpha - alpha^2) (clipped at 0),  scale = gamma / sqrt(var + eps),
    shift = beta - alpha * m * scale,
  and then returns x * scale + shift of the node's own segment row.
  This module only NAMES those functions; nothing is proved here.
-/
import Idealize.ShloMosaic.PureOps.Ideal
import Idealize.ShloMosaic.Lib.ValueIdx

noncomputable section

open scoped BigOperators

namespace GraphNorm

open Idealize.ShloMosaic Idealize.ShloMosaic.ValueIdx

/-- The node features, the per-feature parameters. -/
abbrev Feat := (⟨2, ![1000000, 128]⟩ : Shape).Idx → EReal
abbrev Par := (⟨2, ![1, 128]⟩ : Shape).Idx → EReal

/-- The indicator of "the id word `w` names segment `b`": 1 or 0. -/
def oh (w : BitVec 32) (b : Nat) : EReal := if w = BitVec.ofNat 32 b then 1 else 0

/-- Row `r` of block `i` of the half of the rows core `k` owns: `(250 k + i) * 2000 + r`. -/
def rowOf (k : Fin 2) (i : Fin 250) (r : Fin 2000) : Fin 1000000 :=
  ⟨(250 * k.val + i.val) * 2000 + r.val, by have := k.isLt; have := i.isLt; have := r.isLt; omega⟩

/-- Column `f` of the left half (the sums of x; the scales) and of the right half (the sums of x²; the shifts) of a
    256-wide row. -/
def lo (f : Fin 128) : Fin 256 := ⟨f.val, by have := f.isLt; omega⟩
def hi (f : Fin 128) : Fin 256 := ⟨128 + f.val, by have := f.isLt; omega⟩

/-- The stacked features of a node: x in columns 0..127, x² in columns 128..255. -/
def feat (x : Feat) (n : Fin 1000000) (q : Fin 256) : EReal :=
  if h : q.val < 128 then x (ix2 n ⟨q.val, h⟩)
  else x (ix2 n ⟨q.val - 128, by have := q.isLt; omega⟩) * x (ix2 n ⟨q.val - 128, by have := q.isLt; omega⟩)

/-- What core `k` accumulates for segment `b`, column `q`: the stacked features of its rows whose id is `b`. -/
def partSum (x : Feat) (g : Fin 1000000 → BitVec 32) (k : Fin 2) (b : Fin 2048) (q : Fin 256) : EReal :=
  ∑ i : Fin 250, ∑ r : Fin 2000, oh (g (rowOf k i r)) b.val * feat x (rowOf k i r) q

/-- … and how many of its rows have id `b`. -/
def partCnt (g : Fin 1000000 → BitVec 32) (k : Fin 2) (b : Fin 2048) : EReal :=
  ∑ i : Fin 250, ∑ r : Fin 2000, oh (g (rowOf k i r)) b.val

/-- The float words the two programs spell: eps = f32(1e-3), 2.0, 1.0. -/
def epsE : EReal := Ideal.ofBits .f32 0x3A83126F#32
def twoE : EReal := Ideal.ofBits .f32 0x40000000#32
def oneE : EReal := Ideal.ofBits .f32 0x3F800000#32

/-! ## The kernel's table, from the two cores' accumulators -/

section Table
variable (acc : Fin 2 → Fin 2048 → Fin 256 → EReal) (cacc : Fin 2 → Fin 2048 → EReal) (ga be al : Par)

/-- The segment's count, at least one. -/
def cntSafe (b : Fin 2048) : EReal := max (cacc 0 b + cacc 1 b) oneE
/-- The segment's mean of x and of x². -/
def meanK (b : Fin 2048) (f : Fin 128) : EReal := Ideal.div (acc 0 b (lo f) + acc 1 b (lo f)) (cntSafe cacc b)
def msqK (b : Fin 2048) (f : Fin 128) : EReal := Ideal.div (acc 0 b (hi f) + acc 1 b (hi f)) (cntSafe cacc b)
/-- The variance about the shifted mean, by the second-moment identity, clipped at zero. -/
def varK (b : Fin 2048) (f : Fin 128) : EReal :=
  max (msqK acc cacc b f - (meanK acc cacc b f * meanK acc cacc b f) * (twoE * al (ix2 0 f) - al (ix2 0 f) * al (ix2 0 f))) 0
def scaleK (b : Fin 2048) (f : Fin 128) : EReal := Ideal.div (ga (ix2 0 f)) (Ideal.sqrt (varK acc cacc al b f + epsE))
def shiftK (b : Fin 2048) (f : Fin 128) : EReal :=
  be (ix2 0 f) - (meanK acc cacc b f * al (ix2 0 f)) * scaleK acc cacc ga al b f

end Table

/-- The kernel's result at node `n`, feature `f`, when the node's id names segment `b`. -/
def kerOut (x : Feat) (g : Fin 1000000 → BitVec 32) (ga be al : Par) (n : Fin 1000000) (f : Fin 128) (b : Fin 2048) : EReal :=
  x (ix2 n f) * scaleK (partSum x g) (partCnt g) ga al b f + shiftK (partSum x g) (partCnt g) ga be al b f

/-! ## The reference -/

/-- The nodes of segment `b`. -/
def seg (g : Fin 1000000 → BitVec 32) (b : Nat) : Finset (Fin 1000000) :=
  Finset.univ.filter fun e => g e = BitVec.ofNat 32 b

section Ref
variable (x : Feat) (g : Fin 1000000 → BitVec 32) (ga be al : Par)

def cntR (b : Nat) : EReal := ∑ _e ∈ seg g b, oneE
def sumR (b : Nat) (f : Fin 128) : EReal := ∑ e ∈ seg g b, x (ix2 e f)
/-- The shifted mean, `alpha` times the segment's mean. -/
def meanAR (b : Nat) (f : Fin 128) : EReal := Ideal.div (sumR x g b f) (cntR g b) * al (ix2 0 f)
/-- A node's deviation from its own segment's shifted mean. -/
def diffR (e : Fin 1000000) (f : Fin 128) : EReal := x (ix2 e f) - meanAR x g al (g e).toNat f
def ssqR (b : Nat) (f : Fin 128) : EReal := ∑ e ∈ seg g b, diffR x g al e f * diffR x g al e f
def sdR (b : Nat) (f : Fin 128) : EReal := Ideal.sqrt (Ideal.div (ssqR x g al b f) (cntR g b) + epsE)
/-- The reference's result at node `n`, feature `f`. -/
def refOut (n : Fin 1000000) (f : Fin 128) : EReal :=
  Ideal.div (diffR x g al n f) (sdR x g al (g n).toNat f) * ga (ix2 0 f) + be (ix2 0 f)

end Ref

end GraphNorm

end
-- ==== Proof.PassASums.lean ====
import proofs.«423812_j249108103838_3_alg».proof.Proof.Gen.KernelIdeal.Frame
import proofs.«423812_j249108103838_3_alg».proof.Proof.Spec
import Idealize.ShloMosaic.Lib.Pipeline.Value
import Idealize.ShloMosaic.PureOps.Ideal.Laws

noncomputable section

open scoped BigOperators

namespace Cert.KernelIdeal.PassA

open Idealize.ShloMosaic Idealize.ShloMosaic.TcCoe Idealize.SL.Sem Idealize.ShloMosaic.ValueIdx
open Cert.KernelIdeal Cert.KernelIdeal.Gen GraphNorm
open Idealize.ShloMosaic.Pipeline (Dat)

/-- The stacked features of row `r` of a block of 2000 rows: x in columns 0..127, x² in columns 128..255. -/
def featBlk (xb : S2000x128.Idx → EReal) (r : Fin 2000) (q : Fin 256) : EReal :=
  if h : q.val < 128 then xb (ix2 r ⟨q.val, h⟩)
  else xb (ix2 r ⟨q.val - 128, by have := q.isLt; omega⟩) * xb (ix2 r ⟨q.val - 128, by have := q.isLt; omega⟩)

/-! ## The contraction "tb,tf->bf" read at an index -/

theorem sums_lhs_ax0 (i : S512x256.Idx) (k : dot_S2000x512_S2000x256_S512x256_0_0_1_1_n_n.contr.Idx) :
    (dot_S2000x512_S2000x256_S512x256_0_0_1_1_n_n.lhsIdx i k 0).val = (k ⟨0, by decide⟩).val :=
  dot_S2000x512_S2000x256_S512x256_0_0_1_1_n_n.lhsIdx_val_of_single rfl i k

/-- … and at the result's row (the lane within the chunk) on its axis 1. -/
theorem sums_lhs_ax1 (i : S512x256.Idx) (k : dot_S2000x512_S2000x256_S512x256_0_0_1_1_n_n.contr.Idx) :
    (dot_S2000x512_S2000x256_S512x256_0_0_1_1_n_n.lhsIdx i k 1).val = (i 0).val := by
  unfold DotDims.lhsIdx
  rw [dif_neg (show ¬(1 : Fin S2000x512.rank) ∈ dot_S2000x512_S2000x256_S512x256_0_0_1_1_n_n.lhsBatch by decide),
    dif_pos (show (1 : Fin S2000x512.rank) ∈ dot_S2000x512_S2000x256_S512x256_0_0_1_1_n_n.lhsNonContracting by decide)]
  rfl

/-- The feature operand is read at the contracted row on its axis 0 … -/
theorem sums_rhs_ax0 (i : S512x256.Idx) (k : dot_S2000x512_S2000x256_S512x256_0_0_1_1_n_n.contr.Idx) :
    (dot_S2000x512_S2000x256_S512x256_0_0_1_1_n_n.rhsIdx i k 0).val = (k ⟨0, by decide⟩).val :=
  dot_S2000x512_S2000x256_S512x256_0_0_1_1_n_n.rhsIdx_val_of_single rfl i k

/-- … and at the result's column on its axis 1. -/
theorem sums_rhs_ax1 (i : S512x256.Idx) (k : dot_S2000x512_S2000x256_S512x256_0_0_1_1_n_n.contr.Idx) :
    (dot_S2000x512_S2000x256_S512x256_0_0_1_1_n_n.rhsIdx i k 1).val = (i 1).val := by
  unfold DotDims.rhsIdx
  rw [dif_neg (show ¬(1 : Fin S2000x256.rank) ∈ dot_S2000x512_S2000x256_S512x256_0_0_1_1_n_n.rhsBatch by decide),
    dif_pos (show (1 : Fin S2000x256.rank) ∈ dot_S2000x512_S2000x256_S512x256_0_0_1_1_n_n.rhsNonContracting by decide)]
  rfl

/-- The product of an indicator chunk [2000,512] with the stacked features [2000,256], both contracted over the rows,
    into a zero accumulator: entry (l, q) is the sum over the rows of the products. -/
theorem sums_rows_contract (lhs : FVec Ideal S2000x512 .bf16) (rhs : FVec Ideal S2000x256 .bf16) (l : Fin 512) (q : Fin 256) :
    (matmul dot_S2000x512_S2000x256_S512x256_0_0_1_1_n_n none lhs rhs (constant (F := Ideal) S512x256 .f32 0x00000000#32)
        : S512x256.Idx → EReal) (ix2 l q)
      = ∑ r : Fin 2000, lhs (ix2 r l) * rhs (ix2 r q) := by
  show FloatOps.matmul dot_S2000x512_S2000x256_S512x256_0_0_1_1_n_n none lhs rhs _ (ix2 l q) = _
  rw [Ideal.matmul_constant_zero_apply,
    ← Equiv.sum_comp (contrEquiv1 dot_S2000x512_S2000x256_S512x256_0_0_1_1_n_n 2000 rfl rfl).symm]
  refine Finset.sum_congr rfl fun k _ => ?_
  have hk := contrEquiv1_symm_val dot_S2000x512_S2000x256_S512x256_0_0_1_1_n_n 2000 rfl rfl k
  have el : dot_S2000x512_S2000x256_S512x256_0_0_1_1_n_n.lhsIdx (ix2 l q)
      ((contrEquiv1 dot_S2000x512_S2000x256_S512x256_0_0_1_1_n_n 2000 rfl rfl).symm k) = ix2 k l :=
    funext fun a => Fin.ext (by
      match a with
      | ⟨0, _⟩ => exact (sums_lhs_ax0 _ _).trans hk
      | ⟨1, _⟩ => exact sums_lhs_ax1 _ _)
  have er : dot_S2000x512_S2000x256_S512x256_0_0_1_1_n_n.rhsIdx (ix2 l q)
      ((contrEquiv1 dot_S2000x512_S2000x256_S512x256_0_0_1_1_n_n 2000 rfl rfl).symm k) = ix2 k q :=
    funext fun a => Fin.ext (by
      match a with
      | ⟨0, _⟩ => exact (sums_rhs_ax0 _ _).trans hk
      | ⟨1, _⟩ => exact sums_rhs_ax1 _ _)
  rw [el, er]

/-! ## The indicator entry -/

/-- "The id word is the lane number plus the chunk's first segment", as the float 1 or 0. -/
theorem sums_ind_word (w : BitVec 32) (off l : Nat) :
    (FloatOps.sitofp (F := Ideal) .f32
        ((IntOp.cmpi .eq w (IntOp.addi (BitVec.ofNat 32 l) (BitVec.ofNat 32 off))).setWidth 32) : EReal)
      = oh w (off + l) := by
  have e : IntOp.addi (BitVec.ofNat 32 l) (BitVec.ofNat 32 off) = BitVec.ofNat 32 (off + l) := by
    show BitVec.ofNat 32 l + BitVec.ofNat 32 off = _
    rw [← BitVec.ofNat_add, Nat.add_comm]
  rw [e]
  unfold oh
  show (((BitVec.setWidth 32 (IntOp.cmpi .eq w (BitVec.ofNat 32 (off + l)))).toInt : ℝ) : EReal) = _
  by_cases h : w = BitVec.ofNat 32 (off + l)
  · rw [if_pos h, h]
    simp [IntOp.cmpi]
  · rw [if_neg h]
    have hb : (w == BitVec.ofNat 32 (off + l)) = false := by simpa using h
    simp [IntOp.cmpi, hb]

/-- The indicator chunk at (row r, lane l): 1 if the row's id word names segment off + l, else 0. -/
theorem sums_ind_apply (offw : BitVec 32) (off : Nat) (hoff : offw = BitVec.ofNat 32 off) (v9 : IVec S2000x1 32) (r : Fin 2000) (l : Fin 512) :
    (sitofp (F := Ideal) .f32 (extui 32 (cmpi .eq (broadcastTo S2000x512 v9 broadcasts_S2000x1_S2000x512)
        (addi (iota .tc S2000x512 32 [1] iota_S2000x512_d1_w32) (broadcast S2000x512 offw))) natLt_1_32)
        : S2000x512.Idx → EReal) (ix2 r l)
      = oh (v9 (ix2 r 0)) (off + l.val) := by
  subst hoff
  have hb : broadcastTo S2000x512 v9 broadcasts_S2000x1_S2000x512 (ix2 r l) = v9 (ix2 r 0) :=
    broadcastTo_apply v9 broadcasts_S2000x1_S2000x512 (ix2 r l) (ix2 r 0) fun a => by
      match a with
      | ⟨0, _⟩ => rfl
      | ⟨1, _⟩ => rfl
  have hi : iota .tc S2000x512 32 [1] iota_S2000x512_d1_w32 (ix2 r l) = BitVec.ofNat 32 l.val :=
    iota_single_apply .tc S2000x512 32 1 iota_S2000x512_d1_w32 (ix2 r l)
  show FloatOps.sitofp (F := Ideal) .f32 ((IntOp.cmpi .eq (broadcastTo S2000x512 v9 broadcasts_S2000x1_S2000x512 (ix2 r l))
      (IntOp.addi (iota .tc S2000x512 32 [1] iota_S2000x512_d1_w32 (ix2 r l)) (BitVec.ofNat 32 off))).setWidth 32) = _
  rw [hb, hi]
  exact sums_ind_word _ off l.val

/-! ## The stacked features -/

/-- The body's concatenation [x | x·x] along the columns, read at (r, q). -/
theorem sums_feat_apply (x0 : S2000x128.Idx → EReal) (r : Fin 2000) (q : Fin 256) :
    (k0_pay3 (F := Ideal) x0 : S2000x256.Idx → EReal) (ix2 r q) = featBlk x0 r q := by
  unfold k0_pay3 featBlk
  by_cases h : q.val < 128
  · rw [dif_pos h]
    refine (concatenate_pair_apply_left (1 : Fin S2000x256.rank) _ _ concatenates_S2000x128_S2000x128_S2000x256_d1 (ix2 r q) rfl
      (ix2 r ⟨q.val, h⟩) (fun b => by
        match b with
        | ⟨0, _⟩ => rfl
        | ⟨1, _⟩ => rfl)).trans ?_
    rfl
  · rw [dif_neg h]
    refine (concatenate_pair_apply_right (1 : Fin S2000x256.rank) _ _ concatenates_S2000x128_S2000x128_S2000x256_d1 (ix2 r q) rfl rfl
      (ix2 r ⟨q.val - 128, by have := q.isLt; omega⟩) (fun b hb => by
        match b, hb with
        | ⟨0, _⟩, _ => rfl
        | ⟨1, _⟩, hb => exact absurd rfl hb) (by show (q.val - 128) + 128 = q.val; omega)).trans ?_
    rfl

/-! ## One chunk's payload at an index -/

/-- Old contents of the chunk plus the rows' contraction, through the two unit-axis casts. -/
theorem sums_chunk_apply (lhs : FVec Ideal S2000x512 .f32) (v7 : FVec Ideal S2000x256 .bf16) (vold : S1x512x256.Idx → EReal)
    (l : Fin 512) (q : Fin 256) :
    (shapeCast S1x512x256 (addf (F := Ideal) (shapeCast S512x256 vold shapeCasts_S1x512x256_S512x256)
        (matmul dot_S2000x512_S2000x256_S512x256_0_0_1_1_n_n none (truncf .bf16 lhs bitsLt_bf16_f32) v7
          (constant (F := Ideal) S512x256 .f32 0x00000000#32))) shapeCasts_S512x256_S1x512x256 : S1x512x256.Idx → EReal) (ix3 0 l q)
      = vold (ix3 0 l q) + ∑ r : Fin 2000, lhs (ix2 r l) * v7 (ix2 r q) := by
  refine (shapeCast_apply _ shapeCasts_S512x256_S1x512x256 (ix3 0 l q) (ix2 l q) ?_).trans ?_
  · rw [Shape.rowMajor_val_two, Shape.rowMajor_val_three]
    show l.val * 256 + q.val = (0 * 512 + l.val) * 256 + q.val
    omega
  show shapeCast S512x256 vold shapeCasts_S1x512x256_S512x256 (ix2 l q) + _ = _
  congr 1
  · refine shapeCast_apply vold shapeCasts_S1x512x256_S512x256 (ix2 l q) (ix3 0 l q) ?_
    rw [Shape.rowMajor_val_two, Shape.rowMajor_val_three]
    show (0 * 512 + l.val) * 256 + q.val = l.val * 256 + q.val
    omega
  · exact sums_rows_contract _ v7 l q

/-! ## The four chunk payloads at an index -/

theorem sums_ids_apply (x1 : S2000x1.Idx → BitVec 32) (j : S2000x1.Idx) : (k0_pay4 (F := Ideal) x1) j = x1 j := by
  unfold k0_pay4
  exact congrFun (shapeCast_self x1 shapeCasts_S2000x1_S2000x1) j

/-- Chunk 0 (segments 0 … 511): what the chunk held plus, for lane `l` and column `q`, the stacked features of the rows whose id is `l`. -/
theorem sums_pay6_apply (x0 : S2000x128.Idx → EReal) (x1 : S2000x1.Idx → BitVec 32) (vold : S1x512x256.Idx → EReal)
    (l : Fin 512) (q : Fin 256) (n : Nat) (hn : n = 0 + l.val) :
    (k0_pay6 (F := Ideal) x0 x1 vold : S1x512x256.Idx → EReal) (ix3 0 l q)
      = vold (ix3 0 l q) + ∑ r : Fin 2000, oh (x1 (ix2 r 0)) n * featBlk x0 r q := by
  subst hn
  unfold k0_pay6
  refine (sums_chunk_apply (k0_pay5 (F := Ideal) x1) (k0_pay3 (F := Ideal) x0) vold l q).trans ?_
  refine congrArg (vold (ix3 0 l q) + ·) (Finset.sum_congr rfl fun r _ => ?_)
  refine congr (congrArg HMul.hMul ?_) (sums_feat_apply x0 r q)
  unfold k0_pay5
  exact (sums_ind_apply 0#32 0 rfl (k0_pay4 (F := Ideal) x1) r l).trans (congrArg (oh · (0 + l.val)) (sums_ids_apply x1 _))

/-- Chunk 1 (segments 512 … 1023): the same with ids `512 + l`. -/
theorem sums_pay9_apply (x0 : S2000x128.Idx → EReal) (x1 : S2000x1.Idx → BitVec 32) (vold : S1x512x256.Idx → EReal)
    (l : Fin 512) (q : Fin 256) (n : Nat) (hn : n = 512 + l.val) :
    (k0_pay9 (F := Ideal) (k0_pay3 (F := Ideal) x0) (k0_pay4 (F := Ideal) x1) (iota .tc S2000x512 32 [1] iota_S2000x512_d1_w32) vold
        : S1x512x256.Idx → EReal) (ix3 0 l q)
      = vold (ix3 0 l q) + ∑ r : Fin 2000, oh (x1 (ix2 r 0)) n * featBlk x0 r q := by
  subst hn
  unfold k0_pay9
  refine (sums_chunk_apply (k0_pay8 (F := Ideal) (k0_pay4 (F := Ideal) x1) (iota .tc S2000x512 32 [1] iota_S2000x512_d1_w32))
    (k0_pay3 (F := Ideal) x0) vold l q).trans ?_
  refine congrArg (vold (ix3 0 l q) + ·) (Finset.sum_congr rfl fun r _ => ?_)
  refine congr (congrArg HMul.hMul ?_) (sums_feat_apply x0 r q)
  unfold k0_pay8
  exact (sums_ind_apply 512#32 512 rfl (k0_pay4 (F := Ideal) x1) r l).trans (congrArg (oh · (512 + l.val)) (sums_ids_apply x1 _))

/-- Chunk 2 (segments 1024 … 1535): the same with ids `1024 + l`. -/
theorem sums_pay13_apply (x0 : S2000x128.Idx → EReal) (x1 : S2000x1.Idx → BitVec 32) (vold : S1x512x256.Idx → EReal)
    (l : Fin 512) (q : Fin 256) (n : Nat) (hn : n = 1024 + l.val) :
    (k0_pay13 (F := Ideal) (k0_pay12 (F := Ideal) (k0_pay3 (F := Ideal) x0) (k0_pay4 (F := Ideal) x1)
        (iota .tc S2000x512 32 [1] iota_S2000x512_d1_w32) vold) : S1x512x256.Idx → EReal) (ix3 0 l q)
      = vold (ix3 0 l q) + ∑ r : Fin 2000, oh (x1 (ix2 r 0)) n * featBlk x0 r q := by
  subst hn
  unfold k0_pay13 k0_pay12
  refine (sums_chunk_apply (k0_pay11 (F := Ideal) (k0_pay4 (F := Ideal) x1) (iota .tc S2000x512 32 [1] iota_S2000x512_d1_w32))
    (k0_pay3 (F := Ideal) x0) vold l q).trans ?_
  refine congrArg (vold (ix3 0 l q) + ·) (Finset.sum_congr rfl fun r _ => ?_)
  refine congr (congrArg HMul.hMul ?_) (sums_feat_apply x0 r q)
  unfold k0_pay11
  exact (sums_ind_apply 1024#32 1024 rfl (k0_pay4 (F := Ideal) x1) r l).trans (congrArg (oh · (1024 + l.val)) (sums_ids_apply x1 _))

/-- Chunk 3 (segments 1536 … 2047): the same with ids `1536 + l`. -/
theorem sums_pay16_apply (x0 : S2000x128.Idx → EReal) (x1 : S2000x1.Idx → BitVec 32) (vold : S1x512x256.Idx → EReal)
    (l : Fin 512) (q : Fin 256) (n : Nat) (hn : n = 1536 + l.val) :
    (k0_pay16 (F := Ideal) (k0_pay3 (F := Ideal) x0) (k0_pay4 (F := Ideal) x1) (iota .tc S2000x512 32 [1] iota_S2000x512_d1_w32) vold
        : S1x512x256.Idx → EReal) (ix3 0 l q)
      = vold (ix3 0 l q) + ∑ r : Fin 2000, oh (x1 (ix2 r 0)) n * featBlk x0 r q := by
  subst hn
  unfold k0_pay16
  refine (sums_chunk_apply (k0_pay15 (F := Ideal) (k0_pay4 (F := Ideal) x1) (iota .tc S2000x512 32 [1] iota_S2000x512_d1_w32))
    (k0_pay3 (F := Ideal) x0) vold l q).trans ?_
  refine congrArg (vold (ix3 0 l q) + ·) (Finset.sum_congr rfl fun r _ => ?_)
  refine congr (congrArg HMul.hMul ?_) (sums_feat_apply x0 r q)
  unfold k0_pay15
  exact (sums_ind_apply 1536#32 1536 rfl (k0_pay4 (F := Ideal) x1) r l).trans (congrArg (oh · (1536 + l.val)) (sums_ids_apply x1 _))

/-- The block the reset stores is zero everywhere. -/
theorem sums_zero_apply (y : S1x2048x256.Idx) : (k0_pay1 (F := Ideal) : S1x2048x256.Idx → EReal) y = 0 := by
  unfold k0_pay1
  show Ideal.ofBits .f32 0x00000000#32 = 0
  exact Ideal.ofBits_zero_f32

/-! ## Reading the list of chunk stores at (0, b, q) -/

theorem sums_hz2 : (![0, 0] : Fin 2 → Nat) = fun _ => 0 := funext fun a => by fin_cases a <;> rfl
/-- The zero offsets of a rank-3 block, as a constant function. -/
theorem sums_hz3 : (![0, 0, 0] : Fin 3 → Nat) = fun _ => 0 := funext fun a => by fin_cases a <;> rfl

section Pieces
variable {Val : EltTy → Type} [∀ e, Nonempty (Val e)] {e : EltTy}

/-- A store whose rows do not hold segment `b` leaves (0, b, q) to the earlier stores. -/
theorem sums_canon_miss (off size : Fin 3 → Nat) (inb : ∀ a, off a + size a ≤ S1x2048x256.size a)
    (w : (Rect.unit (s := S1x2048x256) off size inb).shape.Idx → Val e) (L : List (View.Piece Val S1x2048x256 e))
    (b : Fin 2048) (q : Fin 256) (h : b.val < off 1 ∨ off 1 + size 1 ≤ b.val) :
    View.canon ((⟨Rect.unit (s := S1x2048x256) off size inb, w⟩ : View.Piece Val S1x2048x256 e) :: L) (ix3 0 b q)
      = View.canon L (ix3 0 b q) :=
  View.canon_cons_of_not_mem _ L (by
    rw [Rect.mem_set_unit]
    intro hm
    have h1 := hm 1
    have e1 : ((ix3 (0 : Fin 1) b q : S1x2048x256.Idx) 1 : Nat) = b.val := rfl
    omega)

/-- The chunk of 512 segments from `o` on, at its own index (0, l, q), is (0, o + l, q) of the block. -/
theorem sums_chunk_idx (o : Nat) (inb : ∀ a, (![0, o, 0] : Fin 3 → Nat) a + (![1, 512, 256] : Fin 3 → Nat) a ≤ S1x2048x256.size a)
    (l : Fin 512) (q : Fin 256) (b : Fin 2048) (hb : b.val = o + l.val) :
    (Rect.unit (s := S1x2048x256) ![0, o, 0] ![1, 512, 256] inb).idx (ix3 0 l q) = ix3 0 b q :=
  funext fun a => Fin.ext (by
    match a with
    | ⟨0, _⟩ => show 0 + 1 * 0 = 0; rfl
    | ⟨1, _⟩ => show o + 1 * l.val = b.val; omega
    | ⟨2, _⟩ => show 0 + 1 * q.val = q.val; omega)

/-- The store that holds segment `b`, last in time among those left, gives its payload there. -/
theorem sums_canon_hit (o : Nat) (inb : ∀ a, (![0, o, 0] : Fin 3 → Nat) a + (![1, 512, 256] : Fin 3 → Nat) a ≤ S1x2048x256.size a)
    (w : S1x512x256.Idx → Val e) (L : List (View.Piece Val S1x2048x256 e)) (l : Fin 512) (q : Fin 256) (b : Fin 2048)
    (hb : b.val = o + l.val) :
    View.canon ((⟨Rect.unit (s := S1x2048x256) ![0, o, 0] ![1, 512, 256] inb, w⟩ : View.Piece Val S1x2048x256 e) :: L) (ix3 0 b q)
      = w (ix3 0 l q) := by
  rw [← sums_chunk_idx o inb l q b hb]
  exact View.canon_cons_emb (Rect.unit (s := S1x2048x256) ![0, o, 0] ![1, 512, 256] inb) w L (ix3 0 l q)

/-- A chunk read back after stores is what those stores left at (0, o + l, q). -/
theorem sums_readCov_chunk {sig : RefSig} {κ : Kind} {sp : Space} (v : View sig κ sp S1x2048x256 e) (L : List (View.Piece Val S1x2048x256 e))
    (o : Nat) (inb : ∀ a, (![0, o, 0] : Fin 3 → Nat) a + (![1, 512, 256] : Fin 3 → Nat) a ≤ S1x2048x256.size a)
    (l : Fin 512) (q : Fin 256) (b : Fin 2048) (hb : b.val = o + l.val) :
    v.readCov L (Rect.unit (s := S1x2048x256) ![0, o, 0] ![1, 512, 256] inb).toLoadRect (ix3 0 l q) = View.canon L (ix3 0 b q) := by
  rw [View.readCov_eq_canon']
  exact congrArg (View.canon L) (sums_chunk_idx o inb l q b hb)

end Pieces

/-- A chunk of the block as the point found it, read through the whole staging buffer. -/
theorem sums_readAt_chunk (a4 : Memref sig .tc .vmem S1x2048x256 .f32) (h4 : a4.IsWhole) (xo2 : S1x2048x256.Idx → EReal)
    (o : Nat) (inb : ∀ a, (![0, o, 0] : Fin 3 → Nat) a + (![1, 512, 256] : Fin 3 → Nat) a ≤ S1x2048x256.size a)
    (l : Fin 512) (q : Fin 256) (b : Fin 2048) (hb : b.val = o + l.val) :
    (View.readAt (Elt Ideal) a4.view (Rect.unit (s := S1x2048x256) ![0, o, 0] ![1, 512, 256] inb).toLoadRect (h4.unread xo2)
        : S1x512x256.Idx → EReal) (ix3 0 l q) = xo2 (ix3 0 b q) := by
  rw [View.readAt_eq_ld, h4.read_unread]
  exact congrArg xo2 (sums_chunk_idx o inb l q b hb)

/-- Equal left summands, same right summand. -/
theorem sums_add_congr_left {a a' s : EReal} (h : a = a') : a + s = a' + s := by rw [h]
/-- A zero left summand drops. -/
theorem sums_add_eq_of_eq_zero {a s : EReal} (h : a = 0) : a + s = s := by rw [h, zero_add]

/-- Under the four chunk stores of the first block lies the reset: zero. -/
theorem sums_zero_piece (inb : ∀ a, (![0, 0, 0] : Fin 3 → Nat) a + S1x2048x256.size a ≤ S1x2048x256.size a) (y : S1x2048x256.Idx) :
    View.canon [(⟨Rect.unit (s := S1x2048x256) ![0, 0, 0] S1x2048x256.size inb, k0_pay1 (F := Ideal)⟩
      : View.Piece (Elt Ideal) S1x2048x256 .f32)] y = (0 : EReal) := by
  rw [View.canon_unit_zero sums_hz3]
  exact sums_zero_apply y

/-- At a core's first block the body clears the sums and leaves, for segment `b` and column `q`, the stacked features of
    the block's rows whose id is `b`: four 512-segment chunks, each a product of the chunk's indicator columns with the
    stacked features, contracted over the rows. -/
theorem out_A_2_apply (c : Dev nD) (i : grid0.Coords) (a2 : Memref sig .tc .vmem S2000x128 .f32) (h2 : a2.IsWhole)
    (a3 : Memref sig .tc .vmem S2000x1 .i32) (h3 : a3.IsWhole) (a4 : Memref sig .tc .vmem S1x2048x256 .f32) (h4 : a4.IsWhole)
    (a5 : Memref sig .tc .vmem S1x1x2048 .f32) (h5 : a5.IsWhole) (hc : cond0_0 i)
    (x0 : S2000x128.Idx → EReal) (x1 : S2000x1.Idx → BitVec 32) (b : Fin 2048) (q : Fin 256) :
    (out0_A_2 (F := Ideal) c i a2 h2 a3 h3 a4 h4 a5 h5 hc x0 x1 : S1x2048x256.Idx → EReal) (ix3 0 b q)
      = ∑ r : Fin 2000, oh (x1 (ix2 r 0)) b.val * featBlk x0 r q := by
  unfold out0_A_2
  rw [View.read_writes_eq_canon _ _ _ (cover0_A_2 (F := Ideal) c i a2 h2 a3 h3 a4 h4 a5 h5 hc x0 x1)]
  unfold kernelRun0_A
  dsimp only
  sl_unfold_words
  simp only [View.readAt_eq_ld (v := a2.view), View.readAt_eq_ld (v := a3.view), h2.read_unread, h3.read_unread,
    View.ld_unit_zero (S := S2000x128) sums_hz2, View.ld_unit_zero (S := S2000x1) sums_hz2]
  have hb := b.isLt
  by_cases c3 : 1536 ≤ b.val
  · refine (sums_canon_hit 1536 _ _ _ ⟨b.val - 1536, by omega⟩ q b (by show b.val = 1536 + (b.val - 1536); omega)).trans ?_
    refine (sums_pay16_apply x0 x1 _ _ q b.val (by show b.val = 1536 + (b.val - 1536); omega)).trans ?_
    refine sums_add_eq_of_eq_zero ?_
    refine (sums_readCov_chunk _ _ 1536 _ _ q b (by show b.val = 1536 + (b.val - 1536); omega)).trans ?_
    refine (sums_canon_miss _ _ _ _ _ b q (Or.inr (by show 1024 + 512 ≤ b.val; omega))).trans ?_
    refine (sums_canon_miss _ _ _ _ _ b q (Or.inr (by show 512 + 512 ≤ b.val; omega))).trans ?_
    refine (sums_canon_miss _ _ _ _ _ b q (Or.inr (by show 0 + 512 ≤ b.val; omega))).trans ?_
    exact sums_zero_piece _ _
  refine (sums_canon_miss _ _ _ _ _ b q (Or.inl (by show b.val < 1536; omega))).trans ?_
  by_cases c2 : 1024 ≤ b.val
  · refine (sums_canon_hit 1024 _ _ _ ⟨b.val - 1024, by omega⟩ q b (by show b.val = 1024 + (b.val - 1024); omega)).trans ?_
    refine (sums_pay13_apply x0 x1 _ _ q b.val (by show b.val = 1024 + (b.val - 1024); omega)).trans ?_
    refine sums_add_eq_of_eq_zero ?_
    refine (sums_readCov_chunk _ _ 1024 _ _ q b (by show b.val = 1024 + (b.val - 1024); omega)).trans ?_
    refine (sums_canon_miss _ _ _ _ _ b q (Or.inr (by show 512 + 512 ≤ b.val; omega))).trans ?_
    refine (sums_canon_miss _ _ _ _ _ b q (Or.inr (by show 0 + 512 ≤ b.val; omega))).trans ?_
    exact sums_zero_piece _ _
  refine (sums_canon_miss _ _ _ _ _ b q (Or.inl (by show b.val < 1024; omega))).trans ?_
  by_cases c1 : 512 ≤ b.val
  · refine (sums_canon_hit 512 _ _ _ ⟨b.val - 512, by omega⟩ q b (by show b.val = 512 + (b.val - 512); omega)).trans ?_
    refine (sums_pay9_apply x0 x1 _ _ q b.val (by show b.val = 512 + (b.val - 512); omega)).trans ?_
    refine sums_add_eq_of_eq_zero ?_
    refine (sums_readCov_chunk _ _ 512 _ _ q b (by show b.val = 512 + (b.val - 512); omega)).trans ?_
    refine (sums_canon_miss _ _ _ _ _ b q (Or.inr (by show 0 + 512 ≤ b.val; omega))).trans ?_
    exact sums_zero_piece _ _
  refine (sums_canon_miss _ _ _ _ _ b q (Or.inl (by show b.val < 512; omega))).trans ?_
  refine (sums_canon_hit 0 _ _ _ ⟨b.val, by omega⟩ q b (by show b.val = 0 + b.val; omega)).trans ?_
  refine (sums_pay6_apply x0 x1 _ _ q b.val (by show b.val = 0 + b.val; omega)).trans ?_
  refine sums_add_eq_of_eq_zero ?_
  refine (sums_readCov_chunk _ _ 0 _ _ q b (by show b.val = 0 + b.val; omega)).trans ?_
  exact sums_zero_piece _ _

/-- At every other block it adds the same to what the block before left. -/
theorem out_B_2_apply (c : Dev nD) (i : grid0.Coords) (a2 : Memref sig .tc .vmem S2000x128 .f32) (h2 : a2.IsWhole)
    (a3 : Memref sig .tc .vmem S2000x1 .i32) (h3 : a3.IsWhole) (a4 : Memref sig .tc .vmem S1x2048x256 .f32) (h4 : a4.IsWhole)
    (a5 : Memref sig .tc .vmem S1x1x2048 .f32) (h5 : a5.IsWhole) (hc : ¬cond0_0 i)
    (x0 : S2000x128.Idx → EReal) (x1 : S2000x1.Idx → BitVec 32) (xo2 : S1x2048x256.Idx → EReal) (xo3 : S1x1x2048.Idx → EReal)
    (b : Fin 2048) (q : Fin 256) :
    (out0_B_2 (F := Ideal) c i a2 h2 a3 h3 a4 h4 a5 h5 hc x0 x1 xo2 xo3 : S1x2048x256.Idx → EReal) (ix3 0 b q)
      = xo2 (ix3 0 b q)
        + ∑ r : Fin 2000, oh (x1 (ix2 r 0)) b.val * featBlk x0 r q := by
  unfold out0_B_2
  rw [View.read_writes_eq_canon _ _ _ (cover0_B_2 (F := Ideal) c i a2 h2 a3 h3 a4 h4 a5 h5 hc x0 x1 xo2 xo3)]
  unfold kernelRun0_B
  dsimp only
  sl_unfold_words
  simp only [View.readAt_eq_ld (v := a2.view), View.readAt_eq_ld (v := a3.view), h2.read_unread, h3.read_unread,
    View.ld_unit_zero (S := S2000x128) sums_hz2, View.ld_unit_zero (S := S2000x1) sums_hz2]
  have hb := b.isLt
  by_cases c3 : 1536 ≤ b.val
  · refine (sums_canon_hit 1536 _ _ _ ⟨b.val - 1536, by omega⟩ q b (by show b.val = 1536 + (b.val - 1536); omega)).trans ?_
    refine (sums_pay16_apply x0 x1 _ _ q b.val (by show b.val = 1536 + (b.val - 1536); omega)).trans ?_
    exact sums_add_congr_left (sums_readAt_chunk a4 h4 xo2 1536 _ _ q b (by show b.val = 1536 + (b.val - 1536); omega))
  refine (sums_canon_miss _ _ _ _ _ b q (Or.inl (by show b.val < 1536; omega))).trans ?_
  by_cases c2 : 1024 ≤ b.val
  · refine (sums_canon_hit 1024 _ _ _ ⟨b.val - 1024, by omega⟩ q b (by show b.val = 1024 + (b.val - 1024); omega)).trans ?_
    refine (sums_pay13_apply x0 x1 _ _ q b.val (by show b.val = 1024 + (b.val - 1024); omega)).trans ?_
    exact sums_add_congr_left (sums_readAt_chunk a4 h4 xo2 1024 _ _ q b (by show b.val = 1024 + (b.val - 1024); omega))
  refine (sums_canon_miss _ _ _ _ _ b q (Or.inl (by show b.val < 1024; omega))).trans ?_
  by_cases c1 : 512 ≤ b.val
  · refine (sums_canon_hit 512 _ _ _ ⟨b.val - 512, by omega⟩ q b (by show b.val = 512 + (b.val - 512); omega)).trans ?_
    refine (sums_pay9_apply x0 x1 _ _ q b.val (by show b.val = 512 + (b.val - 512); omega)).trans ?_
    exact sums_add_congr_left (sums_readAt_chunk a4 h4 xo2 512 _ _ q b (by show b.val = 512 + (b.val - 512); omega))
  refine (sums_canon_miss _ _ _ _ _ b q (Or.inl (by show b.val < 512; omega))).trans ?_
  refine (sums_canon_hit 0 _ _ _ ⟨b.val, by omega⟩ q b (by show b.val = 0 + b.val; omega)).trans ?_
  refine (sums_pay6_apply x0 x1 _ _ q b.val (by show b.val = 0 + b.val; omega)).trans ?_
  exact sums_add_congr_left (sums_readAt_chunk a4 h4 xo2 0 _ _ q b (by show b.val = 0 + b.val; omega))

end Cert.KernelIdeal.PassA

end
-- ==== Proof.PassACounts.lean ====
import proofs.«423812_j249108103838_3_alg».proof.Proof.Gen.KernelIdeal.Frame
import proofs.«423812_j249108103838_3_alg».proof.Proof.Spec
import Idealize.ShloMosaic.Lib.Pipeline.Value
import Idealize.ShloMosaic.PureOps.Ideal.Laws

noncomputable section

open scoped BigOperators

namespace Cert.KernelIdeal.PassA

open Idealize.ShloMosaic Idealize.ShloMosaic.TcCoe Idealize.SL.Sem Idealize.ShloMosaic.ValueIdx
open Cert.KernelIdeal Cert.KernelIdeal.Gen GraphNorm
open Idealize.ShloMosaic.Pipeline (Dat)

/-- An id word compared for equality with a segment word, the bit widened to a word and converted: one when the
    words agree, zero when they differ. -/
theorem cnt_sitofp_cmpi_eq (a b : BitVec 32) :
    (FloatOps.sitofp (F := Ideal) .f32 ((IntOp.cmpi .eq a b).setWidth 32) : EReal) = if a = b then 1 else 0 := by
  by_cases h : a = b
  · subst h
    rw [if_pos rfl]
    show (((BitVec.setWidth 32 (BitVec.ofBool (a == a))).toInt : ℝ) : EReal) = 1
    simp
  · rw [if_neg h]
    show (((BitVec.setWidth 32 (BitVec.ofBool (a == b))).toInt : ℝ) : EReal) = 0
    have hb : (a == b) = false := by simpa using h
    rw [hb]; simp

/-- The indicator chunk at row `r`, lane `j`: the lane number plus the chunk's first segment, compared with the row's
    id word: `oh` of the id at segment `off + j`. -/
theorem cnt_ind_apply (v9 : IVec S2000x1 32) (hi : S2000x512.Iotas .tc 32 [1]) (hb : S2000x1.Broadcasts S2000x512)
    (hlt : 1 < 32) (off : Nat) (r : Fin 2000) (j : Fin 512) :
    (sitofp (F := Ideal) .f32 (extui 32 (cmpi .eq (broadcastTo S2000x512 v9 hb)
        (addi (iota .tc S2000x512 32 [1] hi) (broadcast S2000x512 (BitVec.ofNat 32 off)))) hlt) : FVec Ideal S2000x512 .f32) (ix2 r j)
      = oh (v9 (ix2 r 0)) (off + j.val) := by
  show FloatOps.sitofp (F := Ideal) .f32 ((IntOp.cmpi .eq (broadcastTo S2000x512 v9 hb (ix2 r j))
      (IntOp.addi (iota .tc S2000x512 32 [1] hi (ix2 r j)) (BitVec.ofNat 32 off))).setWidth 32) = _
  rw [cnt_sitofp_cmpi_eq, broadcastTo_apply v9 hb (ix2 r j) (ix2 r 0) (fun a => by match a with | ⟨0, _⟩ => rfl | ⟨1, _⟩ => rfl),
    iota_single_apply]
  unfold oh
  have e : IntOp.addi (BitVec.ofNat 32 ((ix2 r j : S2000x512.Idx) 1).val) (BitVec.ofNat 32 off) = BitVec.ofNat 32 (off + j.val) := by
    show BitVec.ofNat 32 j.val + BitVec.ofNat 32 off = _
    rw [← BitVec.ofNat_add, Nat.add_comm]
  rw [e]

/-- One chunk's new contents at lane `j`: what the chunk held, plus the indicator chunk's column `j` summed over the
    2000 rows (the reduction starts from the zero word, the neutral element, so no initial term appears). -/
theorem cnt_chunk_apply (ind : FVec Ideal S2000x512 .f32) (old : FVec Ideal S1x1x512 .f32)
    (hred : S2000x512.Reduces [0] S512) (hφ : FKind.Formats .f32)
    (hacc : (0x00000000#32 : BitVec 32) = FKind.add.neutral .f32 hφ)
    (h1 : S512.ShapeCasts S1x512) (h2 : S1x1x512.ShapeCasts S1x512) (h3 : S1x512.ShapeCasts S1x1x512) (j : Fin 512) :
    (shapeCast S1x1x512 (addf (shapeCast S1x512 old h2)
        (shapeCast S1x512 (multiReduction .add [0] S512 ind 0x00000000#32 hred hφ hacc) h1)) h3 : FVec Ideal S1x1x512 .f32) (ix3 0 0 j)
      = old (ix3 0 0 j) + ∑ r : Fin 2000, ind (ix2 r j) := by
  refine (shapeCast_apply _ h3 (ix3 0 0 j) (ix2 0 j) (by
    rw [Shape.rowMajor_val_three, Shape.rowMajor_val_two]; show 0 * 512 + j.val = (0 * 1 + 0) * 512 + j.val; omega)).trans ?_
  rw [addf_apply]
  congr 1
  · exact shapeCast_apply old h2 (ix2 0 j) (ix3 0 0 j) (by
      rw [Shape.rowMajor_val_three, Shape.rowMajor_val_two]; show (0 * 1 + 0) * 512 + j.val = 0 * 512 + j.val; omega)
  · refine (shapeCast_apply _ h1 (ix2 0 j) (ix1 j) (by
      rw [Shape.rowMajor_val_two, Shape.rowMajor_val_one]; show j.val = 0 * 512 + j.val; omega)).trans ?_
    refine (Ideal.multiReduction_add_single ind 0x00000000#32 hred hφ hacc (ix1 j)).trans ?_
    show ∑ r : Fin 2000, ind (hred.lift (ix1 j) r) = _
    refine Finset.sum_congr rfl fun r _ => congrArg ind ?_
    funext a; apply Fin.ext
    match a with
    | ⟨0, _⟩ => rfl
    | ⟨1, _⟩ => rfl

/-- The id column passes through its shape cast unchanged. -/
theorem cnt_pay4_eq (v8 : Vec Ideal S2000x1 .i32) : k0_pay4 (F := Ideal) v8 = v8 := by
  unfold k0_pay4; exact shapeCast_self _ _

/-- Chunk 0 (segments 0 … 511) at lane `j`. -/
theorem cnt_pay7_apply (v8 : Vec Ideal S2000x1 .i32) (v28 : Vec Ideal S1x1x512 .f32) (j : Fin 512) :
    (k0_pay7 (F := Ideal) v8 v28 : FVec Ideal S1x1x512 .f32) (ix3 0 0 j)
      = v28 (ix3 0 0 j) + ∑ r : Fin 2000, oh (v8 (ix2 r 0)) (0 + j.val) := by
  unfold k0_pay7 k0_pay5
  dsimp only
  refine (cnt_chunk_apply _ v28 _ _ _ _ _ _ j).trans (congrArg (fun s : EReal => v28 (ix3 0 0 j) + s) ?_)
  refine Finset.sum_congr rfl fun r _ => ?_
  refine (cnt_ind_apply (k0_pay4 (F := Ideal) v8) _ _ _ 0 r j).trans ?_
  rw [cnt_pay4_eq]

/-- Chunk 1 (segments 512 … 1023) at lane `j`. -/
theorem cnt_pay10_apply (v9 : IVec S2000x1 32) (hi : S2000x512.Iotas .tc 32 [1]) (v51 : Vec Ideal S1x1x512 .f32) (j : Fin 512) :
    (k0_pay10 (F := Ideal) v9 (iota .tc S2000x512 32 [1] hi) v51 : FVec Ideal S1x1x512 .f32) (ix3 0 0 j)
      = v51 (ix3 0 0 j) + ∑ r : Fin 2000, oh (v9 (ix2 r 0)) (512 + j.val) := by
  unfold k0_pay10 k0_pay8
  dsimp only
  refine (cnt_chunk_apply _ v51 _ _ _ _ _ _ j).trans (congrArg (fun s : EReal => v51 (ix3 0 0 j) + s) ?_)
  exact Finset.sum_congr rfl fun r _ => cnt_ind_apply v9 hi _ _ 512 r j

/-- Chunk 2 (segments 1024 … 1535) at lane `j`. -/
theorem cnt_pay14_apply (v9 : IVec S2000x1 32) (hi : S2000x512.Iotas .tc 32 [1]) (v74 : Vec Ideal S1x1x512 .f32) (j : Fin 512) :
    (k0_pay14 (F := Ideal) (k0_pay11 (F := Ideal) v9 (iota .tc S2000x512 32 [1] hi)) v74 : FVec Ideal S1x1x512 .f32) (ix3 0 0 j)
      = v74 (ix3 0 0 j) + ∑ r : Fin 2000, oh (v9 (ix2 r 0)) (1024 + j.val) := by
  unfold k0_pay14 k0_pay11
  dsimp only
  refine (cnt_chunk_apply _ v74 _ _ _ _ _ _ j).trans (congrArg (fun s : EReal => v74 (ix3 0 0 j) + s) ?_)
  exact Finset.sum_congr rfl fun r _ => cnt_ind_apply v9 hi _ _ 1024 r j

/-- Chunk 3 (segments 1536 … 2047) at lane `j`. -/
theorem cnt_pay17_apply (v9 : IVec S2000x1 32) (hi : S2000x512.Iotas .tc 32 [1]) (v97 : Vec Ideal S1x1x512 .f32) (j : Fin 512) :
    (k0_pay17 (F := Ideal) v9 (iota .tc S2000x512 32 [1] hi) v97 : FVec Ideal S1x1x512 .f32) (ix3 0 0 j)
      = v97 (ix3 0 0 j) + ∑ r : Fin 2000, oh (v9 (ix2 r 0)) (1536 + j.val) := by
  unfold k0_pay17 k0_pay15
  dsimp only
  refine (cnt_chunk_apply _ v97 _ _ _ _ _ _ j).trans (congrArg (fun s : EReal => v97 (ix3 0 0 j) + s) ?_)
  exact Finset.sum_congr rfl fun r _ => cnt_ind_apply v9 hi _ _ 1536 r j

/-! ## Reading a block that was written chunk by chunk -/

section Canon
variable {Val : EltTy → Type} [∀ e, Nonempty (Val e)] {S : Shape} {e : EltTy}

/-- Stores whose rectangles do not hold an index do not matter to what is read there. -/
theorem cnt_canon_skip (L1 L2 : List (View.Piece Val S e)) (y : S.Idx) (h : ∀ p ∈ L1, y ∉ p.1.set) :
    View.canon (L1 ++ L2) y = View.canon L2 y := by
  induction L1 with
  | nil => rfl
  | cons p L ih =>
    rw [List.cons_append, View.canon_cons_of_not_mem _ _ (h p List.mem_cons_self)]
    exact ih fun q hq => h q (List.mem_cons_of_mem _ hq)

/-- The later stores `L1`, each a block of one function `G` of the index, decide what is read at an index one of
    them holds, whatever was stored before them (`L2`). -/
theorem cnt_canon_prefix (G : S.Idx → Val e) (L1 L2 : List (View.Piece Val S e))
    (hL : ∀ p ∈ L1, ∀ x : p.1.shape.Idx, p.2 x = G (p.1.emb x)) (y : S.Idx) (hy : ∃ p ∈ L1, y ∈ p.1.set) :
    View.canon (L1 ++ L2) y = G y := by
  induction L1 with
  | nil => obtain ⟨p, hp, _⟩ := hy; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb]
      exact hL p List.mem_cons_self x
    · rw [List.cons_append, View.canon_cons_of_not_mem _ _ hm]
      refine ih (fun q hq => hL q (List.mem_cons_of_mem _ hq)) ?_
      obtain ⟨q, hq, hyq⟩ := hy
      rcases List.mem_cons.mp hq with rfl | hq'
      · exact absurd hyq hm
      · exact ⟨q, hq', hyq⟩

end Canon

/-- The zero offsets of a rank-2 and of a rank-3 whole-buffer access, spelt as vectors, are the constant zero function. -/
theorem cnt_hz2 : (![0, 0] : Fin 2 → Nat) = fun _ => 0 := funext fun a => by fin_cases a <;> rfl
theorem cnt_hz3 : (![0, 0, 0] : Fin 3 → Nat) = fun _ => 0 := funext fun a => by fin_cases a <;> rfl

/-- What the counts block holds after the body at a block of rows with id words `x1`, over earlier contents `old`:
    at segment `y 2`, the earlier entry plus the number of the block's rows whose id is that segment. -/
def cntAfter (old : S1x1x2048.Idx → EReal) (x1 : S2000x1.Idx → BitVec 32) (y : S1x1x2048.Idx) : EReal :=
  old y + ∑ r : Fin 2000, oh (x1 (ix2 r 0)) (y 2).val

/-- … at lane `j` of the chunk of 512 segments that starts at segment `n = off 2`. -/
theorem cntAfter_emb (old : S1x1x2048.Idx → EReal) (x1 : S2000x1.Idx → BitVec 32) (off : Fin 3 → Nat)
    (inb : ∀ a, off a + S1x1x512.size a ≤ S1x1x2048.size a) (n : Nat) (hn : off 2 = n) (j : Fin 512) :
    cntAfter old x1 ((Rect.unit (s := S1x1x2048) off S1x1x512.size inb).emb (ix3 0 0 j : S1x1x512.Idx))
      = View.ld (Val := Elt Ideal) (e' := EltTy.f32) old (Rect.unit (s := S1x1x2048) off S1x1x512.size inb) (ix3 0 0 j : S1x1x512.Idx)
        + ∑ r : Fin 2000, oh (x1 (ix2 r 0)) (n + j.val) := by
  unfold cntAfter
  refine congrArg (fun k : Nat => old ((Rect.unit (s := S1x1x2048) off S1x1x512.size inb).emb (ix3 0 0 j : S1x1x512.Idx))
    + ∑ r : Fin 2000, oh (x1 (ix2 r 0)) k) ?_
  show off 2 + 1 * j.val = n + j.val
  rw [Nat.one_mul, hn]

/-- A chunk store carries a function of the block index as soon as it does at every lane (the two leading axes are
    unit axes). -/
theorem cnt_piece_agrees (off : Fin 3 → Nat) (inb : ∀ a, off a + S1x1x512.size a ≤ S1x1x2048.size a)
    (w : S1x1x512.Idx → EReal) (G : S1x1x2048.Idx → EReal)
    (h : ∀ j : Fin 512, w (ix3 0 0 j) = G ((Rect.unit (s := S1x1x2048) off S1x1x512.size inb).emb (ix3 0 0 j : S1x1x512.Idx))) :
    ∀ x : S1x1x512.Idx, w x = G ((Rect.unit (s := S1x1x2048) off S1x1x512.size inb).emb x) := by
  intro x
  have hx : x = ix3 0 0 (x 2) := by
    funext a
    match a with
    | ⟨0, h0⟩ =>
      apply Fin.ext
      have hlt : (x ⟨0, h0⟩).val < 1 := (x ⟨0, h0⟩).isLt
      show (x ⟨0, h0⟩).val = 0
      omega
    | ⟨1, h1⟩ =>
      apply Fin.ext
      have hlt : (x ⟨1, h1⟩).val < 1 := (x ⟨1, h1⟩).isLt
      show (x ⟨1, h1⟩).val = 0
      omega
    | ⟨2, _⟩ => rfl
  rw [hx]; exact h (x 2)

/-- The block a core's first block of rows stores first: every entry is zero. -/
theorem cnt_pay2_apply (y : S1x1x2048.Idx) : ((k0_pay2 (F := Ideal) : FVec Ideal S1x1x2048 .f32) y : EReal) = 0 := by
  unfold k0_pay2
  exact Ideal.ofBits_zero_f32

/-- A lane of a later chunk lies in no earlier chunk's rectangle. -/
theorem cnt_not_mem_chunk (off off' : Fin 3 → Nat) (inb : ∀ a, off a + S1x1x512.size a ≤ S1x1x2048.size a)
    (inb' : ∀ a, off' a + S1x1x512.size a ≤ S1x1x2048.size a) (j : Fin 512) (h : off 2 + 512 ≤ off' 2) :
    (Rect.unit (s := S1x1x2048) off' S1x1x512.size inb').toLoadRect.idx (ix3 0 0 j : S1x1x512.Idx)
      ∉ (Rect.unit (s := S1x1x2048) off S1x1x512.size inb).set := by
  intro hm
  have h2 := (Rect.mem_set_unit.mp hm) 2
  have h3 : off' 2 + 1 * j.val < off 2 + 512 := h2.2
  omega

/-- The block cleared, then written in the chunks `L1` only: a box none of them meets still reads zero. -/
theorem cnt_zeroed_read (v : View sig .tc .vmem S1x1x2048 .f32) (L1 : List (View.Piece (Elt Ideal) S1x1x2048 .f32))
    (inb0 : ∀ a, (![0, 0, 0] : Fin 3 → Nat) a + S1x1x2048.size a ≤ S1x1x2048.size a) (B : LoadRect S1x1x2048)
    (x : B.shape.Idx) (h : ∀ p ∈ L1, B.idx x ∉ p.1.set) :
    (v.readCov (L1 ++ [(⟨Rect.unit ![0, 0, 0] S1x1x2048.size inb0, k0_pay2 (F := Ideal)⟩ : View.Piece (Elt Ideal) S1x1x2048 .f32)]) B x : EReal)
      = 0 := by
  rw [View.readCov_eq_canon']
  show View.canon (L1 ++ [_]) (B.idx x) = 0
  rw [cnt_canon_skip L1 _ _ h, View.canon_unit_zero cnt_hz3]
  exact cnt_pay2_apply _

/-- Segment `b` lies in the chunk that starts at `off 2` when `off 2 ≤ b < off 2 + 512`. -/
theorem cnt_mem_chunk (off : Fin 3 → Nat) (inb : ∀ a, off a + S1x1x512.size a ≤ S1x1x2048.size a) (b : Fin 2048)
    (h0 : off 0 = 0) (h1 : off 1 = 0) (hlo : off 2 ≤ b.val) (hhi : b.val < off 2 + 512) :
    (ix3 0 0 b : S1x1x2048.Idx) ∈ (Rect.unit (s := S1x1x2048) off S1x1x512.size inb).set := by
  rw [Rect.mem_set_unit]
  intro a
  match a with
  | ⟨0, _⟩ => exact ⟨by show off 0 ≤ 0; omega, by show 0 < off 0 + 1; omega⟩
  | ⟨1, _⟩ => exact ⟨by show off 1 ≤ 0; omega, by show 0 < off 1 + 1; omega⟩
  | ⟨2, _⟩ => exact ⟨hlo, hhi⟩

/-- At a core's first block the body clears the counts and leaves, for segment `b`, the number of the block's rows whose
    id is `b`: the indicator column summed over the rows, chunk by chunk. -/
theorem out_A_3_apply (c : Dev nD) (i : grid0.Coords) (a2 : Memref sig .tc .vmem S2000x128 .f32) (h2 : a2.IsWhole)
    (a3 : Memref sig .tc .vmem S2000x1 .i32) (h3 : a3.IsWhole) (a4 : Memref sig .tc .vmem S1x2048x256 .f32) (h4 : a4.IsWhole)
    (a5 : Memref sig .tc .vmem S1x1x2048 .f32) (h5 : a5.IsWhole) (hc : cond0_0 i)
    (x0 : S2000x128.Idx → EReal) (x1 : S2000x1.Idx → BitVec 32) (b : Fin 2048) :
    (out0_A_3 (F := Ideal) c i a2 h2 a3 h3 a4 h4 a5 h5 hc x0 x1 : S1x1x2048.Idx → EReal) (ix3 0 0 b)
      = ∑ r : Fin 2000, oh (x1 (ix2 r 0)) b.val := by
  unfold out0_A_3
  rw [View.read_writes_eq_canon _ _ _ (cover0_A_3 (F := Ideal) c i a2 h2 a3 h3 a4 h4 a5 h5 hc x0 x1)]
  unfold kernelRun0_A
  dsimp only
  sl_unfold_words
  simp only [View.readAt_eq_ld, h3.read_unread, View.ld_unit_zero (S := S2000x1) cnt_hz2, cnt_pay4_eq]
  refine (cnt_canon_prefix (cntAfter (fun _ => 0) x1) [_, _, _, _] [_] ?_ (ix3 0 0 b) ?_).trans (zero_add _)
  · intro p hp
    simp only [List.mem_cons, List.not_mem_nil, or_false] at hp
    rcases hp with rfl | rfl | rfl | rfl
    · refine cnt_piece_agrees ![0, 0, 1536] (by decide) _ _ fun j => ?_
      refine (cnt_pay17_apply x1 _ _ j).trans ((cntAfter_emb (fun _ => 0) x1 _ _ 1536 rfl j).trans ?_).symm
      refine congrArg (fun s : EReal => s + ∑ r : Fin 2000, oh (x1 (ix2 r 0)) (1536 + j.val)) ?_
      refine (cnt_zeroed_read a5.view [_, _, _] (by decide) _ _ ?_).symm
      intro p hp
      simp only [List.mem_cons, List.not_mem_nil, or_false] at hp
      rcases hp with rfl | rfl | rfl
      · exact cnt_not_mem_chunk ![0, 0, 1024] ![0, 0, 1536] (by decide) (by decide) j (by decide)
      · exact cnt_not_mem_chunk ![0, 0, 512] ![0, 0, 1536] (by decide) (by decide) j (by decide)
      · exact cnt_not_mem_chunk ![0, 0, 0] ![0, 0, 1536] (by decide) (by decide) j (by decide)
    · refine cnt_piece_agrees ![0, 0, 1024] (by decide) _ _ fun j => ?_
      refine (cnt_pay14_apply x1 _ _ j).trans ((cntAfter_emb (fun _ => 0) x1 _ _ 1024 rfl j).trans ?_).symm
      refine congrArg (fun s : EReal => s + ∑ r : Fin 2000, oh (x1 (ix2 r 0)) (1024 + j.val)) ?_
      refine (cnt_zeroed_read a5.view [_, _] (by decide) _ _ ?_).symm
      intro p hp
      simp only [List.mem_cons, List.not_mem_nil, or_false] at hp
      rcases hp with rfl | rfl
      · exact cnt_not_mem_chunk ![0, 0, 512] ![0, 0, 1024] (by decide) (by decide) j (by decide)
      · exact cnt_not_mem_chunk ![0, 0, 0] ![0, 0, 1024] (by decide) (by decide) j (by decide)
    · refine cnt_piece_agrees ![0, 0, 512] (by decide) _ _ fun j => ?_
      refine (cnt_pay10_apply x1 _ _ j).trans ((cntAfter_emb (fun _ => 0) x1 _ _ 512 rfl j).trans ?_).symm
      refine congrArg (fun s : EReal => s + ∑ r : Fin 2000, oh (x1 (ix2 r 0)) (512 + j.val)) ?_
      refine (cnt_zeroed_read a5.view [_] (by decide) _ _ ?_).symm
      intro p hp
      simp only [List.mem_cons, List.not_mem_nil, or_false] at hp
      rcases hp with rfl
      exact cnt_not_mem_chunk ![0, 0, 0] ![0, 0, 512] (by decide) (by decide) j (by decide)
    · refine cnt_piece_agrees ![0, 0, 0] (by decide) _ _ fun j => ?_
      refine (cnt_pay7_apply x1 _ j).trans ((cntAfter_emb (fun _ => 0) x1 _ _ 0 rfl j).trans ?_).symm
      refine congrArg (fun s : EReal => s + ∑ r : Fin 2000, oh (x1 (ix2 r 0)) (0 + j.val)) ?_
      exact (cnt_zeroed_read a5.view [] (by decide) _ _ (fun p hp => absurd hp List.not_mem_nil)).symm
  · have hb := b.isLt
    rcases (by omega : b.val < 512 ∨ (512 ≤ b.val ∧ b.val < 1024) ∨ (1024 ≤ b.val ∧ b.val < 1536) ∨ 1536 ≤ b.val)
      with h | h | h | h
    · exact ⟨_, List.mem_cons_of_mem _ (List.mem_cons_of_mem _ (List.mem_cons_of_mem _ List.mem_cons_self)),
        cnt_mem_chunk ![0, 0, 0] (by decide) b rfl rfl (Nat.zero_le _) (by show b.val < 0 + 512; omega)⟩
    · exact ⟨_, List.mem_cons_of_mem _ (List.mem_cons_of_mem _ List.mem_cons_self),
        cnt_mem_chunk ![0, 0, 512] (by decide) b rfl rfl h.1 (by show b.val < 512 + 512; omega)⟩
    · exact ⟨_, List.mem_cons_of_mem _ List.mem_cons_self,
        cnt_mem_chunk ![0, 0, 1024] (by decide) b rfl rfl h.1 (by show b.val < 1024 + 512; omega)⟩
    · exact ⟨_, List.mem_cons_self,
        cnt_mem_chunk ![0, 0, 1536] (by decide) b rfl rfl h (by show b.val < 1536 + 512; omega)⟩

/-- At every other block it adds the same to what the block before left. -/
theorem out_B_3_apply (c : Dev nD) (i : grid0.Coords) (a2 : Memref sig .tc .vmem S2000x128 .f32) (h2 : a2.IsWhole)
    (a3 : Memref sig .tc .vmem S2000x1 .i32) (h3 : a3.IsWhole) (a4 : Memref sig .tc .vmem S1x2048x256 .f32) (h4 : a4.IsWhole)
    (a5 : Memref sig .tc .vmem S1x1x2048 .f32) (h5 : a5.IsWhole) (hc : ¬cond0_0 i)
    (x0 : S2000x128.Idx → EReal) (x1 : S2000x1.Idx → BitVec 32) (xo2 : S1x2048x256.Idx → EReal) (xo3 : S1x1x2048.Idx → EReal)
    (b : Fin 2048) :
    (out0_B_3 (F := Ideal) c i a2 h2 a3 h3 a4 h4 a5 h5 hc x0 x1 xo2 xo3 : S1x1x2048.Idx → EReal) (ix3 0 0 b)
      = xo3 (ix3 0 0 b)
        + ∑ r : Fin 2000, oh (x1 (ix2 r 0)) b.val := by
  unfold out0_B_3
  rw [View.read_writes_eq_canon _ _ _ (cover0_B_3 (F := Ideal) c i a2 h2 a3 h3 a4 h4 a5 h5 hc x0 x1 xo2 xo3)]
  refine (View.canon_apply_of_pieces (cntAfter xo3 x1) _ ?_ (ix3 0 0 b)
    (cover0_B_3 (F := Ideal) c i a2 h2 a3 h3 a4 h4 a5 h5 hc x0 x1 xo2 xo3 (ix3 0 0 b))).trans rfl
  unfold kernelRun0_B
  dsimp only
  sl_unfold_words
  simp only [View.readAt_eq_ld, h3.read_unread, h5.read_unread, View.ld_unit_zero (S := S2000x1) cnt_hz2, cnt_pay4_eq]
  intro p hp
  simp only [List.mem_cons, List.not_mem_nil, or_false] at hp
  rcases hp with rfl | rfl | rfl | rfl
  · refine cnt_piece_agrees ![0, 0, 1536] (by decide) _ _ fun j => ?_
    exact (cnt_pay17_apply x1 _ _ j).trans (cntAfter_emb xo3 x1 _ _ 1536 rfl j).symm
  · refine cnt_piece_agrees ![0, 0, 1024] (by decide) _ _ fun j => ?_
    exact (cnt_pay14_apply x1 _ _ j).trans (cntAfter_emb xo3 x1 _ _ 1024 rfl j).symm
  · refine cnt_piece_agrees ![0, 0, 512] (by decide) _ _ fun j => ?_
    exact (cnt_pay10_apply x1 _ _ j).trans (cntAfter_emb xo3 x1 _ _ 512 rfl j).symm
  · refine cnt_piece_agrees ![0, 0, 0] (by decide) _ _ fun j => ?_
    exact (cnt_pay7_apply x1 _ j).trans (cntAfter_emb xo3 x1 _ _ 0 rfl j).symm

end Cert.KernelIdeal.PassA

end
-- ==== Proof.PassA.lean ====
import proofs.«423812_j249108103838_3_alg».proof.Proof.Gen.KernelIdeal.Frame
import proofs.«423812_j249108103838_3_alg».proof.Proof.Spec
import proofs.«423812_j249108103838_3_alg».proof.Proof.PassASums
import proofs.«423812_j249108103838_3_alg».proof.Proof.PassACounts
import Idealize.ShloMosaic.Lib.Pipeline.Value
import Idealize.ShloMosaic.PureOps.Ideal.Laws

noncomputable section

open scoped BigOperators

namespace Cert.KernelIdeal.PassA

open Idealize.ShloMosaic Idealize.ShloMosaic.TcCoe Idealize.SL.Sem Idealize.ShloMosaic.ValueIdx
open Cert.KernelIdeal Cert.KernelIdeal.Gen GraphNorm
open Idealize.ShloMosaic.Pipeline (Dat)

variable (V : (c : Dev nD) → (b : Ref sig .tc) → Buf (Elt Ideal) ((c : Thread nD τ).loc b))

/-! ## The block sums

Pass A walks 500 blocks of 2000 rows, block `u` holding the rows `u * 2000 + r`; core `k` owns the blocks
`250 k .. 250 k + 249`. -/

/-- What the rows of block `u` contribute to segment `b`, column `q` (nothing past the last block). -/
def blkSum (x : Feat) (g : Fin 1000000 → BitVec 32) (u : ℕ) (b : Fin 2048) (q : Fin 256) : EReal :=
  if h : u < 500 then
    ∑ r : Fin 2000, oh (g ⟨u * 2000 + r.val, by have := r.isLt; omega⟩) b.val
      * feat x ⟨u * 2000 + r.val, by have := r.isLt; omega⟩ q
  else 0

/-- How many rows of block `u` have id `b`. -/
def blkCnt (g : Fin 1000000 → BitVec 32) (u : ℕ) (b : Fin 2048) : EReal :=
  if h : u < 500 then ∑ r : Fin 2000, oh (g ⟨u * 2000 + r.val, by have := r.isLt; omega⟩) b.val else 0

/-- A block of 2000 rows whose row `r` is row `u * 2000 + r` of the features, with the ids likewise: its indicator
    sums are the block sums. -/
theorem sum_of_rows (x : Feat) (g : Fin 1000000 → BitVec 32) (xb : S2000x128.Idx → EReal) (gb : S2000x1.Idx → BitVec 32)
    (u : ℕ) (hu : u < 500)
    (hx : ∀ (r : Fin 2000) (f : Fin 128), xb (ix2 r f) = x (ix2 ⟨u * 2000 + r.val, by have := r.isLt; omega⟩ f))
    (hg : ∀ r : Fin 2000, gb (ix2 r 0) = g ⟨u * 2000 + r.val, by have := r.isLt; omega⟩)
    (b : Fin 2048) (q : Fin 256) :
    ∑ r : Fin 2000, oh (gb (ix2 r 0)) b.val * featBlk xb r q = blkSum x g u b q := by
  unfold blkSum
  rw [dif_pos hu]
  refine Finset.sum_congr rfl fun r _ => ?_
  rw [hg r]
  congr 1
  unfold featBlk feat
  by_cases h : q.val < 128
  · rw [dif_pos h, dif_pos h]; exact hx r _
  · rw [dif_neg h, dif_neg h, hx r _]

theorem cnt_of_rows (g : Fin 1000000 → BitVec 32) (gb : S2000x1.Idx → BitVec 32) (u : ℕ) (hu : u < 500)
    (hg : ∀ r : Fin 2000, gb (ix2 r 0) = g ⟨u * 2000 + r.val, by have := r.isLt; omega⟩) (b : Fin 2048) :
    ∑ r : Fin 2000, oh (gb (ix2 r 0)) b.val = blkCnt g u b := by
  unfold blkCnt
  rw [dif_pos hu]
  exact Finset.sum_congr rfl fun r _ => by rw [hg r]

/-! ## Where the windows' blocks sit -/

/-- The input windows move one row block per point; the output windows hold slab `t / 250`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_out : ∀ t : Fin cfg0.N, win0_2.index t (0 : Fin 3) = t.val / 250 ∧ win0_2.index t (1 : Fin 3) = 0
    ∧ win0_2.index t (2 : Fin 3) = 0 ∧ win0_3.index t (0 : Fin 3) = t.val / 250 ∧ win0_3.index t (1 : Fin 3) = 0
    ∧ win0_3.index t (2 : Fin 3) = 0 :=
  (by decide +kernel : ∀ t : Fin grid0.N, _)

/-- Row `r` of the feature block at point `t` is row `t * 2000 + r` of the features. -/
theorem xblk_apply (c : Dev nD) (t : Fin cfg0.N) (r : Fin 2000) (f : Fin 128) (h : t.val * 2000 + r.val < 1000000) :
    (iblk0 (F := Ideal) V c 0 t : S2000x128.Idx → EReal) (ix2 r f)
      = (V c main_arg0 : S1000000x128.Idx → EReal) (ix2 ⟨t.val * 2000 + r.val, h⟩ f) := by
  obtain ⟨e0, e1, -, -⟩ := idx_in t
  unfold iblk0
  rw [View.read_apply]
  show (V c main_arg0 : S1000000x128.Idx → EReal) (((cfg0.win 0).blk t).view.emb (ix2 r f)) = _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 128 + 1 * f.val = f.val; rw [e1]; omega

/-- … and of the id block likewise. -/
theorem gblk_apply (c : Dev nD) (t : Fin cfg0.N) (r : Fin 2000) (h : t.val * 2000 + r.val < 1000000) :
    (iblk0 (F := Ideal) V c 1 t : S2000x1.Idx → BitVec 32) (ix2 r 0)
      = (V c main_v1 : S1000000x1.Idx → BitVec 32) (ix2 ⟨t.val * 2000 + r.val, h⟩ 0) := by
  obtain ⟨-, -, e0, e1⟩ := idx_in t
  unfold iblk0
  rw [View.read_apply]
  show (V c main_v1 : S1000000x1.Idx → BitVec 32) (((cfg0.win 1).blk t).view.emb (ix2 r 0)) = _
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 1 + 1 * 0 = 0; rw [e1]

/-! ## What the staging buffers hold after each point -/

/-- At a core's first block the sums are that block's. -/
theorem sums_first (c : Dev nD) (t : Fin cfg0.N) (h0 : t.val % 250 = 0) (b : Fin 2048) (q : Fin 256) :
    ((outsAt0 (F := Ideal) V c t.val t.isLt).1 : S1x2048x256.Idx → EReal) (ix3 0 b q)
      = blkSum (V c main_arg0) (fun n => V c main_v1 (ix2 n 0)) t.val b q := by
  have hN : t.val < 500 := lt_of_lt_of_eq t.isLt (show cfg0.N = 500 from N_0)
  rw [outsAt0_A V c t h0]
  dsimp only
  refine (out_A_2_apply c (grid0.coords t) (ms0_0 t) (hs0_0 t) (ms0_1 t) (hs0_1 t) (ms0_2 t) (hs0_2 t) (ms0_3 t) (hs0_3 t) ((hcond0_0 t).mpr h0) (iblk0 (F := Ideal) V c 0 t) (iblk0 (F := Ideal) V c 1 t) b q).trans ?_
  exact sum_of_rows (V c main_arg0) (fun n => V c main_v1 (ix2 n 0)) (iblk0 (F := Ideal) V c 0 t) (iblk0 (F := Ideal) V c 1 t) t.val hN
    (fun r f => xblk_apply V c t r f _) (fun r => gblk_apply V c t r _) b q

/-- At a later block the block's sums are added to what the point before left. -/
theorem sums_next (c : Dev nD) (t : Fin cfg0.N) (h0 : ¬t.val % 250 = 0) (b : Fin 2048) (q : Fin 256) :
    ((outsAt0 (F := Ideal) V c t.val t.isLt).1 : S1x2048x256.Idx → EReal) (ix3 0 b q)
      = ((outsAt0 (F := Ideal) V c (t.val - 1) (Nat.lt_of_le_of_lt (Nat.sub_le _ _) t.isLt)).1 : S1x2048x256.Idx → EReal) (ix3 0 b q)
        + blkSum (V c main_arg0) (fun n => V c main_v1 (ix2 n 0)) t.val b q := by
  have hN : t.val < 500 := lt_of_lt_of_eq t.isLt (show cfg0.N = 500 from N_0)
  rw [outsAt0_B V c t h0]
  dsimp only
  refine (out_B_2_apply c (grid0.coords t) (ms0_0 t) (hs0_0 t) (ms0_1 t) (hs0_1 t) (ms0_2 t) (hs0_2 t) (ms0_3 t) (hs0_3 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2 b q).trans ?_
  exact congrArg (_ + ·) (sum_of_rows (V c main_arg0) (fun n => V c main_v1 (ix2 n 0)) (iblk0 (F := Ideal) V c 0 t) (iblk0 (F := Ideal) V c 1 t) t.val hN
    (fun r f => xblk_apply V c t r f _) (fun r => gblk_apply V c t r _) b q)

theorem cnts_first (c : Dev nD) (t : Fin cfg0.N) (h0 : t.val % 250 = 0) (b : Fin 2048) :
    ((outsAt0 (F := Ideal) V c t.val t.isLt).2 : S1x1x2048.Idx → EReal) (ix3 0 0 b)
      = blkCnt (fun n => V c main_v1 (ix2 n 0)) t.val b := by
  have hN : t.val < 500 := lt_of_lt_of_eq t.isLt (show cfg0.N = 500 from N_0)
  rw [outsAt0_A V c t h0]
  dsimp only
  refine (out_A_3_apply c (grid0.coords t) (ms0_0 t) (hs0_0 t) (ms0_1 t) (hs0_1 t) (ms0_2 t) (hs0_2 t) (ms0_3 t) (hs0_3 t) ((hcond0_0 t).mpr h0) (iblk0 (F := Ideal) V c 0 t) (iblk0 (F := Ideal) V c 1 t) b).trans ?_
  exact cnt_of_rows (fun n => V c main_v1 (ix2 n 0)) (iblk0 (F := Ideal) V c 1 t) t.val hN
    (fun r => gblk_apply V c t r _) b

theorem cnts_next (c : Dev nD) (t : Fin cfg0.N) (h0 : ¬t.val % 250 = 0) (b : Fin 2048) :
    ((outsAt0 (F := Ideal) V c t.val t.isLt).2 : S1x1x2048.Idx → EReal) (ix3 0 0 b)
      = ((outsAt0 (F := Ideal) V c (t.val - 1) (Nat.lt_of_le_of_lt (Nat.sub_le _ _) t.isLt)).2 : S1x1x2048.Idx → EReal) (ix3 0 0 b)
        + blkCnt (fun n => V c main_v1 (ix2 n 0)) t.val b := by
  have hN : t.val < 500 := lt_of_lt_of_eq t.isLt (show cfg0.N = 500 from N_0)
  rw [outsAt0_B V c t h0]
  dsimp only
  refine (out_B_3_apply c (grid0.coords t) (ms0_0 t) (hs0_0 t) (ms0_1 t) (hs0_1 t) (ms0_2 t) (hs0_2 t) (ms0_3 t) (hs0_3 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2 b).trans ?_
  exact congrArg (_ + ·) (cnt_of_rows (fun n => V c main_v1 (ix2 n 0)) (iblk0 (F := Ideal) V c 1 t) t.val hN
    (fun r => gblk_apply V c t r _) b)

/-- After point `n` the sums buffer holds the block sums of the core's blocks so far: blocks `250 (n / 250) + j`,
    `j ≤ n % 250`. -/
theorem sums_at (c : Dev nD) (b : Fin 2048) (q : Fin 256) : ∀ (n : ℕ) (hn : n < cfg0.N),
    ((outsAt0 (F := Ideal) V c n hn).1 : S1x2048x256.Idx → EReal) (ix3 0 b q)
      = ∑ j ∈ Finset.range (n % 250 + 1), blkSum (V c main_arg0) (fun n => V c main_v1 (ix2 n 0)) (250 * (n / 250) + j) b q := by
  intro n
  induction n with
  | zero =>
    intro hn
    refine (sums_first V c ⟨0, hn⟩ (Nat.zero_mod _) b q).trans ?_
    rw [show (0 % 250 + 1) = 1 from rfl, Finset.sum_range_one]
  | succ n ih =>
    intro hn
    by_cases h0 : (n + 1) % 250 = 0
    · refine (sums_first V c ⟨n + 1, hn⟩ h0 b q).trans ?_
      rw [h0, Nat.zero_add, Finset.sum_range_one]
      show blkSum _ _ (n + 1) b q = _
      congr 1; omega
    · refine (sums_next V c ⟨n + 1, hn⟩ h0 b q).trans ?_
      show ((outsAt0 (F := Ideal) V c n (Nat.lt_of_succ_lt hn)).1 : S1x2048x256.Idx → EReal) (ix3 0 b q) + blkSum _ _ (n + 1) b q = _
      rw [ih (Nat.lt_of_succ_lt hn)]
      have e1 : (n + 1) % 250 = n % 250 + 1 := by omega
      have e2 : (n + 1) / 250 = n / 250 := by omega
      rw [e1, e2, Finset.sum_range_succ _ (n % 250 + 1)]
      congr 2; omega

theorem cnts_at (c : Dev nD) (b : Fin 2048) : ∀ (n : ℕ) (hn : n < cfg0.N),
    ((outsAt0 (F := Ideal) V c n hn).2 : S1x1x2048.Idx → EReal) (ix3 0 0 b)
      = ∑ j ∈ Finset.range (n % 250 + 1), blkCnt (fun n => V c main_v1 (ix2 n 0)) (250 * (n / 250) + j) b := by
  intro n
  induction n with
  | zero =>
    intro hn
    refine (cnts_first V c ⟨0, hn⟩ (Nat.zero_mod _) b).trans ?_
    rw [show (0 % 250 + 1) = 1 from rfl, Finset.sum_range_one]
  | succ n ih =>
    intro hn
    by_cases h0 : (n + 1) % 250 = 0
    · refine (cnts_first V c ⟨n + 1, hn⟩ h0 b).trans ?_
      rw [h0, Nat.zero_add, Finset.sum_range_one]
      show blkCnt _ (n + 1) b = _
      congr 1; omega
    · refine (cnts_next V c ⟨n + 1, hn⟩ h0 b).trans ?_
      show ((outsAt0 (F := Ideal) V c n (Nat.lt_of_succ_lt hn)).2 : S1x1x2048.Idx → EReal) (ix3 0 0 b) + blkCnt _ (n + 1) b = _
      rw [ih (Nat.lt_of_succ_lt hn)]
      have e1 : (n + 1) % 250 = n % 250 + 1 := by omega
      have e2 : (n + 1) / 250 = n / 250 := by omega
      rw [e1, e2, Finset.sum_range_succ _ (n % 250 + 1)]
      congr 2; omega

/-! ## The write-backs -/

/-- A core's 250 block sums are its partial sum. -/
theorem sum_blocks (x : Feat) (g : Fin 1000000 → BitVec 32) (k : Fin 2) (b : Fin 2048) (q : Fin 256) :
    ∑ j ∈ Finset.range 250, blkSum x g (250 * k.val + j) b q = partSum x g k b q := by
  unfold partSum
  rw [Finset.sum_range]
  refine Finset.sum_congr rfl fun i _ => ?_
  unfold blkSum
  rw [dif_pos (by have := k.isLt; have := i.isLt; omega)]
  rfl

theorem cnt_blocks (g : Fin 1000000 → BitVec 32) (k : Fin 2) (b : Fin 2048) :
    ∑ j ∈ Finset.range 250, blkCnt g (250 * k.val + j) b = partCnt g k b := by
  unfold partCnt
  rw [Finset.sum_range]
  refine Finset.sum_congr rfl fun i _ => ?_
  unfold blkCnt
  rw [dif_pos (by have := k.isLt; have := i.isLt; omega)]
  rfl

/-- The sums array the pass leaves, as one function of the features and the ids. -/
abbrev sumsArr (c : Dev nD) : S2x2048x256.Idx → EReal :=
  fun y => partSum (V c main_arg0) (fun n => V c main_v1 (ix2 n 0)) (y 0) (y 1) (y 2)
abbrev cntsArr (c : Dev nD) : S2x1x2048.Idx → EReal :=
  fun y => partCnt (fun n => V c main_v1 (ix2 n 0)) (y 0) (y 2)

/-- What a core's last point writes back is its slab of that function. -/
theorem flushed_sums (c : Dev nD) (t : Fin cfg0.N) (hf : (cfg0.win 2).flush t = true) :
    (dat0 (F := Ideal) V c).flushed 2 t = ((cfg0.win 2).blk t).view.read (Elt Ideal) (sumsArr V c) := by
  have hN : t.val < 500 := lt_of_lt_of_eq t.isLt (show cfg0.N = 500 from N_0)
  have h249 : t.val % 250 = 249 := (flush0_2 t).mp hf
  obtain ⟨e0, e1, e2, -, -, -⟩ := idx_out t
  show (cfg0.win 2).cut (grid0.coords t) ((dat0 (F := Ideal) V c).after 2 t) = _
  rw [after0_2]
  funext y
  have hy0 : (y 0).val < 1 := (y 0).isLt
  have hp : (y 1).val < 2048 := (y 1).isLt
  have hq : (y 2).val < 256 := (y 2).isLt
  have hk : t.val / 250 < 2 := by omega
  have hin : (win0_2.xinj (grid0.coords t) y : S1x2048x256.Idx) = ix3 0 ⟨(y 1).val, hp⟩ ⟨(y 2).val, hq⟩ :=
    funext fun a => Fin.ext (by
      match a with
      | ⟨0, _⟩ => show (y 0).val = 0; omega
      | ⟨1, _⟩ => rfl
      | ⟨2, _⟩ => rfl)
  have hemb : (((cfg0.win 2).blk t).view.emb y : S2x2048x256.Idx) = ix3 ⟨t.val / 250, hk⟩ ⟨(y 1).val, hp⟩ ⟨(y 2).val, hq⟩ :=
    funext fun a => Fin.ext (by
      match a with
      | ⟨0, _⟩ => show win0_2.index t (0 : Fin 3) * 1 + 1 * (y 0).val = t.val / 250; rw [e0]; omega
      | ⟨1, _⟩ => show win0_2.index t (1 : Fin 3) * 2048 + 1 * (y 1).val = (y 1).val; rw [e1]; omega
      | ⟨2, _⟩ => show win0_2.index t (2 : Fin 3) * 256 + 1 * (y 2).val = (y 2).val; rw [e2]; omega)
  rw [View.read_apply]
  show ((outsAt0 (F := Ideal) V c t.val t.isLt).1 : S1x2048x256.Idx → EReal) (win0_2.xinj (grid0.coords t) y)
    = sumsArr V c (((cfg0.win 2).blk t).view.emb y)
  rw [hin, hemb, sums_at V c ⟨(y 1).val, hp⟩ ⟨(y 2).val, hq⟩ t.val t.isLt, h249]
  exact sum_blocks _ _ ⟨t.val / 250, hk⟩ _ _

theorem flushed_cnts (c : Dev nD) (t : Fin cfg0.N) (hf : (cfg0.win 3).flush t = true) :
    (dat0 (F := Ideal) V c).flushed 3 t = ((cfg0.win 3).blk t).view.read (Elt Ideal) (cntsArr V c) := by
  have hN : t.val < 500 := lt_of_lt_of_eq t.isLt (show cfg0.N = 500 from N_0)
  have h249 : t.val % 250 = 249 := (flush0_3 t).mp hf
  obtain ⟨-, -, -, e0, e1, e2⟩ := idx_out t
  show (cfg0.win 3).cut (grid0.coords t) ((dat0 (F := Ideal) V c).after 3 t) = _
  rw [after0_3]
  funext y
  have hy0 : (y 0).val < 1 := (y 0).isLt
  have hy1 : (y 1).val < 1 := (y 1).isLt
  have hp : (y 2).val < 2048 := (y 2).isLt
  have hk : t.val / 250 < 2 := by omega
  have hin : (win0_3.xinj (grid0.coords t) y : S1x1x2048.Idx) = ix3 0 0 ⟨(y 2).val, hp⟩ :=
    funext fun a => Fin.ext (by
      match a with
      | ⟨0, _⟩ => show (y 0).val = 0; omega
      | ⟨1, _⟩ => show (y 1).val = 0; omega
      | ⟨2, _⟩ => rfl)
  have hemb : (((cfg0.win 3).blk t).view.emb y : S2x1x2048.Idx) = ix3 ⟨t.val / 250, hk⟩ 0 ⟨(y 2).val, hp⟩ :=
    funext fun a => Fin.ext (by
      match a with
      | ⟨0, _⟩ => show win0_3.index t (0 : Fin 3) * 1 + 1 * (y 0).val = t.val / 250; rw [e0]; omega
      | ⟨1, _⟩ => show win0_3.index t (1 : Fin 3) * 1 + 1 * (y 1).val = 0; rw [e1]; omega
      | ⟨2, _⟩ => show win0_3.index t (2 : Fin 3) * 2048 + 1 * (y 2).val = (y 2).val; rw [e2]; omega)
  rw [View.read_apply]
  show ((outsAt0 (F := Ideal) V c t.val t.isLt).2 : S1x1x2048.Idx → EReal) (win0_3.xinj (grid0.coords t) y)
    = cntsArr V c (((cfg0.win 3).blk t).view.emb y)
  rw [hin, hemb, cnts_at V c ⟨(y 2).val, hp⟩ t.val t.isLt, h249]
  exact cnt_blocks _ ⟨t.val / 250, hk⟩ _

/-- Slab `k` is written back at point `250 k + 249`. -/
theorem cover_sums (i : S2x2048x256.Idx) :
    ∃ t : Fin cfg0.N, (cfg0.win 2).flush t = true ∧ i ∈ ((cfg0.win 2).blk t).view.set := by
  have hN : cfg0.N = 500 := N_0
  have h0 : (i 0).val < 2 := (i 0).isLt
  have h1 : (i 1).val < 2048 := (i 1).isLt
  have h2 : (i 2).val < 256 := (i 2).isLt
  obtain ⟨t, ht⟩ : ∃ t : Fin cfg0.N, t.val = 250 * (i 0).val + 249 := ⟨⟨250 * (i 0).val + 249, by rw [hN]; omega⟩, rfl⟩
  obtain ⟨e0, e1, e2, -, -, -⟩ := idx_out t
  refine ⟨t, (flush0_2 t).mpr (by omega), ?_⟩
  show i ∈ ((View.whole main_v2_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 2048 ≤ (i 1).val ∧ (i 1).val < win0_2.index t (1 : Fin 3) * 2048 + 2048; rw [e1]; omega
  | ⟨2, _⟩ => show win0_2.index t (2 : Fin 3) * 256 ≤ (i 2).val ∧ (i 2).val < win0_2.index t (2 : Fin 3) * 256 + 256; rw [e2]; omega

theorem cover_cnts (i : S2x1x2048.Idx) :
    ∃ t : Fin cfg0.N, (cfg0.win 3).flush t = true ∧ i ∈ ((cfg0.win 3).blk t).view.set := by
  have hN : cfg0.N = 500 := N_0
  have h0 : (i 0).val < 2 := (i 0).isLt
  have h1 : (i 1).val < 1 := (i 1).isLt
  have h2 : (i 2).val < 2048 := (i 2).isLt
  obtain ⟨t, ht⟩ : ∃ t : Fin cfg0.N, t.val = 250 * (i 0).val + 249 := ⟨⟨250 * (i 0).val + 249, by rw [hN]; omega⟩, rfl⟩
  obtain ⟨-, -, -, e0, e1, e2⟩ := idx_out t
  refine ⟨t, (flush0_3 t).mpr (by omega), ?_⟩
  show i ∈ ((View.whole main_v2_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 2048 ≤ (i 2).val ∧ (i 2).val < win0_3.index t (2 : Fin 3) * 2048 + 2048; rw [e2]; omega

theorem sums_arr (c : Dev nD) : (dat0 (F := Ideal) V c).arrAt 2 cfg0.N = sumsArr V c :=
  (dat0 (F := Ideal) V c).arrAt_eq_of_cover 2 (sumsArr V c) (flushed_sums V c) cover_sums

theorem cnts_arr (c : Dev nD) : (dat0 (F := Ideal) V c).arrAt 3 cfg0.N = cntsArr V c :=
  (dat0 (F := Ideal) V c).arrAt_eq_of_cover 3 (cntsArr V c) (flushed_cnts V c) cover_cnts

/-- After the first pass, core `k`'s slab of the sums array holds, for segment `b` and column `q`, the stacked
    features of the core's rows whose id is `b`. -/
theorem sums (c : Dev nD) (k : Fin 2) (b : Fin 2048) (q : Fin 256) :
    ((dat0 (F := Ideal) V c).arrAt 2 cfg0.N : S2x2048x256.Idx → EReal) (ix3 k b q)
      = partSum (V c main_arg0) (fun n => V c main_v1 (ix2 n 0)) k b q := by
  exact congrFun (sums_arr V c) (ix3 k b q)

/-- … and its slab of the counts array the number of such rows. -/
theorem counts (c : Dev nD) (k : Fin 2) (b : Fin 2048) :
    ((dat0 (F := Ideal) V c).arrAt 3 cfg0.N : S2x1x2048.Idx → EReal) (ix3 k 0 b)
      = partCnt (fun n => V c main_v1 (ix2 n 0)) k b := by
  exact congrFun (cnts_arr V c) (ix3 k 0 b)

end Cert.KernelIdeal.PassA

end
-- ==== Proof.PassBBody.lean ====
import proofs.«423812_j249108103838_3_alg».proof.Proof.Gen.KernelIdeal.Frame
import proofs.«423812_j249108103838_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.PassB

open Idealize.ShloMosaic Idealize.ShloMosaic.TcCoe Idealize.SL.Sem Idealize.ShloMosaic.ValueIdx
open Cert.KernelIdeal Cert.KernelIdeal.Gen GraphNorm
open Idealize.ShloMosaic.Pipeline (Dat)

/-! ## The product of an indicator chunk with a table chunk, read at an index -/

/-- The left operand's row coordinate is the result's row. -/
theorem lhs_gather_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl
/-- The left operand's column coordinate is the contracted position. -/
theorem lhs_gather_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- The right operand's row coordinate is the contracted position. -/
theorem rhs_gather_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- The right operand's column coordinate is the result's column. -/
theorem rhs_gather_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-- A [2000,512] by [512,256] product into the zero splat, read at (r, q): the sum over the 512 contracted positions. -/
theorem gather_matmul_apply (A : FVec Ideal S2000x512 .bf16) (B : FVec Ideal S512x256 .bf16) (r : Fin 2000) (q : Fin 256) :
    matmul dot_S2000x512_S512x256_S2000x256_1_0_0_1_n_n none A B (constant (F := Ideal) S2000x256 .f32 0x00000000#32) (ix2 r q)
      = ∑ j : Fin 512, A (ix2 r j) * B (ix2 j q) := by
  simp only [matmul]
  rw [Ideal.matmul_constant_zero_apply,
    ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 r q)
      ((contrEquiv1 dot_S2000x512_S512x256_S2000x256_1_0_0_1_n_n 512 rfl rfl).symm k) = ix2 r k := funext fun a => Fin.ext (by
    match a with
    | ⟨0, _⟩ => exact lhs_gather_0 _ _
    | ⟨1, _⟩ => exact (lhs_gather_1 _ _).trans hk)
  have er : dot_S2000x512_S512x256_S2000x256_1_0_0_1_n_n.rhsIdx (ix2 r q)
      ((contrEquiv1 dot_S2000x512_S512x256_S2000x256_1_0_0_1_n_n 512 rfl rfl).symm k) = ix2 k q := funext fun a => Fin.ext (by
    match a with
    | ⟨0, _⟩ => exact (rhs_gather_0 _ _).trans hk
    | ⟨1, _⟩ => exact rhs_gather_1 _ _)
  rw [el, er]

/-! ## The indicator chunk -/

/-- The indicator word: 1 when the two 32-bit words agree, else 0, as an extended real. -/
theorem indicator_word (w v : BitVec 32) :
    (FloatOps.sitofp (F := Ideal) .f32 ((IntOp.cmpi .eq w v).setWidth 32) : EReal) = if w = v then 1 else 0 := by
  by_cases h : w = v
  · subst h
    rw [if_pos rfl]
    have e : IntOp.cmpi .eq w w = 1#1 := by simp [IntOp.cmpi]
    rw [e]
    show (((BitVec.setWidth 32 (1#1)).toInt : ℝ) : EReal) = 1
    have e1 : (BitVec.setWidth 32 (1#1)).toInt = 1 := by decide
    rw [e1]; simp
  · rw [if_neg h]
    have e : IntOp.cmpi .eq w v = 0#1 := by
      show BitVec.ofBool (w == v) = 0#1
      rw [beq_eq_false_iff_ne.mpr h]; rfl
    rw [e]
    show (((BitVec.setWidth 32 (0#1)).toInt : ℝ) : EReal) = 0
    have e0 : (BitVec.setWidth 32 (0#1)).toInt = 0 := by decide
    rw [e0]; simp

/-- Entry (r, j) of the indicator chunk that starts at segment `c`: does row r's id word name segment c + j? -/
theorem indicator_apply (x1 : S2000x1.Idx → BitVec 32) (c : Nat) (r : Fin 2000) (j : Fin 512) :
    (truncf .bf16 (sitofp .f32 (extui 32 (cmpi .eq (broadcastTo S2000x512 (k1_pay2 (F := Ideal) x1) broadcasts_S2000x1_S2000x512)
        (addi (iota .tc S2000x512 32 [1] iota_S2000x512_d1_w32) (broadcast S2000x512 (BitVec.ofNat 32 c)))) natLt_1_32)) bitsLt_bf16_f32
      : FVec Ideal S2000x512 .bf16) (ix2 r j) = oh (x1 (ix2 r 0)) (c + j.val) := by
  rw [truncf_apply, sitofp_apply, extui_apply]
  have hb : broadcastTo S2000x512 (k1_pay2 (F := Ideal) x1) broadcasts_S2000x1_S2000x512 (ix2 r j) = x1 (ix2 r 0) := by
    refine (broadcastTo_apply _ _ (ix2 r j) (ix2 r (0 : Fin 1)) fun a => ?_).trans ?_
    · match a with
      | ⟨0, _⟩ => rfl
      | ⟨1, _⟩ => rfl
    · unfold k1_pay2; rw [shapeCast_self]
  have hi : iota .tc S2000x512 32 [1] iota_S2000x512_d1_w32 (ix2 r j) = BitVec.ofNat 32 j.val :=
    iota_single_apply .tc S2000x512 32 1 iota_S2000x512_d1_w32 (ix2 r j)
  show FloatOps.sitofp .f32 (BitVec.setWidth 32 (IntOp.cmpi .eq
    (broadcastTo S2000x512 (k1_pay2 (F := Ideal) x1) broadcasts_S2000x1_S2000x512 (ix2 r j))
    (IntOp.addi (iota .tc S2000x512 32 [1] iota_S2000x512_d1_w32 (ix2 r j)) (BitVec.ofNat 32 c)))) = _
  rw [hb, hi, indicator_word]
  unfold oh IntOp.addi
  rw [← BitVec.ofNat_add, Nat.add_comm]

/-! ## One chunk's product: the table row of the node's own segment when the chunk holds it, else zero -/

/-- Two segment numbers below 2^32 with the same 32-bit word are equal. -/
theorem segment_word_inj {a b : Nat} (ha : a < 4294967296) (hb : b < 4294967296) (h : BitVec.ofNat 32 a = BitVec.ofNat 32 b) : a = b := by
  have e := congrArg BitVec.toNat h
  rw [BitVec.toNat_ofNat, BitVec.toNat_ofNat, Nat.mod_eq_of_lt (by omega), Nat.mod_eq_of_lt (by omega)] at e
  exact e

/-- Over a chunk of 512 segments starting at `c` that holds segment `b0`: indicator times table entry sums to `b0`'s entry
    (one term has the indicator 1, every other term is zero times an entry). -/
theorem chunk_sum_in (T : S2048x256.Idx → EReal) (b0 : Fin 2048) (c : Nat) (q : Fin 256) (k : Fin 512 → Fin 2048)
    (hk : ∀ j, (k j).val = c + j.val) (hin : c ≤ b0.val ∧ b0.val < c + 512) :
    ∑ j : Fin 512, oh (BitVec.ofNat 32 b0.val) (c + j.val) * T (ix2 (k j) q) = T (ix2 b0 q) := by
  have hb := b0.isLt
  have hj : b0.val - c < 512 := by omega
  have e : c + (b0.val - c) = b0.val := by omega
  rw [Finset.sum_eq_single (⟨b0.val - c, hj⟩ : Fin 512)]
  · have ek : k ⟨b0.val - c, hj⟩ = b0 := Fin.ext (by rw [hk]; exact e)
    rw [ek]
    show oh (BitVec.ofNat 32 b0.val) (c + (b0.val - c)) * _ = _
    unfold oh
    rw [e, if_pos rfl, one_mul]
  · intro j _ hne
    have hjl := j.isLt
    unfold oh
    rw [if_neg, zero_mul]
    intro h
    have := segment_word_inj (by omega) (by omega) h
    exact hne (Fin.ext (by show j.val = b0.val - c; omega))
  · intro h; exact absurd (Finset.mem_univ _) h

/-- Over a chunk that does not hold segment `b0` every term is zero times an entry. -/
theorem chunk_sum_out (T : S2048x256.Idx → EReal) (b0 : Fin 2048) (c : Nat) (hc : c ≤ 2048) (q : Fin 256) (k : Fin 512 → Fin 2048)
    (hout : ¬(c ≤ b0.val ∧ b0.val < c + 512)) :
    ∑ j : Fin 512, oh (BitVec.ofNat 32 b0.val) (c + j.val) * T (ix2 (k j) q) = 0 := by
  refine Finset.sum_eq_zero fun j _ => ?_
  have hb := b0.isLt
  have hjl := j.isLt
  unfold oh
  rw [if_neg, zero_mul]
  intro h
  have := segment_word_inj (by omega) (by omega) h
  omega

/-- The product of the indicator chunk starting at segment `c` with the table's rows c … c + 511, read at (r, q). -/
theorem chunk_apply (x1 : S2000x1.Idx → BitVec 32) (x2 : S2048x256.Idx → EReal) (c : Nat) (hc : c ≤ 2048)
    (hs : S2048x256.Slices ![c, 0] S512x256) (r : Fin 2000) (q : Fin 256) (b0 : Fin 2048)
    (hg : x1 (ix2 r 0) = BitVec.ofNat 32 b0.val) :
    matmul dot_S2000x512_S512x256_S2000x256_1_0_0_1_n_n none
      (truncf .bf16 (sitofp .f32 (extui 32 (cmpi .eq (broadcastTo S2000x512 (k1_pay2 (F := Ideal) x1) broadcasts_S2000x1_S2000x512)
        (addi (iota .tc S2000x512 32 [1] iota_S2000x512_d1_w32) (broadcast S2000x512 (BitVec.ofNat 32 c)))) natLt_1_32)) bitsLt_bf16_f32
        : FVec Ideal S2000x512 .bf16)
      (extractStridedSlice S512x256 ![c, 0] (k1_pay3 (F := Ideal) x2) hs)
      (constant (F := Ideal) S2000x256 .f32 0x00000000#32) (ix2 r q)
    = if c ≤ b0.val ∧ b0.val < c + 512 then x2 (ix2 b0 q) else 0 := by
  refine (gather_matmul_apply _ _ r q).trans ?_
  have hT : ∀ j : Fin 512, extractStridedSlice S512x256 ![c, 0] (k1_pay3 (F := Ideal) x2) hs (ix2 j q)
      = x2 (ix2 ⟨c + j.val, Nat.lt_of_lt_of_le (Nat.add_lt_add_left j.isLt c) (hs.2 0)⟩ q) := fun j => by
    refine (slice2_axis0_eq c _ hs j q).trans ?_
    unfold k1_pay3
    rw [truncf_apply, shapeCast_self]
  refine (Finset.sum_congr rfl fun j _ => congrArg₂ (· * ·) (indicator_apply x1 c r j) (hT j)).trans ?_
  rw [hg]
  by_cases h : c ≤ b0.val ∧ b0.val < c + 512
  · rw [if_pos h]
    exact chunk_sum_in x2 b0 c q _ (fun _ => rfl) h
  · rw [if_neg h]
    exact chunk_sum_out x2 b0 c hc q _ h

/-! ## The gathered row, and the body's result -/

/-- Of the four chunks exactly one holds a given segment below 2048: four terms, one of them `t`, the others zero. -/
theorem pick_chunk (b : Nat) (hb : b < 2048) (t : EReal) :
    (if 0 ≤ b ∧ b < 0 + 512 then t else 0) + (if 512 ≤ b ∧ b < 512 + 512 then t else 0)
      + (if 1024 ≤ b ∧ b < 1024 + 512 then t else 0) + (if 1536 ≤ b ∧ b < 1536 + 512 then t else 0) = t := by
  split_ifs <;> first | omega | simp

/-- The four chunks' products add up to the table row of the node's own segment. -/
theorem gathered_apply (x1 : S2000x1.Idx → BitVec 32) (x2 : S2048x256.Idx → EReal) (r : Fin 2000) (q : Fin 256) (b0 : Fin 2048)
    (hg : x1 (ix2 r 0) = BitVec.ofNat 32 b0.val) :
    (k1_pay4 (F := Ideal) x1 x2 : S2000x256.Idx → EReal) (ix2 r q)
      + (k1_pay5 (F := Ideal) x1 x2 : S2000x256.Idx → EReal) (ix2 r q) = x2 (ix2 b0 q) := by
  have h0 := chunk_apply x1 x2 0 (by omega) slices_S2048x256_o0_0_S512x256 r q b0 hg
  have h1 := chunk_apply x1 x2 512 (by omega) slices_S2048x256_o512_0_S512x256 r q b0 hg
  have h2 := chunk_apply x1 x2 1024 (by omega) slices_S2048x256_o1024_0_S512x256 r q b0 hg
  have h3 := chunk_apply x1 x2 1536 (by omega) slices_S2048x256_o1536_0_S512x256 r q b0 hg
  unfold k1_pay4 k1_pay5
  dsimp only
  rw [addf_apply, addf_apply, addf_apply, h0, h1, h2, h3, broadcast_apply, Ideal.ofBits_def, Ideal.ofBits_zero_f32, zero_add]
  exact pick_chunk b0.val b0.isLt _

/-- The zero offsets of a whole-block access. -/
theorem body_offsets_zero : (![0, 0] : Fin 2 → Nat) = fun _ => 0 := funext fun a => by fin_cases a <;> rfl

/-- The second pass's body, on a block of 2000 nodes: the table's row of the node's own segment is picked out by four
    products of indicator chunks with table chunks (every other term of the contraction is a zero times a table entry),
    and the node's features are scaled by its left half and shifted by its right half. -/
theorem out_apply (x0 : S2000x128.Idx → EReal) (x1 : S2000x1.Idx → BitVec 32) (x2 : S2048x256.Idx → EReal)
    (r : Fin 2000) (f : Fin 128) (b0 : Fin 2048) (hg : x1 (ix2 r 0) = BitVec.ofNat 32 b0.val) :
    (out1_3 (F := Ideal) x0 x1 x2 : S2000x128.Idx → EReal) (ix2 r f)
      = x0 (ix2 r f) * x2 (ix2 b0 (lo f)) + x2 (ix2 b0 (hi f)) := by
  unfold out1_3
  rw [View.canon_unit_zero body_offsets_zero, View.ld_unit_zero body_offsets_zero, View.ld_unit_zero body_offsets_zero,
    View.ld_unit_zero body_offsets_zero]
  unfold k1_pay1
  have hl : extractStridedSlice S2000x128 ![0, 0] (addf (k1_pay4 (F := Ideal) x1 x2) (k1_pay5 (F := Ideal) x1 x2))
      slices_S2000x256_o0_0_S2000x128 (ix2 r f) = x2 (ix2 b0 (lo f)) := by
    refine (slice2_axis1_apply 0 _ _ r f (lo f) (by show f.val = 0 + f.val; omega)).trans ?_
    rw [addf_apply]
    exact gathered_apply x1 x2 r (lo f) b0 hg
  have hh : extractStridedSlice S2000x128 ![0, 128] (addf (k1_pay4 (F := Ideal) x1 x2) (k1_pay5 (F := Ideal) x1 x2))
      slices_S2000x256_o0_128_S2000x128 (ix2 r f) = x2 (ix2 b0 (hi f)) := by
    refine (slice2_axis1_apply 128 _ _ r f (hi f) rfl).trans ?_
    rw [addf_apply]
    exact gathered_apply x1 x2 r (hi f) b0 hg
  rw [addf_apply, mulf_apply]
  exact congrArg₂ (fun a b => x0 (ix2 r f) * a + b) hl hh

end Cert.KernelIdeal.PassB

end
-- ==== Proof.PassB.lean ====
import proofs.«423812_j249108103838_3_alg».proof.Proof.Gen.KernelIdeal.Frame
import proofs.«423812_j249108103838_3_alg».proof.Proof.Spec
import proofs.«423812_j249108103838_3_alg».proof.Proof.PassBBody
import Idealize.ShloMosaic.Lib.Pipeline.Value
import Idealize.ShloMosaic.PureOps.Ideal.Laws

noncomputable section

open scoped BigOperators

namespace Cert.KernelIdeal.PassB

open Idealize.ShloMosaic Idealize.ShloMosaic.TcCoe Idealize.SL.Sem Idealize.ShloMosaic.ValueIdx
open Cert.KernelIdeal Cert.KernelIdeal.Gen GraphNorm
open Idealize.ShloMosaic.Pipeline (Dat)

variable (V : (c : Dev nD) → (b : Ref sig .tc) → Buf (Elt Ideal) ((c : Thread nD τ).loc b))

/-- The printed index maps at a grid point: the three row windows sit at row block `t`, column block 0; the table's
    window stays at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` leaves in the result window: the body on the point's three input blocks. -/
def bodyAt (c : Dev nD) (t : Fin cfg1.N) : S2000x128.Idx → EReal :=
  out1_3 (F := Ideal) (iblk1 V c 0 t) (iblk1 V c 1 t) (iblk1 V c 2 t)

/-- The grid point whose block holds row `i`: `i / 2000`. -/
def pointOf (i : Fin 1000000) : Fin cfg1.N :=
  ⟨i.val / 2000, by rw [show cfg1.N = 500 from N_1]; have := i.isLt; omega⟩

/-- The place of row `i` inside its block: `i % 2000`. -/
def rowIn (i : Fin 1000000) : Fin 2000 := ⟨i.val % 2000, Nat.mod_lt _ (by decide)⟩

/-- The result array as ONE function of the index: at row `i`, what the row's own grid point computes at the row's
    place in its block. -/
def wholeOut (c : Dev nD) : S1000000x128.Idx → EReal :=
  fun i => bodyAt V c (pointOf (i 0)) (ix2 (rowIn (i 0)) (i 1))

/-- An array assembled blockwise, read back through a block: for ANY family `B` of blocks, one per grid point, the
    array `i ↦ B (i₀ / 2000) (i₀ % 2000, i₁)` read through point `t`'s block is `B t`. An index of block `t` sits at
    row `2000 t + r`, whose point is `t` and whose place in the block is `r`. -/
theorem read_blockwise (B : Fin cfg1.N → S2000x128.Idx → EReal) (t : Fin cfg1.N) :
    (cfg1.win 3).cut (grid1.coords t) (B t)
      = ((cfg1.win 3).blk t).view.read (Elt Ideal)
          (fun i : S1000000x128.Idx => B (pointOf (i 0)) (ix2 (rowIn (i 0)) (i 1))) := by
  funext y
  rw [View.read_apply]
  show B t ((cfg1.win 3).xinj (grid1.coords t) y)
    = (fun i : S1000000x128.Idx => B (pointOf (i 0)) (ix2 (rowIn (i 0)) (i 1))) (((cfg1.win 3).blk t).view.emb y)
  obtain ⟨-, -, -, -, -, -, h0, h1⟩ := blockIndex t
  have hy0 : (y 0).val < 2000 := (y 0).isLt
  have hy1 : (y 1).val < 128 := (y 1).isLt
  obtain ⟨i, hi⟩ : ∃ i : S1000000x128.Idx, i = ((cfg1.win 3).blk t).view.emb y := ⟨_, rfl⟩
  rw [← hi]
  have e0 : (i 0).val = t.val * 2000 + (y 0).val := by
    rw [hi]; show win1_3.index t (0 : Fin 2) * 2000 + 1 * (y 0).val = _; rw [h0]; omega
  have e1 : (i 1).val = (y 1).val := by
    rw [hi]; show win1_3.index t (1 : Fin 2) * 128 + 1 * (y 1).val = _; rw [h1]; omega
  have hp : pointOf (i 0) = t := Fin.ext (by show (i 0).val / 2000 = t.val; rw [e0]; omega)
  have hr : (ix2 (rowIn (i 0)) (i 1) : S2000x128.Idx) = (cfg1.win 3).xinj (grid1.coords t) y := by
    funext a; apply Fin.ext
    match a with
    | ⟨0, _⟩ => show (i 0).val % 2000 = (y 0).val; rw [e0]; omega
    | ⟨1, _⟩ => exact e1
  show B t _ = B (pointOf (i 0)) (ix2 (rowIn (i 0)) (i 1))
  rw [hp, hr]

/-- What point `t` writes back is block `t` of `wholeOut`: the body's result on the point's blocks, and
    `wholeOut` is those results assembled blockwise. -/
theorem flushed_eq (c : Dev nD) (t : Fin cfg1.N) :
    (dat1 V c).flushed 3 t = ((cfg1.win 3).blk t).view.read (Elt Ideal) (wholeOut V c) := by
  show (cfg1.win 3).cut (grid1.coords t) ((dat1 V c).after 3 t) = _
  rw [after1_3]
  exact read_blockwise (bodyAt V c) t

/-- An index of the array is in point `t`'s block iff each coordinate is in the block's range on its axis. -/
theorem mem_blk (t : Fin cfg1.N) (i : S1000000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v35).slice (win1_3.rect t)).set ↔ _
  rw [View.set_slice_whole, Rect.mem_set_unit]
  exact Iff.rfl

/-- Every index of the array is in the block of its row's point. -/
theorem covered (i : S1000000x128.Idx) :
    ∃ t : Fin cfg1.N, (cfg1.win 3).flush t = true ∧ i ∈ ((cfg1.win 3).blk t).view.set := by
  have hi0 : (i 0).val < 1000000 := (i 0).isLt
  have hi1 : (i 1).val < 128 := (i 1).isLt
  refine ⟨pointOf (i 0), flush1_3 _, ?_⟩
  rw [mem_blk]
  obtain ⟨-, -, -, -, -, -, h0, h1⟩ := blockIndex (pointOf (i 0))
  have hp : (pointOf (i 0)).val = (i 0).val / 2000 := rfl
  intro a
  match a with
  | ⟨0, _⟩ =>
    show win1_3.index (pointOf (i 0)) (0 : Fin 2) * 2000 ≤ (i 0).val
      ∧ (i 0).val < win1_3.index (pointOf (i 0)) (0 : Fin 2) * 2000 + 2000
    rw [h0, hp]; omega
  | ⟨1, _⟩ =>
    show win1_3.index (pointOf (i 0)) (1 : Fin 2) * 128 ≤ (i 1).val
      ∧ (i 1).val < win1_3.index (pointOf (i 0)) (1 : Fin 2) * 128 + 128
    rw [h1]; omega

/-- So the result array ends holding `wholeOut`. -/
theorem final (c : Dev nD) : ((dat1 V c).arrAt 3 cfg1.N : S1000000x128.Idx → EReal) = wholeOut V c :=
  (dat1 V c).arrAt_eq_of_cover 3 (wholeOut V c) (fun t _ => flushed_eq V c t) covered

/-- The feature block at point `t` is rows `2000 t … 2000 t + 1999` of the feature array. -/
theorem featBlock (c : Dev nD) (t : Fin cfg1.N) (r : Fin 2000) (f : Fin 128) (h : 2000 * t.val + r.val < 1000000) :
    (iblk1 V c 0 t : S2000x128.Idx → EReal) (ix2 r f)
      = (V c main_arg0 : S1000000x128.Idx → EReal) (ix2 ⟨2000 * t.val + r.val, h⟩ f) := by
  obtain ⟨h0, h1, -⟩ := blockIndex t
  unfold iblk1
  rw [View.read_apply]
  show V c main_arg0 _ = V c main_arg0 _
  congr 1
  funext a
  apply Fin.ext
  match a with
  | ⟨0, _⟩ => show win1_0.index t (0 : Fin 2) * 2000 + 1 * r.val = 2000 * t.val + r.val; rw [h0]; omega
  | ⟨1, _⟩ => show win1_0.index t (1 : Fin 2) * 128 + 1 * f.val = f.val; rw [h1]; omega

/-- The id block at point `t` is rows `2000 t … 2000 t + 1999` of the id column. -/
theorem idBlock (c : Dev nD) (t : Fin cfg1.N) (r : Fin 2000) (h : 2000 * t.val + r.val < 1000000) :
    (iblk1 V c 1 t : S2000x1.Idx → BitVec 32) (ix2 r 0)
      = (V c main_v1 : S1000000x1.Idx → BitVec 32) (ix2 ⟨2000 * t.val + r.val, h⟩ 0) := by
  obtain ⟨-, -, h0, h1, -⟩ := blockIndex t
  unfold iblk1
  rw [View.read_apply]
  show V c main_v1 _ = V c main_v1 _
  congr 1
  funext a
  apply Fin.ext
  match a with
  | ⟨0, _⟩ => show win1_1.index t (0 : Fin 2) * 2000 + 1 * r.val = 2000 * t.val + r.val; rw [h0]; omega
  | ⟨1, _⟩ => show win1_1.index t (1 : Fin 2) * 1 + 1 * (0 : Fin 1).val = (0 : Fin 1).val; rw [h1]; omega

/-- The table's block at every point is the whole table: block (0, 0) of an array as large as the block. -/
theorem tableBlock (c : Dev nD) (t : Fin cfg1.N) :
    (iblk1 V c 2 t : S2048x256.Idx → EReal) = (V c main_v34 : S2048x256.Idx → EReal) := by
  obtain ⟨-, -, -, -, h0, h1, -⟩ := blockIndex t
  have hz : (fun a => win1_2.index t a * main_v34.ty.shape.size a) = fun _ => 0 := funext fun a => by
    match a with
    | ⟨0, _⟩ => show win1_2.index t (0 : Fin 2) * 2048 = 0; rw [h0]
    | ⟨1, _⟩ => show win1_2.index t (1 : Fin 2) * 256 = 0; rw [h1]
  unfold iblk1
  exact Memref.read_access_unit_zero (Elt Ideal) main_v34 hz (fun a => by rw [congrFun hz a]; simp) (V c main_v34)

/-- After the second pass the result array holds, at node `n` whose id names segment `b0`, `x * scale + shift` of row
    `b0` of the table. -/
theorem value (c : Dev nD) (n : Fin 1000000) (f : Fin 128) (b0 : Fin 2048)
    (xa : S1000000x128.Idx → EReal) (hxa : xa = V c main_arg0) (tb : S2048x256.Idx → EReal) (htb : tb = V c main_v34)
    (hg : (V c main_v1 : S1000000x1.Idx → BitVec 32) (ix2 n 0) = BitVec.ofNat 32 b0.val) :
    ((dat1 (F := Ideal) V c).arrAt 3 cfg1.N : S1000000x128.Idx → EReal) (ix2 n f)
      = xa (ix2 n f) * tb (ix2 b0 (lo f)) + tb (ix2 b0 (hi f)) := by
  subst hxa htb
  rw [final V c]
  unfold wholeOut
  show bodyAt V c (pointOf n) (ix2 (rowIn n) f) = _
  have hn : n.val < 1000000 := n.isLt
  -- row `n` is row `n % 2000` of block `n / 2000`
  have hrow : 2000 * (pointOf n).val + (rowIn n).val < 1000000 := by
    show 2000 * (n.val / 2000) + n.val % 2000 < 1000000; omega
  have hnn : (⟨2000 * (pointOf n).val + (rowIn n).val, hrow⟩ : Fin 1000000) = n :=
    Fin.ext (by show 2000 * (n.val / 2000) + n.val % 2000 = n.val; omega)
  -- so the id the body sees at that place is the node's own
  have hid : (iblk1 V c 1 (pointOf n) : S2000x1.Idx → BitVec 32) (ix2 (rowIn n) 0) = BitVec.ofNat 32 b0.val := by
    rw [idBlock V c (pointOf n) (rowIn n) hrow, hnn]; exact hg
  unfold bodyAt
  refine (out_apply (iblk1 V c 0 (pointOf n)) (iblk1 V c 1 (pointOf n)) (iblk1 V c 2 (pointOf n)) (rowIn n) f b0 hid).trans ?_
  rw [featBlock V c (pointOf n) (rowIn n) f hrow, hnn, tableBlock V c (pointOf n)]

end Cert.KernelIdeal.PassB

end
-- ==== Proof.HostTable.lean ====
import proofs.«423812_j249108103838_3_alg».proof.Proof.Gen.KernelIdeal.Frame
import proofs.«423812_j249108103838_3_alg».proof.Proof.Spec
import Idealize.ShloMosaic.Lib.StableHlo.Run
import Idealize.ShloMosaic.PureOps.Ideal.Laws
import Idealize.ShloMosaic.Lib.Pipeline.Value

noncomputable section

open scoped BigOperators

namespace Cert.KernelIdeal.HostTable

open Idealize.ShloMosaic Idealize.ShloMosaic.TcCoe Idealize.SL.Sem Idealize.ShloMosaic.ValueIdx
open Cert.KernelIdeal Cert.KernelIdeal.Gen GraphNorm
open Idealize.ShloMosaic.StableHlo

variable (W : Valuation τ sig (Elt Ideal))

/-! ## The operations of the stretch, each read at one index -/

section Reads
variable {α : Type}

/-- The two cores' [2, 2048, 256] accumulators added along the core axis: entry `(b, q)` is the sum of the two cores' entries. -/
theorem sumCores_acc (A : FVec Ideal S2x2048x256 .f32) (b : Fin 2048) (q : Fin 256) :
    Host.reduceAdd (F := Ideal) A (constant (F := Ideal) S_ .f32 0x00000000#32) reducesTo_S2x2048x256_S2048x256_d0 h_S_ (ix2 b q)
      = A (ix3 0 b q) + A (ix3 1 b q) := by
  have h : S2x2048x256.Reduces [0] S2048x256 := by decide
  have e : ∀ k : Fin 2, h.lift (ix2 b q) k = ix3 k b q := fun k => funext fun a => Fin.ext (by
    match a with | ⟨0, _⟩ => rfl | ⟨1, _⟩ => rfl | ⟨2, _⟩ => rfl)
  unfold Host.reduceAdd
  rw [Ideal.hostReduceAdd_def]
  refine (Ideal.hostReduceAdd_single reducesTo_S2x2048x256_S2048x256_d0 h A _ (ix2 b q)).trans ?_
  rw [constant_apply, Ideal.ofBits_zero_f32, zero_add]
  show ∑ k : Fin 2, A (h.lift (ix2 b q) k) = _
  rw [Fin.sum_univ_two, e 0, e 1]

/-- Likewise the two cores' [2, 1, 2048] counts: entry `(0, b)` is the sum of the two cores' counts of segment `b`. -/
theorem sumCores_cnt (C : FVec Ideal S2x1x2048 .f32) (b : Fin 2048) :
    Host.reduceAdd (F := Ideal) C (constant (F := Ideal) S_ .f32 0x00000000#32) reducesTo_S2x1x2048_S1x2048_d0 h_S_ (ix2 0 b)
      = C (ix3 0 0 b) + C (ix3 1 0 b) := by
  have h : S2x1x2048.Reduces [0] S1x2048 := by decide
  have e : ∀ k : Fin 2, h.lift (ix2 0 b) k = ix3 k 0 b := fun k => funext fun a => Fin.ext (by
    match a with | ⟨0, _⟩ => rfl | ⟨1, _⟩ => rfl | ⟨2, _⟩ => rfl)
  unfold Host.reduceAdd
  rw [Ideal.hostReduceAdd_def]
  refine (Ideal.hostReduceAdd_single reducesTo_S2x1x2048_S1x2048_d0 h C _ (ix2 0 b)).trans ?_
  rw [constant_apply, Ideal.ofBits_zero_f32, zero_add]
  show ∑ k : Fin 2, C (h.lift (ix2 0 b) k) = _
  rw [Fin.sum_univ_two, e 0, e 1]

/-- A [1, 2048] row laid out as a [2048, 1] column: entry `(b, 0)` is the row's entry `(0, b)`. -/
theorem rowAsCol_apply (y : S1x2048.Idx → α) (b : Fin 2048) :
    shapeCast S2048x1 y shapeCasts_S1x2048_S2048x1 (ix2 b 0) = y (ix2 0 b) := by
  refine shapeCast_apply y _ (ix2 b 0) (ix2 0 b) ?_
  rw [Shape.rowMajor_val_two, Shape.rowMajor_val_two]
  show 0 * 2048 + b.val = b.val * 1 + 0
  omega

/-- A [2048, 1] column repeated along 128 features: entry `(b, f)` is the column's entry `(b, 0)`. -/
theorem colBcast_apply (v : S2048x1.Idx → α) (b : Fin 2048) (f : Fin 128) :
    broadcastInDim S2048x128 ![0, 1] bcast_S2048x1_S2048x128_0_1 v (ix2 b f) = v (ix2 b 0) := by
  refine broadcastInDim_apply _ _ v (ix2 b f) (ix2 b 0) fun a => ?_
  match a with
  | ⟨0, _⟩ => show b.val = if (2048 : Nat) = 1 then 0 else b.val; rw [if_neg (by decide)]
  | ⟨1, _⟩ => show (0 : Nat) = if (1 : Nat) = 1 then 0 else f.val; rw [if_pos rfl]

/-- A [1, 128] row of parameters repeated down 2048 segments: entry `(b, f)` is the row's entry `(0, f)`. -/
theorem rowBcast_apply (v : S1x128.Idx → α) (b : Fin 2048) (f : Fin 128) :
    broadcastInDim S2048x128 ![0, 1] bcast_S1x128_S2048x128_0_1 v (ix2 b f) = v (ix2 0 f) := by
  refine broadcastInDim_apply _ _ v (ix2 b f) (ix2 0 f) fun a => ?_
  match a with
  | ⟨0, _⟩ => show (0 : Nat) = if (1 : Nat) = 1 then 0 else b.val; rw [if_pos rfl]
  | ⟨1, _⟩ => show f.val = if (128 : Nat) = 1 then 0 else f.val; rw [if_neg (by decide)]

/-- A scalar word spread over any shape reads, everywhere, the extended real the word encodes. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-- The left 128 columns of a 256-wide row: entry `(b, f)` is the entry at column `lo f`. -/
theorem leftHalf_apply (x : S2048x256.Idx → α) (b : Fin 2048) (f : Fin 128) :
    extractStridedSlice S2048x128 ![0, 0] x slices_S2048x256_S2048x128_0_0 (ix2 b f) = x (ix2 b (lo f)) := by
  refine extractStridedSlice_apply _ x _ (ix2 b f) (ix2 b (lo f)) fun a => ?_
  match a with
  | ⟨0, _⟩ => exact (Nat.zero_add _).symm
  | ⟨1, _⟩ => exact (Nat.zero_add _).symm

/-- The right 128 columns: entry `(b, f)` is the entry at column `hi f`. -/
theorem rightHalf_apply (x : S2048x256.Idx → α) (b : Fin 2048) (f : Fin 128) :
    extractStridedSlice S2048x128 ![0, 128] x slices_S2048x256_S2048x128_0_128 (ix2 b f) = x (ix2 b (hi f)) := by
  refine extractStridedSlice_apply _ x _ (ix2 b f) (ix2 b (hi f)) fun a => ?_
  match a with
  | ⟨0, _⟩ => exact (Nat.zero_add _).symm
  | ⟨1, _⟩ => rfl

/-- Two [2048, 128] halves set side by side: column `lo f` of the result is column `f` of the left half … -/
theorem sideBySide_lo (x y : S2048x128.Idx → α) (b : Fin 2048) (f : Fin 128) :
    concatenate S2048x256 1 [⟨S2048x128, x⟩, ⟨S2048x128, y⟩] concatenates_S2048x128_S2048x128_S2048x256_d1 (ix2 b (lo f))
      = x (ix2 b f) := by
  refine concatenate_pair_apply_left 1 x y _ (ix2 b (lo f)) rfl (ix2 b f) fun a => ?_
  match a with
  | ⟨0, _⟩ => rfl
  | ⟨1, _⟩ => rfl

/-- … and column `hi f` is column `f` of the right half. -/
theorem sideBySide_hi (x y : S2048x128.Idx → α) (b : Fin 2048) (f : Fin 128) :
    concatenate S2048x256 1 [⟨S2048x128, x⟩, ⟨S2048x128, y⟩] concatenates_S2048x128_S2048x128_S2048x256_d1 (ix2 b (hi f))
      = y (ix2 b f) := by
  refine concatenate_pair_apply_right 1 x y _ (ix2 b (hi f)) rfl rfl (ix2 b f) (fun a ha => ?_) ?_
  · match a with
    | ⟨0, _⟩ => rfl
    | ⟨1, _⟩ => exact absurd rfl ha
  · show f.val + 128 = 128 + f.val
    omega

end Reads

/-! ## The stretch in stages

The 38 operations, grouped as the mathematics groups them: the safe counts, the total sums, the two means, the factor
`2α − α²`, the clipped variance, the scale, the shift, and the table that sets the last two side by side. Each stage is
the operations' own term over the stage before; each is then read at one entry and found to be Spec's function of the
same name. -/

section Stages
variable (A : FVec Ideal S2x2048x256 .f32) (C : FVec Ideal S2x1x2048 .f32) (ga be al : FVec Ideal S1x128 .f32)

/-- The accumulators and the counts as functions of core, segment and column. -/
abbrev accOf : Fin 2 → Fin 2048 → Fin 256 → EReal := fun k b q => A (ix3 k b q)
abbrev cntOf : Fin 2 → Fin 2048 → EReal := fun k b => C (ix3 k 0 b)

/-- A host quotient and a host square root at an index are the extended reals' own. -/
theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl

/-- The segments' counts over both cores, laid as a column, raised to at least one. -/
def cntT : FVec Ideal S2048x1 .f32 :=
  maximumf
    (fun i => shapeCast S2048x1
      (Host.reduceAdd (F := Ideal) C (constant (F := Ideal) S_ .f32 0x00000000#32) reducesTo_S2x1x2048_S1x2048_d0 h_S_)
      shapeCasts_S1x2048_S2048x1 i)
    (broadcastInDim S2048x1 ![] bcast_S_S2048x1 (constant (F := Ideal) S_ .f32 0x3F800000#32))

theorem cntT_apply (b : Fin 2048) : cntT C (ix2 b 0) = cntSafe (cntOf C) b := by
  unfold cntT cntSafe
  rw [maximumf_apply, splat_apply]
  show max (shapeCast S2048x1 _ shapeCasts_S1x2048_S2048x1 (ix2 b 0)) _ = _
  rw [rowAsCol_apply, sumCores_cnt]
  rfl

/-- The two cores' accumulators added. -/
def totT : FVec Ideal S2048x256 .f32 :=
  Host.reduceAdd (F := Ideal) A (constant (F := Ideal) S_ .f32 0x00000000#32) reducesTo_S2x2048x256_S2048x256_d0 h_S_

theorem totT_apply (b : Fin 2048) (q : Fin 256) : totT A (ix2 b q) = accOf A 0 b q + accOf A 1 b q :=
  sumCores_acc A b q

/-- The segment means of x (left half of the sums over the safe count) and of x² (right half). -/
def meanT : FVec Ideal S2048x128 .f32 :=
  Host.divf (extractStridedSlice S2048x128 ![0, 0] (totT A) slices_S2048x256_S2048x128_0_0)
    (broadcastInDim S2048x128 ![0, 1] bcast_S2048x1_S2048x128_0_1 (cntT C))
def msqT : FVec Ideal S2048x128 .f32 :=
  Host.divf (extractStridedSlice S2048x128 ![0, 128] (totT A) slices_S2048x256_S2048x128_0_128)
    (broadcastInDim S2048x128 ![0, 1] bcast_S2048x1_S2048x128_0_1 (cntT C))

theorem meanT_apply (b : Fin 2048) (f : Fin 128) : meanT A C (ix2 b f) = meanK (accOf A) (cntOf C) b f := by
  unfold meanT meanK
  rw [hostDivf_apply, leftHalf_apply, colBcast_apply, cntT_apply, totT_apply]
theorem msqT_apply (b : Fin 2048) (f : Fin 128) : msqT A C (ix2 b f) = msqK (accOf A) (cntOf C) b f := by
  unfold msqT msqK
  rw [hostDivf_apply, rightHalf_apply, colBcast_apply, cntT_apply, totT_apply]

/-- The per-feature factor `2α − α²`. -/
def alFac : FVec Ideal S1x128 .f32 :=
  subf (mulf (broadcastInDim S1x128 ![] bcast_S_S1x128 (constant (F := Ideal) S_ .f32 0x40000000#32)) al) (mulf al al)

theorem alFac_apply (f : Fin 128) : alFac al (ix2 0 f) = twoE * al (ix2 0 f) - al (ix2 0 f) * al (ix2 0 f) := by
  unfold alFac
  rw [subf_apply, mulf_apply, mulf_apply, splat_apply]
  rfl

/-- The variance about the shifted mean, by the second-moment identity, clipped at zero. -/
def varT : FVec Ideal S2048x128 .f32 :=
  maximumf
    (subf (msqT A C)
      (mulf (mulf (meanT A C) (meanT A C)) (broadcastInDim S2048x128 ![0, 1] bcast_S1x128_S2048x128_0_1 (alFac al))))
    (broadcastInDim S2048x128 ![] bcast_S_S2048x128 (constant (F := Ideal) S_ .f32 0x00000000#32))

theorem varT_apply (b : Fin 2048) (f : Fin 128) : varT A C al (ix2 b f) = varK (accOf A) (cntOf C) al b f := by
  unfold varT varK
  rw [maximumf_apply, subf_apply, mulf_apply, mulf_apply, splat_apply, rowBcast_apply, msqT_apply, meanT_apply, alFac_apply,
    Ideal.ofBits_zero_f32]

/-- The scale `γ / sqrt(var + ε)` … -/
def scaleT : FVec Ideal S2048x128 .f32 :=
  Host.divf (broadcastInDim S2048x128 ![0, 1] bcast_S1x128_S2048x128_0_1 ga)
    (Host.sqrt (addf (varT A C al)
      (broadcastInDim S2048x128 ![] bcast_S_S2048x128 (constant (F := Ideal) S_ .f32 0x3A83126F#32))))

theorem scaleT_apply (b : Fin 2048) (f : Fin 128) : scaleT A C ga al (ix2 b f) = scaleK (accOf A) (cntOf C) ga al b f := by
  unfold scaleT scaleK
  rw [hostDivf_apply, hostSqrt_apply, addf_apply, rowBcast_apply, splat_apply, varT_apply]
  rfl

/-- … and the shift `β − α · mean · scale`. -/
def shiftT : FVec Ideal S2048x128 .f32 :=
  subf (broadcastInDim S2048x128 ![0, 1] bcast_S1x128_S2048x128_0_1 be)
    (mulf (mulf (meanT A C) (broadcastInDim S2048x128 ![0, 1] bcast_S1x128_S2048x128_0_1 al)) (scaleT A C ga al))

theorem shiftT_apply (b : Fin 2048) (f : Fin 128) :
    shiftT A C ga be al (ix2 b f) = shiftK (accOf A) (cntOf C) ga be al b f := by
  unfold shiftT shiftK
  rw [subf_apply, mulf_apply, mulf_apply, rowBcast_apply, rowBcast_apply, meanT_apply, scaleT_apply]

/-- The table: scales on the left, shifts on the right. -/
def tableT : FVec Ideal S2048x256 .f32 :=
  concatenate S2048x256 1 [⟨S2048x128, scaleT A C ga al⟩, ⟨S2048x128, shiftT A C ga be al⟩]
    concatenates_S2048x128_S2048x128_S2048x256_d1

end Stages

/-- What the stretch leaves in the table's buffer is that table of the buffers it started from. -/
theorem table_eq :
    (StableHlo.after (hostOps1 (F := Ideal)) W (Proc.devRef .tc main_v34) : S2048x256.Idx → EReal)
      = tableT (W (Proc.devRef .tc main_v2_0)) (W (Proc.devRef .tc main_v2_1)) (W (Proc.devRef .tc main_arg3))
          (W (Proc.devRef .tc main_arg4)) (W (Proc.devRef .tc main_arg5)) := by
  after_results_simp
  rfl

/-- The host stretch between the two passes turns the two accumulators into the table: its left half the scales … -/
theorem scale (b : Fin 2048) (f : Fin 128) :
    (StableHlo.after (hostOps1 (F := Ideal)) W (Proc.devRef .tc main_v34) : S2048x256.Idx → EReal) (ix2 b (lo f))
      = scaleK (fun k b q => (W (Proc.devRef .tc main_v2_0) : S2x2048x256.Idx → EReal) (ix3 k b q))
          (fun k b => (W (Proc.devRef .tc main_v2_1) : S2x1x2048.Idx → EReal) (ix3 k 0 b))
          (W (Proc.devRef .tc main_arg3)) (W (Proc.devRef .tc main_arg5)) b f := by
  refine (congrFun (table_eq W) (ix2 b (lo f))).trans ?_
  unfold tableT
  rw [sideBySide_lo, scaleT_apply]

/-- … its right half the shifts. -/
theorem shift (b : Fin 2048) (f : Fin 128) :
    (StableHlo.after (hostOps1 (F := Ideal)) W (Proc.devRef .tc main_v34) : S2048x256.Idx → EReal) (ix2 b (hi f))
      = shiftK (fun k b q => (W (Proc.devRef .tc main_v2_0) : S2x2048x256.Idx → EReal) (ix3 k b q))
          (fun k b => (W (Proc.devRef .tc main_v2_1) : S2x1x2048.Idx → EReal) (ix3 k 0 b))
          (W (Proc.devRef .tc main_arg3)) (W (Proc.devRef .tc main_arg4)) (W (Proc.devRef .tc main_arg5)) b f := by
  refine (congrFun (table_eq W) (ix2 b (hi f))).trans ?_
  unfold tableT
  rw [sideBySide_hi, shiftT_apply]

/-- The stretch writes neither the features nor the id column. -/
theorem keeps_arg0 : StableHlo.after (hostOps1 (F := Ideal)) W (Proc.devRef .tc main_arg0) = W (Proc.devRef .tc main_arg0) := by
  after_results_simp
theorem keeps_v1 : StableHlo.after (hostOps1 (F := Ideal)) W (Proc.devRef .tc main_v1) = W (Proc.devRef .tc main_v1) := by
  after_results_simp

end Cert.KernelIdeal.HostTable

end
-- ==== Proof.HostFold.lean ====
import proofs.«423812_j249108103838_3_alg».proof.Proof.Gen.KernelIdeal.Frame
import proofs.«423812_j249108103838_3_alg».proof.Proof.Spec
import Idealize.ShloMosaic.Lib.StableHlo.Run
import Idealize.ShloMosaic.Lib.StableHlo.Predicate
import Idealize.ShloMosaic.Lib.Pipeline.Value

noncomputable section

open scoped BigOperators

namespace Cert.KernelIdeal.HostFold

open Idealize.ShloMosaic Idealize.ShloMosaic.TcCoe Idealize.SL.Sem Idealize.ShloMosaic.ValueIdx
open Cert.KernelIdeal Cert.KernelIdeal.Gen GraphNorm
open Idealize.ShloMosaic.StableHlo

variable {F : FTy → Type} [FloatOps F]
variable (m : (ℓ : Loc nD τ sig) → Buf (Elt F) ℓ) (ρ : Dev nD → PrngReg)

/-! ## Which buffers the host operations before the first pass write -/

/-- Every buffer one of the nine host operations before the first pass writes: the two clip bounds, the clip's five
    intermediate values, the clipped ids and their column form. -/
def hostWritten : List (Ref sig .tc) :=
  [main_c, main_c_0, main_call0_v0, main_call0_v1, main_call0_v2, main_call0_v3, main_call0_v4, main_v0, main_v1]

/-- A single written buffer lies in the set of a list that names it. -/
theorem single_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- A buffer none of those operations writes enters the first pass as launched: each of the three stretches (the
    reshape, the clip, the two constants) writes only buffers of the list, so the fold leaves it alone. -/
theorem W3_of_not_written (c : Dev nD) (b : Ref sig .tc) (hb : b ∉ hostWritten) :
    W3 m ρ c (Proc.devRef .tc b) = m ((c : Thread nD τ).loc b) :=
  calc W3 m ρ c (Proc.devRef .tc b)
    _ = W2 m ρ c (Proc.devRef .tc b) :=
        StableHlo.after_of_writes_sub (W := hostWritten) hostOps0_2 _ (single_sub (by decide)) hb
    _ = W1 m ρ c (Proc.devRef .tc b) :=
        StableHlo.after_of_writes_sub (W := hostWritten) hostOps0_1 _
          ⟨single_sub (by decide), single_sub (by decide), single_sub (by decide), single_sub (by decide),
            single_sub (by decide), single_sub (by decide)⟩ hb
    _ = W0 m ρ c (Proc.devRef .tc b) :=
        StableHlo.after_of_writes_sub (W := hostWritten) hostOps0 _ ⟨single_sub (by decide), single_sub (by decide)⟩ hb
    _ = m ((c : Thread nD τ).loc b) := rfl

/-! ## The id column -/

/-- A word already in [0, 2047] is its own clip: read as signed numbers, 0 is not above it and it is not above 2047,
    so neither the maximum with 0 nor the minimum with 2047 moves it. -/
theorem clip_id (w : BitVec 32) (hw : w.toNat < 2048) : IntOp.minsi 2047#32 (IntOp.maxsi 0#32 w) = w := by
  have hti : w.toInt = w.toNat := Predicate.toInt_eq_toNat_of_lt (by omega)
  have h0 : (0#32 : BitVec 32).toInt = 0 := by decide
  have hh : (2047#32 : BitVec 32).toInt = 2047 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hh, decide_eq_true_eq]; omega

/-- Node `n` of the id vector and entry `(n, 0)` of its column form sit at the same row-major position. -/
theorem pos_col (n : Fin 1000000) :
    (S1000000.rowMajor (ix1 n)).val = (S1000000x1.rowMajor (ix2 n 0)).val := by
  rw [Shape.rowMajor_val_one, Shape.rowMajor_val_two]
  show n.val = n.val * 1 + 0
  omega

/-! ## What the two passes find on entry -/

/-- The first pass is entered with the features as launched … -/
theorem V3_arg0 (c : Dev nD) : V3 m ρ c main_arg0 = m ((c : Thread nD τ).loc main_arg0) := by
  exact W3_of_not_written m ρ c main_arg0 (by decide)

/-- … and with the id column holding each node's id clipped into [0, 2047]: the id itself when it is in range. -/
theorem V3_gid (c : Dev nD) (n : Fin 1000000)
    (h : ((m ((c : Thread nD τ).loc main_arg1) : S1000000.Idx → BitVec 32) (ix1 n)).toNat < 2048) :
    (V3 m ρ c main_v1 : S1000000x1.Idx → BitVec 32) (ix2 n 0)
      = (m ((c : Thread nD τ).loc main_arg1) : S1000000.Idx → BitVec 32) (ix1 n) := by
  -- the column is the reshape of: min (2047 everywhere) (max (0 everywhere) ids), the ids as launched
  show (W3 m ρ c (Proc.devRef .tc main_v1) : S1000000x1.Idx → BitVec 32) (ix2 n 0) = _
  unfold W3 W2 W1
  simp only [hostOps0, hostOps0_1, hostOps0_2]
  after_results
  show (shapeCast S1000000x1
      (minsi (broadcastInDim S1000000 ![] bcast_S_S1000000 (constantI S_ 32 2047#32))
        (maxsi (broadcastInDim S1000000 ![] bcast_S_S1000000 (constantI S_ 32 0#32))
          (m ((c : Thread nD τ).loc main_arg1) : S1000000.Idx → BitVec 32)))
      shapeCasts_S1000000_S1000000x1) (ix2 n 0) = _
  -- entry (n, 0) of the column is entry n of the vector, and there the clip of an in-range word is the word
  rw [shapeCast_apply _ _ (ix2 n 0) (ix1 n) (pos_col n)]
  exact clip_id _ h

/-- The first pass writes only its two accumulators: the other buffers leave it as they entered. -/
theorem W4_arg0 (c : Dev nD) : W4 m ρ c (Proc.devRef .tc main_arg0) = m ((c : Thread nD τ).loc main_arg0) := by
  -- the features are the pass's first input window: its array leaves as it entered
  exact ((W4_arr m ρ c 0).trans (((dat0 (V3 m ρ) c).arrAt_in 0 rfl _).trans (A_eq0 (V3 m ρ) c 0))).trans
    (V3_arg0 m ρ c)
theorem W4_arg3 (c : Dev nD) : W4 m ρ c (Proc.devRef .tc main_arg3) = m ((c : Thread nD τ).loc main_arg3) := by
  exact (W4_of_ne m ρ c main_arg3 (by decide)).trans (W3_of_not_written m ρ c main_arg3 (by decide))
theorem W4_arg4 (c : Dev nD) : W4 m ρ c (Proc.devRef .tc main_arg4) = m ((c : Thread nD τ).loc main_arg4) := by
  exact (W4_of_ne m ρ c main_arg4 (by decide)).trans (W3_of_not_written m ρ c main_arg4 (by decide))
theorem W4_arg5 (c : Dev nD) : W4 m ρ c (Proc.devRef .tc main_arg5) = m ((c : Thread nD τ).loc main_arg5) := by
  exact (W4_of_ne m ρ c main_arg5 (by decide)).trans (W3_of_not_written m ρ c main_arg5 (by decide))
theorem W4_v1 (c : Dev nD) : W4 m ρ c (Proc.devRef .tc main_v1) = V3 m ρ c main_v1 := by
  -- the id column is the pass's second input window
  exact (W4_arr m ρ c 1).trans (((dat0 (V3 m ρ) c).arrAt_in 1 rfl _).trans (A_eq0 (V3 m ρ) c 1))

end Cert.KernelIdeal.HostFold

end
-- ==== Proof.KernelValue.lean ====
import proofs.«423812_j249108103838_3_alg».proof.Proof.Gen.KernelIdeal.Frame
import proofs.«423812_j249108103838_3_alg».proof.Proof.Spec
import proofs.«423812_j249108103838_3_alg».proof.Proof.KRun
import proofs.«423812_j249108103838_3_alg».proof.Proof.PassA
import proofs.«423812_j249108103838_3_alg».proof.Proof.PassB
import proofs.«423812_j249108103838_3_alg».proof.Proof.HostTable
import proofs.«423812_j249108103838_3_alg».proof.Proof.HostFold

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen GraphNorm

variable (m : (ℓ : Loc nD τ sig) → Buf (Elt Ideal) ℓ) (ρ : Dev nD → PrngReg)

/-- The launch arrays, at their literal types. -/
abbrev xs (c : Dev nD) : S1000000x128.Idx → EReal := m ((c : Thread nD τ).loc main_arg0)
abbrev ids (c : Dev nD) : Fin 1000000 → BitVec 32 := fun e => (m ((c : Thread nD τ).loc main_arg1) : S1000000.Idx → BitVec 32) (ix1 e)
abbrev gam (c : Dev nD) : S1x128.Idx → EReal := m ((c : Thread nD τ).loc main_arg3)
abbrev bet (c : Dev nD) : S1x128.Idx → EReal := m ((c : Thread nD τ).loc main_arg4)
abbrev alp (c : Dev nD) : S1x128.Idx → EReal := m ((c : Thread nD τ).loc main_arg5)

/-- A 32-bit word is the word of its own value. -/
theorem word_eq (w : BitVec 32) : BitVec.ofNat 32 w.toNat = w := by simp

/-- The kernel's result array, read at node `n` and feature `f`, when every id is a segment number below 2048. -/
theorem result_apply (c : Dev nD) (hr : ∀ n : Fin 1000000, (ids m c n).toNat < 2048) (n : Fin 1000000) (f : Fin 128) :
    (W6 m ρ c (Proc.devRef .tc main_v35) : S1000000x128.Idx → EReal) (ix2 n f)
      = kerOut (xs m c) (ids m c) (gam m c) (bet m c) (alp m c) n f ⟨(ids m c n).toNat, hr n⟩ := by
  have hV5v1 : V5 m ρ c main_v1 = V3 m ρ c main_v1 :=
    (Cert.KernelIdeal.HostTable.keeps_v1 (W4 m ρ c)).trans (Cert.KernelIdeal.HostFold.W4_v1 m ρ c)
  have hV5x : V5 m ρ c main_arg0 = xs m c :=
    (Cert.KernelIdeal.HostTable.keeps_arg0 (W4 m ρ c)).trans (Cert.KernelIdeal.HostFold.W4_arg0 m ρ c)
  have hgid : (V5 m ρ c main_v1 : S1000000x1.Idx → BitVec 32) (ix2 n 0) = BitVec.ofNat 32 (ids m c n).toNat := by
    rw [hV5v1, Cert.KernelIdeal.HostFold.V3_gid m ρ c n (hr n)]
    exact (word_eq _).symm
  -- the ids the first pass sees are the launch ids, the features the launch features
  have hids : (fun e : Fin 1000000 => (V3 m ρ c main_v1 : S1000000x1.Idx → BitVec 32) (ix2 e 0)) = ids m c :=
    funext fun e => Cert.KernelIdeal.HostFold.V3_gid m ρ c e (hr e)
  have hxs : (V3 m ρ c main_arg0 : S1000000x128.Idx → EReal) = xs m c := Cert.KernelIdeal.HostFold.V3_arg0 m ρ c
  -- the two accumulators after the first pass
  have hacc : (fun (k : Fin 2) (b : Fin 2048) (q : Fin 256) =>
      (W4 m ρ c (Proc.devRef .tc main_v2_0) : S2x2048x256.Idx → EReal) (ix3 k b q)) = partSum (xs m c) (ids m c) := by
    funext k b q
    have h := Cert.KernelIdeal.PassA.sums (V3 m ρ) c k b q
    rw [hids, hxs] at h
    exact (congrFun (W4_arr m ρ c 2) (ix3 k b q)).trans h
  have hcacc : (fun (k : Fin 2) (b : Fin 2048) =>
      (W4 m ρ c (Proc.devRef .tc main_v2_1) : S2x1x2048.Idx → EReal) (ix3 k 0 b)) = partCnt (ids m c) := by
    funext k b
    have h := Cert.KernelIdeal.PassA.counts (V3 m ρ) c k b
    rw [hids] at h
    exact (congrFun (W4_arr m ρ c 3) (ix3 k 0 b)).trans h
  -- the table rows
  have hsc := Cert.KernelIdeal.HostTable.scale (W4 m ρ c) ⟨(ids m c n).toNat, hr n⟩ f
  have hsh := Cert.KernelIdeal.HostTable.shift (W4 m ρ c) ⟨(ids m c n).toNat, hr n⟩ f
  rw [hacc, hcacc, Cert.KernelIdeal.HostFold.W4_arg3 m ρ c, Cert.KernelIdeal.HostFold.W4_arg5 m ρ c] at hsc
  rw [hacc, hcacc, Cert.KernelIdeal.HostFold.W4_arg3 m ρ c, Cert.KernelIdeal.HostFold.W4_arg4 m ρ c,
    Cert.KernelIdeal.HostFold.W4_arg5 m ρ c] at hsh
  -- the second pass
  have hB := Cert.KernelIdeal.PassB.value (V5 m ρ) c n f ⟨(ids m c n).toNat, hr n⟩ (xs m c) hV5x.symm
    (V5 m ρ c main_v34) rfl hgid
  refine (congrFun (W6_arr m ρ c 3) (ix2 n f)).trans (hB.trans ?_)
  unfold kerOut
  rw [← hsc, ← hsh]

end Cert.KernelIdeal.KernelValue

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.RefValue.lean ====
import proofs.«423812_j249108103838_3_alg».proof.Proof.Gen.ReferenceIdeal.Run
import proofs.«423812_j249108103838_3_alg».proof.Proof.Gen.ReferenceIdeal.Read
import proofs.«423812_j249108103838_3_alg».proof.Proof.LibRowOps
import proofs.«423812_j249108103838_3_alg».proof.Proof.Spec
import Idealize.ShloMosaic.PureOps.Ideal.Laws
import Idealize.ShloMosaic.Lib.StableHlo.Predicate
import Idealize.ShloMosaic.Lib.ValueIdxRank1

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen GraphNorm

/-! ## Id words below 2048 -/

/-- An id word below 2048, read signed, is its own number. -/
theorem toInt_of_lt (w : BitVec 32) (h : w.toNat < 2048) : w.toInt = (w.toNat : Int) := by
  rw [BitVec.toInt_eq_toNat_cond, if_pos (by omega)]

/-- Such a word, read signed, is `b` exactly when it is the word of `b`. -/
theorem toInt_eq_iff (w : BitVec 32) (h : w.toNat < 2048) (b : Nat) (hb : b < 2048) :
    w.toInt = (b : Int) ↔ w = BitVec.ofNat 32 b := by
  rw [toInt_of_lt w h]
  constructor
  · intro hh
    apply BitVec.eq_of_toNat_eq
    rw [BitVec.toNat_ofNat, Nat.mod_eq_of_lt (by omega)]
    omega
  · intro hh
    rw [hh, BitVec.toNat_ofNat, Nat.mod_eq_of_lt (by omega)]

/-- The wrap of a negative index (`w < 0 ? w + 2048 : w`) leaves such a word as it is: it is not negative. -/
theorem wrap_id (w : BitVec 32) (h : w.toNat < 2048) :
    Scalar.select (IntOp.cmpi .slt w 0#32) (IntOp.addi w 2048#32) w = w := by
  have h0 : IntOp.cmpi .slt w 0#32 = 0#1 := by
    unfold IntOp.cmpi
    show BitVec.ofBool (decide (w.toInt < (0#32 : BitVec 32).toInt)) = 0#1
    rw [decide_eq_false (by rw [toInt_of_lt w h]; simp)]
    rfl
  rw [h0]
  exact select_zero _ _

/-- The row such a word names among 2048 rows is its own number: the clamp does nothing. -/
theorem clampRow_id (hN : 0 < 2048) (w : BitVec 32) (h : w.toNat < 2048) :
    RowOps.clampRow 2048 hN w = ⟨w.toNat, h⟩ := by
  unfold RowOps.clampRow
  refine Fin.ext ?_
  show min w.toInt.toNat (2048 - 1) = w.toNat
  rw [toInt_of_lt w h]; omega

/-! ## The scatter-add of a vector

  Updates `u : [E]` scattered at a column `idx : [E, 1]` of positions into `x : [N]`: position `r` receives every
  update whose index, read signed and unclamped, is `r`. -/

section Scatter1

/-- The dimension numbers of `x.at[idx].add(u)` on a vector: operand `[N]`, scatter indices `[E, 1]`, updates `[E]`. -/
abbrev scatterDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- Update `e` starts at the position its index names, read signed and not clamped … -/
theorem start1 : (scatterDims1 N E wf).start (ix1 e) idx 0 = (idx (ix2 e 0)).toInt := by
  unfold ScatterDims.start
  rw [dif_pos (show (0 : Fin 1) ∈ (scatterDims1 N E wf).scatterDimsToOperandDims from List.mem_singleton.mpr rfl)]
  have hsi : (scatterDims1 N E wf).siIdx (ix1 e) ⟨List.idxOf (0 : Fin 1) (scatterDims1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window: the one operand axis is inserted. -/
theorem window1 : (scatterDims1 N E wf).window (ix1 e) 0 = 0 := by
  unfold ScatterDims.window
  rw [dif_neg (show (0 : Fin 1) ∉ (scatterDims1 N E wf).sKept from by
    show (0 : Fin 1) ∉ (List.finRange 1).filter (fun a => a ∉ [(0 : Fin 1)]); decide)]

/-- Update `e` lands on position `r` exactly when its index, read signed, is `r`. -/
theorem resultIdx1?_eq_some_iff (r : Fin N) :
    (scatterDims1 N E wf).resultIdx? (ix1 e) idx = some (ix1 r) ↔ (idx (ix2 e 0)).toInt = (r.val : Int) := by
  unfold ScatterDims.resultIdx?
  have hr := r.isLt
  split
  · rename_i h
    rw [Option.some.injEq]
    constructor
    · intro hf
      have h0 := congrArg (fun f : (⟨1, ![N]⟩ : Shape).Idx => (f 0).val) hf
      simp only [start1, window1] at h0
      have hh := (h 0).1
      simp only [start1, window1] at hh
      have : ((idx (ix2 e 0)).toInt + ((0 : Nat) : Int)).toNat = r.val := h0
      omega
    · intro hs
      funext a
      refine Fin.ext ?_
      match a with
      | ⟨0, _⟩ =>
        show ((scatterDims1 N E wf).start (ix1 e) idx 0 + ((scatterDims1 N E wf).window (ix1 e) 0 : Nat)).toNat = r.val
        rw [start1, window1, hs]; omega
  · rename_i h
    constructor
    · intro hf; exact absurd hf (by simp)
    · intro hs
      refine absurd (fun a => ?_) h
      match a with
      | ⟨0, _⟩ =>
        show 0 ≤ (scatterDims1 N E wf).start (ix1 e) idx 0 + ((scatterDims1 N E wf).window (ix1 e) 0 : Nat)
          ∧ (scatterDims1 N E wf).start (ix1 e) idx 0 + ((scatterDims1 N E wf).window (ix1 e) 0 : Nat) < (N : Int)
        rw [start1, window1, hs]; omega

/-- Entry `r` of the scatter-add over the extended reals: the operand's entry plus the sum of the updates whose index
    is `r`. -/
theorem scatterAdd1_apply {φ : FTy} (x : FVec Ideal ⟨1, ![N]⟩ φ) (upd : FVec Ideal ⟨1, ![E]⟩ φ) (r : Fin N) :
    Host.scatterAdd (F := Ideal) (scatterDims1 N E wf) x idx upd (ix1 r)
      = x (ix1 r) + ∑ e ∈ Finset.univ.filter (fun e : Fin E => (idx (ix2 e 0)).toInt = (r.val : Int)), upd (ix1 e) := by
  unfold Host.scatterAdd
  rw [Ideal.hostScatterAdd_def]
  unfold Ideal.hostScatterAdd
  congr 1
  rw [Finset.sum_filter, ← Equiv.sum_comp (idxEquiv1 (n := E)).symm, Finset.sum_filter]
  refine Finset.sum_congr rfl fun e _ => ?_
  show (if (scatterDims1 N E wf).resultIdx? (ix1 e) idx = some (ix1 r) then upd (ix1 e) else 0) = _
  simp only [resultIdx1?_eq_some_iff]

end Scatter1

/-! ## The reference's stages, read at an index -/

section Stages

open Cert.ReferenceIdeal.Read

variable (x0 : (⟨S1000000x128, .f32⟩ : BufTy).Contents (Elt Ideal)) (x1 : (⟨S1000000, .i32⟩ : BufTy).Contents (Elt Ideal))
  (x3 x4 x5 : (⟨S1x128, .f32⟩ : BufTy).Contents (Elt Ideal))

/-- The id column the three scatters index with is the id vector. -/
theorem idcol2 (e : Fin 1000000) : (val_main_v2 (F := Ideal) x1 : S1000000x1.Idx → BitVec 32) (ix2 e 0) = x1 (ix1 e) := by
  rw [val_main_v2_apply]
  congr 1
  funext a; match a with | ⟨0, _⟩ => rfl
theorem idcol6 (e : Fin 1000000) : (val_main_v6 (F := Ideal) x1 : S1000000x1.Idx → BitVec 32) (ix2 e 0) = x1 (ix1 e) := by
  rw [val_main_v6_apply]
  congr 1
  funext a; match a with | ⟨0, _⟩ => rfl
theorem idcol22 (e : Fin 1000000) : (val_main_v22 (F := Ideal) x1 : S1000000x1.Idx → BitVec 32) (ix2 e 0) = x1 (ix1 e) := by
  rw [val_main_v22_apply]
  congr 1
  funext a; match a with | ⟨0, _⟩ => rfl

/-- The id column the two gathers index with (negative ids wrapped) is the id vector too, at an id below 2048. -/
theorem idcol17 (e : Fin 1000000) (h : ((x1 : S1000000.Idx → BitVec 32) (ix1 e)).toNat < 2048) :
    (val_main_v17 (F := Ideal) x1 : S1000000x1.Idx → BitVec 32) (ix2 e 0) = x1 (ix1 e) := by
  have hi : idx_main_v17 (ix2 e 0) = ix1 e := by funext a; match a with | ⟨0, _⟩ => rfl
  rw [val_main_v17_apply, hi, val_main_v16_apply, val_main_v13_apply, val_main_v15_apply, val_main_v12_apply,
    val_main_c_apply, val_main_v14_apply, val_main_c_2_apply]
  exact wrap_id _ h
theorem idcol34 (e : Fin 1000000) (h : ((x1 : S1000000.Idx → BitVec 32) (ix1 e)).toNat < 2048) :
    (val_main_v34 (F := Ideal) x1 : S1000000x1.Idx → BitVec 32) (ix2 e 0) = x1 (ix1 e) := by
  have hi : idx_main_v34 (ix2 e 0) = ix1 e := by funext a; match a with | ⟨0, _⟩ => rfl
  rw [val_main_v34_apply, hi, val_main_v33_apply, val_main_v30_apply, val_main_v32_apply, val_main_v29_apply,
    val_main_c_5_apply, val_main_v31_apply, val_main_c_6_apply]
  exact wrap_id _ h

variable (hr : ∀ n : Fin 1000000, ((x1 : S1000000.Idx → BitVec 32) (ix1 n)).toNat < 2048)
include hr

/-- The segment's count: ones scattered at the ids into zeros. -/
theorem count_apply (b : Fin 2048) :
    (val_main_v3 (F := Ideal) x1 : S2048.Idx → EReal) (ix1 b)
      = cntR (fun e => (x1 : S1000000.Idx → BitVec 32) (ix1 e)) b.val := by
  unfold val_main_v3
  have hd : scatter_S2048_S1000000x1_S1000000_n_0_0_1
      = scatterDims1 2048 1000000 Facts₀.scatter_S2048_S1000000x1_S1000000_n_0_0_1_wf := rfl
  rw [hd, scatterAdd1_apply, val_main_v1_apply, val_main_cst_0_apply, Ideal.ofBits_def, Ideal.ofBits_zero_f32, zero_add]
  unfold cntR seg
  refine Finset.sum_congr ?_ fun e _ => ?_
  · ext e
    simp only [Finset.mem_filter, Finset.mem_univ, true_and]
    rw [idcol2]
    exact toInt_eq_iff _ (hr e) b.val b.isLt
  · rw [val_main_v0_apply, val_main_cst_apply, Ideal.ofBits_def]
    rfl

/-- The count broadcast along the features. -/
theorem count8_apply (b : Fin 2048) (f : Fin 128) :
    (val_main_v8 (F := Ideal) x1 : S2048x128.Idx → EReal) (ix2 b f)
      = cntR (fun e => (x1 : S1000000.Idx → BitVec 32) (ix1 e)) b.val := by
  have h8 : idx_main_v8 (ix2 b f) = ix2 b 0 := by funext a; match a with | ⟨0, _⟩ => rfl | ⟨1, _⟩ => rfl
  have h4 : idx_main_v4 (ix2 b (0 : Fin 1)) = ix1 b := by funext a; match a with | ⟨0, _⟩ => rfl
  rw [val_main_v8_apply, h8, val_main_v4_apply, h4, count_apply x1 hr]
theorem count24_apply (b : Fin 2048) (f : Fin 128) :
    (val_main_v24 (F := Ideal) x1 : S2048x128.Idx → EReal) (ix2 b f)
      = cntR (fun e => (x1 : S1000000.Idx → BitVec 32) (ix1 e)) b.val := by
  have h24 : idx_main_v24 (ix2 b f) = ix2 b 0 := by funext a; match a with | ⟨0, _⟩ => rfl | ⟨1, _⟩ => rfl
  have h4 : idx_main_v4 (ix2 b (0 : Fin 1)) = ix1 b := by funext a; match a with | ⟨0, _⟩ => rfl
  rw [val_main_v24_apply, h24, val_main_v4_apply, h4, count_apply x1 hr]

/-- The segment's sum of a feature: the rows scattered at the ids into zeros. -/
theorem sum_apply (b : Fin 2048) (f : Fin 128) :
    (val_main_v7 (F := Ideal) x0 x1 : S2048x128.Idx → EReal) (ix2 b f)
      = sumR x0 (fun e => (x1 : S1000000.Idx → BitVec 32) (ix1 e)) b.val f := by
  unfold val_main_v7
  have hd : scatter_S2048x128_S1000000x1_S1000000x128_1_0_0_1
      = RowOps.scatterDims 2048 1000000 128 Facts₀.scatter_S2048x128_S1000000x1_S1000000x128_1_0_0_1_wf := rfl
  rw [hd, RowOps.scatterAdd_apply, val_main_v5_apply, val_main_cst_1_apply, Ideal.ofBits_def, Ideal.ofBits_zero_f32, zero_add]
  unfold sumR seg
  refine Finset.sum_congr ?_ fun e _ => rfl
  ext e
  simp only [Finset.mem_filter, Finset.mem_univ, true_and]
  rw [idcol6]
  exact toInt_eq_iff _ (hr e) b.val b.isLt

/-- The shifted mean of segment `b`: sum over count, times alpha. -/
theorem mean_apply (b : Fin 2048) (f : Fin 128) :
    (val_main_v11 (F := Ideal) x0 x1 x5 : S2048x128.Idx → EReal) (ix2 b f)
      = meanAR x0 (fun e => (x1 : S1000000.Idx → BitVec 32) (ix1 e)) x5 b.val f := by
  have h10 : idx_main_v10 (ix2 b f) = ix2 0 f := by funext a; match a with | ⟨0, _⟩ => rfl | ⟨1, _⟩ => rfl
  rw [val_main_v11_apply, val_main_v9_apply, val_main_v10_apply, h10, sum_apply x0 x1 hr, count8_apply x1 hr,
    Ideal.mulf_def, Ideal.hostDivf_def]
  rfl

/-- A node's deviation from its own segment's shifted mean. -/
theorem diff_apply (n : Fin 1000000) (f : Fin 128) :
    (val_main_v19 (F := Ideal) x0 x1 x5 : S1000000x128.Idx → EReal) (ix2 n f)
      = diffR x0 (fun e => (x1 : S1000000.Idx → BitVec 32) (ix1 e)) x5 n f := by
  have hd : gather_S2048x128_S1000000x1_S1000000x128_1_0_n_n_0_1_1128
      = RowOps.gatherDims 2048 1000000 128 Facts₀.gather_S2048x128_S1000000x1_S1000000x128_1_0_n_n_0_1_1128_wf := rfl
  rw [val_main_v19_apply, Ideal.subf_def]
  unfold val_main_v18
  rw [hd, RowOps.gather_apply (by decide : 0 < 2048), idcol17 x1 n (hr n), clampRow_id _ _ (hr n), mean_apply x0 x1 x5 hr]
  rfl

/-- The segment's sum of squared deviations. -/
theorem ssq_apply (b : Fin 2048) (f : Fin 128) :
    (val_main_v23 (F := Ideal) x0 x1 x5 : S2048x128.Idx → EReal) (ix2 b f)
      = ssqR x0 (fun e => (x1 : S1000000.Idx → BitVec 32) (ix1 e)) x5 b.val f := by
  unfold val_main_v23
  have hd : scatter_S2048x128_S1000000x1_S1000000x128_1_0_0_1
      = RowOps.scatterDims 2048 1000000 128 Facts₀.scatter_S2048x128_S1000000x1_S1000000x128_1_0_0_1_wf := rfl
  rw [hd, RowOps.scatterAdd_apply, val_main_v21_apply, val_main_cst_3_apply, Ideal.ofBits_def, Ideal.ofBits_zero_f32, zero_add]
  unfold ssqR seg
  refine Finset.sum_congr ?_ fun e _ => ?_
  · ext e
    simp only [Finset.mem_filter, Finset.mem_univ, true_and]
    rw [idcol22]
    exact toInt_eq_iff _ (hr e) b.val b.isLt
  · rw [val_main_v20_apply, Ideal.mulf_def, diff_apply x0 x1 x5 hr]

/-- The segment's deviation: the root of the mean squared deviation plus eps. -/
theorem sd_apply (b : Fin 2048) (f : Fin 128) :
    (val_main_v28 (F := Ideal) x0 x1 x5 : S2048x128.Idx → EReal) (ix2 b f)
      = sdR x0 (fun e => (x1 : S1000000.Idx → BitVec 32) (ix1 e)) x5 b.val f := by
  rw [val_main_v28_apply, val_main_v27_apply, val_main_v25_apply, val_main_v26_apply, val_main_cst_4_apply,
    ssq_apply x0 x1 x5 hr, count24_apply x1 hr, Ideal.hostUnary_sqrt_def, Ideal.addf_def, Ideal.hostDivf_def, Ideal.ofBits_def]
  rfl

end Stages

/-- The reference's result, read at node `n` and feature `f`, when every id is a segment number below 2048: the node's
    deviation from its segment's shifted mean over the segment's deviation about it, times gamma, plus beta. -/
theorem result_apply (x0 : (⟨S1000000x128, .f32⟩ : BufTy).Contents (Elt Ideal)) (x1 : (⟨S1000000, .i32⟩ : BufTy).Contents (Elt Ideal))
    (x3 x4 x5 : (⟨S1x128, .f32⟩ : BufTy).Contents (Elt Ideal))
    (hr : ∀ n : Fin 1000000, ((x1 : S1000000.Idx → BitVec 32) (ix1 n)).toNat < 2048) (n : Fin 1000000) (f : Fin 128) :
    (Cert.ReferenceIdeal.Read.val_main_v40 (F := Ideal) x0 x1 x3 x4 x5 : S1000000x128.Idx → EReal) (ix2 n f)
      = refOut x0 (fun e => (x1 : S1000000.Idx → BitVec 32) (ix1 e)) x3 x4 x5 n f := by
  have hd : gather_S2048x128_S1000000x1_S1000000x128_1_0_n_n_0_1_1128
      = RowOps.gatherDims 2048 1000000 128 Facts₀.gather_S2048x128_S1000000x1_S1000000x128_1_0_n_n_0_1_1128_wf := rfl
  have h37 : Read.idx_main_v37 (ix2 n f) = ix2 0 f := by funext a; match a with | ⟨0, _⟩ => rfl | ⟨1, _⟩ => rfl
  have h39 : Read.idx_main_v39 (ix2 n f) = ix2 0 f := by funext a; match a with | ⟨0, _⟩ => rfl | ⟨1, _⟩ => rfl
  rw [Read.val_main_v40_apply, Read.val_main_v38_apply, Read.val_main_v36_apply, Read.val_main_v37_apply, Read.val_main_v39_apply,
    h37, h39, diff_apply x0 x1 x5 hr, Ideal.addf_def, Ideal.mulf_def, Ideal.hostDivf_def]
  unfold Read.val_main_v35
  rw [hd, RowOps.gather_apply (by decide : 0 < 2048), idcol34 x1 n (hr n), clampRow_id _ _ (hr n), sd_apply x0 x1 x5 hr]
  rfl

end Cert.ReferenceIdeal.RefValue

end
-- ==== Proof.PreDecode.lean ====
import proofs.«423812_j249108103838_3_alg».proof.Pre_finite_inputs
import proofs.«423812_j249108103838_3_alg».proof.Proof.Gen.Pre_finite_inputs
import Idealize.ShloMosaic.PureOps.Ideal.Laws
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx

/-- The scalar shape has one index: its index type has no coordinate to differ in. -/
instance subsingletonScalarIdx : Subsingleton Cert.Pre_finite_inputs.S_.Idx :=
  ⟨fun a b => funext fun d => d.elim0⟩

/-- The word 0x7F800000 read as an f32 pattern is +∞: exponent all ones, fraction zero, sign clear. -/
theorem posInf_bits : Ideal.ofBits .f32 0x7F800000#32 = (⊤ : EReal) := by
  simp [Ideal.ofBits, Ideal.ieee]

/-- An extended real whose absolute value max x (-x) compares strictly below +∞ is a real number: -∞ has absolute
    value +∞, and so has +∞. -/
theorem real_of_abs_lt_posInf (x : EReal)
    (h : Ideal.cmp .olt (max x (-x)) (Ideal.ofBits .f32 0x7F800000#32) = 1#1) : ∃ r : ℝ, x = (r : EReal) := by
  rw [posInf_bits] at h
  simp only [Ideal.cmp, StableHlo.Predicate.ofBool_eq_one_iff, decide_eq_true_eq] at h
  induction x using EReal.rec with
  | bot => simp at h
  | coe r => exact ⟨r, rfl⟩
  | top => simp at h

/-- A 32-bit word that is at least 0 and below 2048 as a SIGNED number has an unsigned value below 2048: the first
    comparison clears the sign bit, so the signed and the unsigned readings agree, and the second bounds the value. -/
theorem toNat_lt_of_signed_range (w : BitVec 32) (h0 : IntOp.cmpi .sge w 0#32 = 1#1)
    (h1 : IntOp.cmpi .slt w 2048#32 = 1#1) : w.toNat < 2048 := by
  have hw : w.toNat < 2 ^ 31 := by
    unfold IntOp.cmpi at h0
    rw [StableHlo.Predicate.ofBool_eq_one_iff] at h0
    simp only [BitVec.sle, decide_eq_true_eq, BitVec.toInt_eq_toNat_cond] at h0
    have h32 := w.isLt
    simp at h0
    omega
  have h2 := (StableHlo.Predicate.slt_iff_toNat hw (by decide)).1 h1
  simpa using h2

/-- What the precondition says of the inputs: every feature and every parameter is a real number, and every id is a
    segment number below 2048. -/
theorem decode [Cert.Pre_finite_inputs.Facts]
    (a0 : FVec Ideal Cert.Pre_finite_inputs.S1000000x128 .f32) (a1 : IVec Cert.Pre_finite_inputs.S1000000 32)
    (a2 : IVec Cert.Pre_finite_inputs.S2048 32) (a3 a4 a5 : FVec Ideal Cert.Pre_finite_inputs.S1x128 .f32)
    (h : Cert.Pre_finite_inputs.fn (F := Ideal) a0 a1 a2 a3 a4 a5 = fun _ => 1#1) :
    (∀ (n : Fin 1000000) (f : Fin 128), ∃ r : ℝ, a0 (ix2 n f) = (r : EReal))
    ∧ (∀ f : Fin 128, ∃ r : ℝ, a3 (ix2 0 f) = (r : EReal))
    ∧ (∀ f : Fin 128, ∃ r : ℝ, a4 (ix2 0 f) = (r : EReal))
    ∧ (∀ f : Fin 128, ∃ r : ℝ, a5 (ix2 0 f) = (r : EReal))
    ∧ (∀ n : Fin 1000000, (a1 (ix1 n)).toNat < 2048) := by
  -- the printed predicate at its one index: a conjunction (by and) of six reductions by and
  have h0 := congrFun h ValueIdx.ix0
  dsimp only [Cert.Pre_finite_inputs.fn, Cert.Pre_finite_inputs.fn_part1] at h0
  simp only [andi, IntOp.andi_eq_one] at h0
  obtain ⟨⟨⟨⟨⟨hx, hg⟩, hb⟩, ha⟩, hge⟩, hlt⟩ := h0
  -- each reduction that came out 1 met a 1 at every element; the element is the comparison of that entry
  refine ⟨fun n f => ?_, fun f => ?_, fun f => ?_, fun f => ?_, fun n => ?_⟩
  · exact real_of_abs_lt_posInf _ (Host.reduce_andi_all _ _ _ _ ValueIdx.ix0 hx (ix2 n f))
  · exact real_of_abs_lt_posInf _ (Host.reduce_andi_all _ _ _ _ ValueIdx.ix0 hg (ix2 0 f))
  · exact real_of_abs_lt_posInf _ (Host.reduce_andi_all _ _ _ _ ValueIdx.ix0 hb (ix2 0 f))
  · exact real_of_abs_lt_posInf _ (Host.reduce_andi_all _ _ _ _ ValueIdx.ix0 ha (ix2 0 f))
  · exact toNat_lt_of_signed_range _ (Host.reduce_andi_all _ _ _ _ ValueIdx.ix0 hge (ix1 n))
      (Host.reduce_andi_all _ _ _ _ ValueIdx.ix0 hlt (ix1 n))

end Cert.PreDecode

end
-- ==== Proof.AlgSums.lean ====
import proofs.«423812_j249108103838_3_alg».proof.Proof.Spec

noncomputable section

open scoped BigOperators

namespace GraphNorm

open Idealize.ShloMosaic Idealize.ShloMosaic.ValueIdx

/-- Every row `n` is row `n mod 2000` of block `(n / 2000) mod 250` of core `n / 500000`, and of no other triple:
    `rowOf` is a bijection from (core, block, row in block) onto the rows. -/
def rowEquiv : Fin 2 × Fin 250 × Fin 2000 ≃ Fin 1000000 where
  toFun p := rowOf p.1 p.2.1 p.2.2
  invFun n :=
    (⟨n.val / 500000, by have := n.isLt; omega⟩, ⟨n.val / 2000 % 250, by omega⟩, ⟨n.val % 2000, by omega⟩)
  left_inv := by
    rintro ⟨k, i, r⟩
    have hk := k.isLt
    have hi := i.isLt
    have hr := r.isLt
    refine Prod.ext (Fin.ext ?_) (Prod.ext (Fin.ext ?_) (Fin.ext ?_))
    · show ((250 * k.val + i.val) * 2000 + r.val) / 500000 = k.val
      omega
    · show ((250 * k.val + i.val) * 2000 + r.val) / 2000 % 250 = i.val
      omega
    · show ((250 * k.val + i.val) * 2000 + r.val) % 2000 = r.val
      omega
  right_inv := by
    intro n
    have hn := n.isLt
    refine Fin.ext ?_
    show (250 * (n.val / 500000) + n.val / 2000 % 250) * 2000 + n.val % 2000 = n.val
    omega

theorem rowEquiv_apply (k : Fin 2) (i : Fin 250) (r : Fin 2000) : rowEquiv (k, i, r) = rowOf k i r := rfl

/-- A sum over all rows, split by core, block and row in block. -/
theorem sum_rows (F : Fin 1000000 → EReal) :
    (∑ i : Fin 250, ∑ r : Fin 2000, F (rowOf 0 i r)) + (∑ i : Fin 250, ∑ r : Fin 2000, F (rowOf 1 i r))
      = ∑ n : Fin 1000000, F n := by
  rw [← Equiv.sum_comp rowEquiv F, Fintype.sum_prod_type, Fin.sum_univ_two, Fintype.sum_prod_type,
    Fintype.sum_prod_type]
  simp only [rowEquiv_apply]

/-- Weighting by the indicator of segment `b` keeps exactly the rows of the segment. -/
theorem sum_oh_mul (g : Fin 1000000 → BitVec 32) (b : Nat) (v : Fin 1000000 → EReal) :
    ∑ n : Fin 1000000, oh (g n) b * v n = ∑ e ∈ seg g b, v e := by
  unfold seg
  rw [Finset.sum_filter]
  refine Finset.sum_congr rfl fun n _ => ?_
  unfold oh
  split_ifs
  · exact one_mul _
  · exact zero_mul _

/-- The two cores' accumulated sums for segment `b` add up to the sum over the whole segment: every row is row `r` of
    block `i` of exactly one core, and the indicator keeps the rows of the segment. -/
theorem partSum_total (x : Feat) (g : Fin 1000000 → BitVec 32) (b : Fin 2048) (q : Fin 256) :
    partSum x g 0 b q + partSum x g 1 b q = ∑ e ∈ seg g b.val, feat x e q := by
  unfold partSum
  exact (sum_rows (fun n => oh (g n) b.val * feat x n q)).trans (sum_oh_mul g b.val (fun n => feat x n q))

/-- … and their counts to the number of nodes of the segment. -/
theorem partCnt_total (g : Fin 1000000 → BitVec 32) (b : Fin 2048) :
    partCnt g 0 b + partCnt g 1 b = ∑ _e ∈ seg g b.val, (1 : EReal) := by
  unfold partCnt
  refine (sum_rows (fun n => oh (g n) b.val)).trans ?_
  have h := sum_oh_mul g b.val (fun _ => (1 : EReal))
  simp only [mul_one] at h
  exact h

end GraphNorm

end
-- ==== Proof.AlgReal.lean ====
import proofs.«423812_j249108103838_3_alg».proof.Proof.Spec
import proofs.«423812_j249108103838_3_alg».proof.Proof.AlgSums

noncomputable section

open scoped BigOperators

namespace GraphNorm

open Idealize.ShloMosaic Idealize.ShloMosaic.ValueIdx

/-! ## The three float words, as extended reals -/

/-- The word of `1.0` denotes the real `1`. -/
theorem oneE_eq : oneE = ((1 : ℝ) : EReal) := by
  simp [oneE, Ideal.ofBits, Ideal.ieee, -EReal.coe_mul]; norm_num

/-- The word of `2.0` denotes the real `2`. -/
theorem twoE_eq : twoE = ((2 : ℝ) : EReal) := by
  simp [twoE, Ideal.ofBits, Ideal.ieee, -EReal.coe_mul]; norm_num

/-- The word of `eps` (sign 0, exponent 117, a positive normal number) denotes a positive real. -/
theorem epsE_eq : ∃ e : ℝ, 0 < e ∧ epsE = (e : EReal) := by
  simp [epsE, Ideal.ofBits, Ideal.ieee, -EReal.coe_mul]

/-! ## Real arithmetic inside the extended reals -/

/-- A finite sum of reals, taken in the extended reals, is the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals with a non-zero divisor. -/
theorem div_real (p : ℝ) {q : ℝ} (hq : q ≠ 0) : Ideal.div (p : EReal) (q : EReal) = ((p * (1 / q) : ℝ) : EReal) := by
  rw [Ideal.div_coe hq, ← EReal.coe_mul]

/-- The square root of a real that is not negative. -/
theorem sqrt_real {r : ℝ} (hr : 0 ≤ r) : Ideal.sqrt (r : EReal) = ((Real.sqrt r : ℝ) : EReal) := by
  rw [Ideal.sqrt_coe, if_neg (not_lt.2 hr)]

/-! ## The real identities -/

/-- The mean of the squared deviations from `a` times the mean is the mean of the squares minus
    `mean² (2 a - a²)`: expand the square and use `Σ x = c · mean`. -/
theorem real_var_identity {ι : Type*} (s : Finset ι) (xs : ι → ℝ) (a c : ℝ) (hc : (s.card : ℝ) = c) (hc0 : c ≠ 0) :
    (∑ e ∈ s, (xs e - (∑ i ∈ s, xs i) * (1 / c) * a) * (xs e - (∑ i ∈ s, xs i) * (1 / c) * a)) * (1 / c)
      = (∑ e ∈ s, xs e * xs e) * (1 / c)
        - ((∑ i ∈ s, xs i) * (1 / c)) * ((∑ i ∈ s, xs i) * (1 / c)) * (2 * a - a * a) := by
  set S := ∑ i ∈ s, xs i with hS
  set t := S * (1 / c) * a with ht
  have h1 : ∑ e ∈ s, (xs e - t) * (xs e - t) = (∑ e ∈ s, xs e * xs e) - 2 * t * S + c * (t * t) := by
    have : ∀ e ∈ s, (xs e - t) * (xs e - t) = xs e * xs e - 2 * t * xs e + t * t := fun e _ => by ring
    rw [Finset.sum_congr rfl this, Finset.sum_add_distrib, Finset.sum_sub_distrib, ← Finset.mul_sum,
      Finset.sum_const, nsmul_eq_mul, hc]
  rw [h1, ht]
  field_simp
  ring

/-- … and so that second-moment expression is not negative: it is a mean of squares. -/
theorem real_var_nonneg {ι : Type*} (s : Finset ι) (xs : ι → ℝ) (a c : ℝ) (hc : (s.card : ℝ) = c) (hc0 : 0 < c) :
    0 ≤ (∑ e ∈ s, xs e * xs e) * (1 / c)
        - ((∑ i ∈ s, xs i) * (1 / c)) * ((∑ i ∈ s, xs i) * (1 / c)) * (2 * a - a * a) := by
  rw [← real_var_identity s xs a c hc hc0.ne']
  exact mul_nonneg (Finset.sum_nonneg fun e _ => mul_self_nonneg _) (by positivity)

/-! ## The segment and the stacked features -/

theorem mem_seg (g : Fin 1000000 → BitVec 32) (b : Nat) (e : Fin 1000000) :
    e ∈ seg g b ↔ g e = BitVec.ofNat 32 b := by
  unfold seg
  rw [Finset.mem_filter]
  exact ⟨fun h => h.2, fun h => ⟨Finset.mem_univ _, h⟩⟩

/-- Column `f` of the stacked features is `x`. -/
theorem feat_lo (x : Feat) (e : Fin 1000000) (f : Fin 128) : feat x e (lo f) = x (ix2 e f) := by
  have h : (lo f).val < 128 := f.isLt
  unfold feat
  rw [dif_pos h]
  rfl

/-- Column `128 + f` of the stacked features is `x²`. -/
theorem feat_hi (x : Feat) (e : Fin 1000000) (f : Fin 128) : feat x e (hi f) = x (ix2 e f) * x (ix2 e f) := by
  have h : ¬ (hi f).val < 128 := by show ¬ (128 + f.val < 128); omega
  have key : ∀ p : (hi f).val - 128 < 128, (⟨(hi f).val - 128, p⟩ : Fin 128) = f := fun p =>
    Fin.ext (by show 128 + f.val - 128 = f.val; omega)
  unfold feat
  rw [dif_neg h, key]

/-! ## The kernel's table row, for real accumulators -/

/-- With real sums `S`, `Q`, a real count `c ≥ 1` and real parameters, and the second-moment variance not negative,
    the table's scale is `γ / sqrt(var + eps)` and its shift `β - (S/c) a scale`, as reals. -/
theorem table_real (acc : Fin 2 → Fin 2048 → Fin 256 → EReal) (cacc : Fin 2 → Fin 2048 → EReal) (ga be al : Par)
    (b : Fin 2048) (f : Fin 128) (S Q c a γ β ε : ℝ)
    (hS : acc 0 b (lo f) + acc 1 b (lo f) = (S : EReal))
    (hQ : acc 0 b (hi f) + acc 1 b (hi f) = (Q : EReal))
    (hc : cacc 0 b + cacc 1 b = (c : EReal)) (hc1 : 1 ≤ c)
    (ha : al (ix2 0 f) = (a : EReal)) (hγ : ga (ix2 0 f) = (γ : EReal)) (hβ : be (ix2 0 f) = (β : EReal))
    (hε0 : 0 < ε) (hε : epsE = (ε : EReal))
    (hV : 0 ≤ Q * (1 / c) - S * (1 / c) * (S * (1 / c)) * (2 * a - a * a)) :
    scaleK acc cacc ga al b f
        = ((γ * (1 / Real.sqrt (Q * (1 / c) - S * (1 / c) * (S * (1 / c)) * (2 * a - a * a) + ε)) : ℝ) : EReal)
      ∧ shiftK acc cacc ga be al b f
        = ((β - S * (1 / c) * a
              * (γ * (1 / Real.sqrt (Q * (1 / c) - S * (1 / c) * (S * (1 / c)) * (2 * a - a * a) + ε))) : ℝ) : EReal) := by
  have hc0 : c ≠ 0 := (lt_of_lt_of_le one_pos hc1).ne'
  have hcs : cntSafe cacc b = (c : EReal) := by
    unfold cntSafe
    rw [hc, oneE_eq]
    exact max_eq_left (EReal.coe_le_coe_iff.2 hc1)
  have hm : meanK acc cacc b f = ((S * (1 / c) : ℝ) : EReal) := by
    unfold meanK
    rw [hS, hcs, div_real S hc0]
  have hq : msqK acc cacc b f = ((Q * (1 / c) : ℝ) : EReal) := by
    unfold msqK
    rw [hQ, hcs, div_real Q hc0]
  have hv : varK acc cacc al b f
      = ((Q * (1 / c) - S * (1 / c) * (S * (1 / c)) * (2 * a - a * a) : ℝ) : EReal) := by
    unfold varK
    rw [hm, hq, ha, twoE_eq]
    simp only [← EReal.coe_mul, ← EReal.coe_sub]
    exact max_eq_left (EReal.coe_nonneg.2 hV)
  have hpos : 0 < Q * (1 / c) - S * (1 / c) * (S * (1 / c)) * (2 * a - a * a) + ε := by linarith
  have hsc : scaleK acc cacc ga al b f
      = ((γ * (1 / Real.sqrt (Q * (1 / c) - S * (1 / c) * (S * (1 / c)) * (2 * a - a * a) + ε)) : ℝ) : EReal) := by
    unfold scaleK
    rw [hv, hε, hγ, ← EReal.coe_add, sqrt_real hpos.le, div_real γ (Real.sqrt_pos.2 hpos).ne']
  refine ⟨hsc, ?_⟩
  unfold shiftK
  rw [hβ, hm, ha, hsc]
  simp only [← EReal.coe_mul, ← EReal.coe_sub]

/-- For real features and parameters and ids below 2048 the kernel's `x * scale + shift` of the node's own segment is the
    reference's normalised deviation: the segment is not empty (it holds the node), its variance about the shifted mean
    is the second moment minus `m² (2 alpha - alpha²)`, which is not negative, and `(x - alpha m) / s * gamma + beta
    = x * (gamma / s) + (beta - alpha m (gamma / s))` for a positive real `s`. -/
theorem kerOut_eq_refOut (x : Feat) (g : Fin 1000000 → BitVec 32) (ga be al : Par)
    (hx : ∀ (n : Fin 1000000) (f : Fin 128), ∃ r : ℝ, x (ix2 n f) = (r : EReal))
    (hga : ∀ f : Fin 128, ∃ r : ℝ, ga (ix2 0 f) = (r : EReal))
    (hbe : ∀ f : Fin 128, ∃ r : ℝ, be (ix2 0 f) = (r : EReal))
    (hal : ∀ f : Fin 128, ∃ r : ℝ, al (ix2 0 f) = (r : EReal))
    (hg : ∀ n : Fin 1000000, (g n).toNat < 2048) (n : Fin 1000000) (f : Fin 128) :
    kerOut x g ga be al n f ⟨(g n).toNat, hg n⟩ = refOut x g ga be al n f := by
  choose xr hxr using hx
  obtain ⟨γ, hγ⟩ := hga f
  obtain ⟨β, hβ⟩ := hbe f
  obtain ⟨a, ha⟩ := hal f
  obtain ⟨ε, hε0, hε⟩ := epsE_eq
  -- the node's own segment: it holds the node, and all its nodes carry the node's id
  have hb : (g n).toNat < 2048 := hg n
  have hgn : g n = BitVec.ofNat 32 (g n).toNat := by
    apply BitVec.eq_of_toNat_eq
    rw [BitVec.toNat_ofNat, Nat.mod_eq_of_lt (by omega)]
  have hn : n ∈ seg g (g n).toNat := (mem_seg g _ n).2 hgn
  have hseg : ∀ e ∈ seg g (g n).toNat, (g e).toNat = (g n).toNat := fun e he => by
    rw [(mem_seg g _ e).1 he, BitVec.toNat_ofNat, Nat.mod_eq_of_lt (by omega)]
  -- its count, a real that is at least one
  have hc1 : (1 : ℝ) ≤ ((seg g (g n).toNat).card : ℝ) := by
    exact_mod_cast Finset.card_pos.2 ⟨n, hn⟩
  have hc0 : (0 : ℝ) < ((seg g (g n).toNat).card : ℝ) := lt_of_lt_of_le one_pos hc1
  have hones : ∑ _e ∈ seg g (g n).toNat, ((1 : ℝ) : EReal) = (((seg g (g n).toNat).card : ℝ) : EReal) := by
    rw [coe_sum, Finset.sum_const, nsmul_eq_mul, mul_one]
  -- the kernel's side
  have hS : partSum x g 0 ⟨(g n).toNat, hg n⟩ (lo f) + partSum x g 1 ⟨(g n).toNat, hg n⟩ (lo f)
      = ((∑ e ∈ seg g (g n).toNat, xr e f : ℝ) : EReal) := by
    rw [partSum_total, ← coe_sum]
    exact Finset.sum_congr rfl fun e _ => by rw [feat_lo, hxr]
  have hQ : partSum x g 0 ⟨(g n).toNat, hg n⟩ (hi f) + partSum x g 1 ⟨(g n).toNat, hg n⟩ (hi f)
      = ((∑ e ∈ seg g (g n).toNat, xr e f * xr e f : ℝ) : EReal) := by
    rw [partSum_total, ← coe_sum]
    exact Finset.sum_congr rfl fun e _ => by rw [feat_hi, hxr, EReal.coe_mul]
  have hC : partCnt g 0 ⟨(g n).toNat, hg n⟩ + partCnt g 1 ⟨(g n).toNat, hg n⟩
      = (((seg g (g n).toNat).card : ℝ) : EReal) := by
    rw [partCnt_total, ← hones, EReal.coe_one]
  have hV := real_var_nonneg (seg g (g n).toNat) (fun e => xr e f) a _ rfl hc0
  obtain ⟨hsc, hsh⟩ := table_real (partSum x g) (partCnt g) ga be al ⟨(g n).toNat, hg n⟩ f _ _ _ a γ β ε
    hS hQ hC hc1 ha hγ hβ hε0 hε hV
  -- the reference's side
  have hcnt : cntR g (g n).toNat = (((seg g (g n).toNat).card : ℝ) : EReal) := by
    unfold cntR
    rw [oneE_eq, hones]
  have hsum : sumR x g (g n).toNat f = ((∑ e ∈ seg g (g n).toNat, xr e f : ℝ) : EReal) := by
    unfold sumR
    rw [← coe_sum]
    exact Finset.sum_congr rfl fun e _ => hxr e f
  have hmean : meanAR x g al (g n).toNat f
      = (((∑ e ∈ seg g (g n).toNat, xr e f) * (1 / ((seg g (g n).toNat).card : ℝ)) * a : ℝ) : EReal) := by
    unfold meanAR
    rw [hsum, hcnt, div_real _ hc0.ne', ha, ← EReal.coe_mul]
  have hdiff : ∀ e ∈ seg g (g n).toNat, diffR x g al e f
      = ((xr e f - (∑ e ∈ seg g (g n).toNat, xr e f) * (1 / ((seg g (g n).toNat).card : ℝ)) * a : ℝ) : EReal) :=
    fun e he => by
      unfold diffR
      rw [hseg e he, hmean, hxr, ← EReal.coe_sub]
  have hssq : ssqR x g al (g n).toNat f
      = ((∑ e ∈ seg g (g n).toNat,
            (xr e f - (∑ e ∈ seg g (g n).toNat, xr e f) * (1 / ((seg g (g n).toNat).card : ℝ)) * a)
              * (xr e f - (∑ e ∈ seg g (g n).toNat, xr e f) * (1 / ((seg g (g n).toNat).card : ℝ)) * a) : ℝ) : EReal) := by
    unfold ssqR
    rw [← coe_sum]
    exact Finset.sum_congr rfl fun e he => by rw [hdiff e he, ← EReal.coe_mul]
  have hid := real_var_identity (seg g (g n).toNat) (fun e => xr e f) a _ rfl hc0.ne'
  have hpos : 0 < (∑ e ∈ seg g (g n).toNat, xr e f * xr e f) * (1 / ((seg g (g n).toNat).card : ℝ))
      - (∑ e ∈ seg g (g n).toNat, xr e f) * (1 / ((seg g (g n).toNat).card : ℝ))
        * ((∑ e ∈ seg g (g n).toNat, xr e f) * (1 / ((seg g (g n).toNat).card : ℝ))) * (2 * a - a * a) + ε := by
    linarith
  have hsd : sdR x g al (g n).toNat f
      = ((Real.sqrt ((∑ e ∈ seg g (g n).toNat, xr e f * xr e f) * (1 / ((seg g (g n).toNat).card : ℝ))
          - (∑ e ∈ seg g (g n).toNat, xr e f) * (1 / ((seg g (g n).toNat).card : ℝ))
            * ((∑ e ∈ seg g (g n).toNat, xr e f) * (1 / ((seg g (g n).toNat).card : ℝ))) * (2 * a - a * a) + ε) : ℝ) : EReal) := by
    unfold sdR
    rw [hssq, hcnt, div_real _ hc0.ne', hε, ← EReal.coe_add, hid, sqrt_real hpos.le]
  -- both sides are reals; compare them
  unfold kerOut refOut
  rw [hsc, hsh, hdiff n hn, hsd, div_real _ (Real.sqrt_pos.2 hpos).ne', hγ, hβ, hxr]
  simp only [← EReal.coe_mul, ← EReal.coe_add]
  rw [EReal.coe_eq_coe_iff]
  ring

end GraphNorm

end
-- ==== Proof.lean ====
/-
  Segment ("graph") normalisation: a two-pass kernel against a segment-sum reference, equal over the extended reals
  when every feature and parameter is a real number and every node's id is a segment number in [0, 2048).

  The reference centres each node's features on alpha times its segment's mean, and divides by the root of the
  segment's mean squared deviation plus eps. The kernel accumulates, per segment, the sum of x, the sum of x² and
  the count (as products of indicator columns with the stacked features [x | x²], split over two cores and 500
  row blocks), forms from them a table [scale | shift] with the variance obtained from the second moment,
  var = Σx²/c − m²(2·alpha − alpha²), and returns x·scale + shift of the node's own table row, the row being picked
  out by another product with indicator columns.

  The two agree because (1) every row lies in exactly one block of one core, so the cores' partial sums add up to
  the segment sums; (2) a node's own segment is not empty, so the kernel's guard max(count, 1) is the count, and the
  indicator products return exactly the node's own row (every other term is a zero times a table entry); (3) for
  real numbers the mean squared deviation about alpha·m IS Σx²/c − m²(2·alpha − alpha²), a non-negative number, so
  the clipping at zero does nothing; and (4) (x − alpha·m)/s·gamma + beta = x·(gamma/s) + (beta − alpha·m·(gamma/s))
  for a positive real s.
-/
import proofs.«423812_j249108103838_3_alg».proof.Defs
import proofs.«423812_j249108103838_3_alg».proof.Proof.Gen.Kernel
import proofs.«423812_j249108103838_3_alg».proof.Proof.Gen.Kernel.Frame
import proofs.«423812_j249108103838_3_alg».proof.Proof.Gen.KernelIdeal
import proofs.«423812_j249108103838_3_alg».proof.Proof.Gen.KernelIdeal.Frame
import proofs.«423812_j249108103838_3_alg».proof.Proof.Gen.ReferenceIdeal
import proofs.«423812_j249108103838_3_alg».proof.Proof.Gen.ReferenceIdeal.Run
import proofs.«423812_j249108103838_3_alg».proof.Proof.Gen.ReferenceIdeal.Read
import proofs.«423812_j249108103838_3_alg».proof.Proof.Gen.Pre_finite_inputs
import proofs.«423812_j249108103838_3_alg».proof.Proof.KernelValue
import proofs.«423812_j249108103838_3_alg».proof.Proof.RefValue
import proofs.«423812_j249108103838_3_alg».proof.Proof.PreDecode
import proofs.«423812_j249108103838_3_alg».proof.Proof.AlgReal
import Idealize.ShloMosaic.Adequacy
import Idealize.ShloMosaic.Init

noncomputable section

namespace Cert.Proof

open Idealize.ShloMosaic Idealize.ShloMosaic.TcCoe Idealize.SL.Sem Idealize.ShloMosaic.ValueIdx GraphNorm

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four round trips through bf16 the idealisation removed (the indicator matrices, read back as f32 for the
    counts) are identities over the extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both programs end with the same result array: entry (n, f) of the kernel's is `kerOut` of the launch arrays, of
    the reference's `refOut`, and the two are one number under the precondition. -/
theorem algebraic : Cert.algebraic_KernelIdeal_ReferenceIdeal := by
  intro m ρ m' ρ' hpre hagree
  refine ⟨fun c => Cert.KernelIdeal.Gen.W6 m ρ c (Proc.devRef .tc Cert.KernelIdeal.main_v35),
    Cert.KernelIdeal.GenRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hga, hbe, hal, hr⟩ := Cert.PreDecode.decode _ _ _ _ _ _ (hpre c)
  rw [Cert.ReferenceIdeal.Read.val_main_v40_eq, (hagree c).1, (hagree c).2.1, (hagree c).2.2.2.1, (hagree c).2.2.2.2.1,
    (hagree c).2.2.2.2.2]
  funext j
  obtain ⟨n, f, rfl⟩ : ∃ (n : Fin 1000000) (f : Fin 128), j = ix2 n f := ⟨j 0, j 1, eq_ix2 j⟩
  rw [Cert.ReferenceIdeal.RefValue.result_apply _ _ _ _ _ hr n f]
  exact ((Cert.KernelIdeal.KernelValue.result_apply m ρ c hr n f).trans
    (kerOut_eq_refOut _ _ _ _ _ hx hga hbe hal hr n f)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
